-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S1024x512 : Shape := ⟨2, ![1024, 512]⟩
abbrev S32 : Shape := ⟨1, ![32]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v18 : BitVec 32 := Scalar.addi v17 c0_i32_12
  let c0_i32_20 : BitVec 32 := 0#32
  ![v18.toNat, 0]
def k0_dev3 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v19 : BitVec 32 := Scalar.muli v2 c2_i32_15
  let v20 : BitVec 32 := Scalar.addi c0_i32_16 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v21 : BitVec 32 := Scalar.muli v6 c1_i32_17
  let v22 : BitVec 32 := Scalar.addi v20 v21
  v22.toNat
def k0_dev4 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v30 : BitVec 32 := Scalar.muli v2 c2_i32_23
  let v31 : BitVec 32 := Scalar.addi c0_i32_24 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v32 : BitVec 32 := Scalar.muli v6 c1_i32_25
  let v33 : BitVec 32 := Scalar.addi v31 v32
  v33.toNat
def k0_dev5 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v41 : BitVec 32 := Scalar.muli v2 c2_i32_31
  let v42 : BitVec 32 := Scalar.addi c0_i32_32 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v43 : BitVec 32 := Scalar.muli v6 c1_i32_33
  let v44 : BitVec 32 := Scalar.addi v42 v43
  v44.toNat
def k0_dev6 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v52 : BitVec 32 := Scalar.muli v2 c2_i32_38
  let v53 : BitVec 32 := Scalar.addi c0_i32_39 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v54 : BitVec 32 := Scalar.muli v6 c1_i32_40
  let v55 : BitVec 32 := Scalar.addi v53 v54
  v55.toNat
def k0_dev7 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v63 : BitVec 32 := Scalar.muli v2 c2_i32_45
  let v64 : BitVec 32 := Scalar.addi c0_i32_46 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v65 : BitVec 32 := Scalar.muli v6 c1_i32_47
  let v66 : BitVec 32 := Scalar.addi v64 v65
  v66.toNat
def k0_dev8 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v74 : BitVec 32 := Scalar.muli v2 c2_i32_52
  let v75 : BitVec 32 := Scalar.addi c0_i32_53 v74
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v76 : BitVec 32 := Scalar.muli v6 c1_i32_54
  let v77 : BitVec 32 := Scalar.addi v75 v76
  v77.toNat
def k0_dev9 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v85 : BitVec 32 := Scalar.muli v2 c2_i32_59
  let v86 : BitVec 32 := Scalar.addi c0_i32_60 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v87 : BitVec 32 := Scalar.muli v6 c1_i32_61
  let v88 : BitVec 32 := Scalar.addi v86 v87
  v88.toNat
def k0_dev10 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v96 : BitVec 32 := Scalar.muli v2 c2_i32_66
  let v97 : BitVec 32 := Scalar.addi c0_i32_67 v96
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v98 : BitVec 32 := Scalar.muli v6 c1_i32_68
  let v99 : BitVec 32 := Scalar.addi v97 v98
  v99.toNat
def k0_dev11 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v107 : BitVec 32 := Scalar.muli v2 c2_i32_73
  let v108 : BitVec 32 := Scalar.addi c0_i32_74 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v109 : BitVec 32 := Scalar.muli v6 c1_i32_75
  let v110 : BitVec 32 := Scalar.addi v108 v109
  v110.toNat
def k0_dev12 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v118 : BitVec 32 := Scalar.muli v2 c2_i32_80
  let v119 : BitVec 32 := Scalar.addi c0_i32_81 v118
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_82 : BitVec 32 := 1#32
  let v120 : BitVec 32 := Scalar.muli v6 c1_i32_82
  let v121 : BitVec 32 := Scalar.addi v119 v120
  v121.toNat
def k0_dev13 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v129 : BitVec 32 := Scalar.muli v2 c2_i32_87
  let v130 : BitVec 32 := Scalar.addi c0_i32_88 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v131 : BitVec 32 := Scalar.muli v6 c1_i32_89
  let v132 : BitVec 32 := Scalar.addi v130 v131
  v132.toNat
def k0_dev14 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v140 : BitVec 32 := Scalar.muli v2 c2_i32_94
  let v141 : BitVec 32 := Scalar.addi c0_i32_95 v140
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_96 : BitVec 32 := 1#32
  let v142 : BitVec 32 := Scalar.muli v6 c1_i32_96
  let v143 : BitVec 32 := Scalar.addi v141 v142
  v143.toNat
def k0_dev15 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v151 : BitVec 32 := Scalar.muli v2 c2_i32_101
  let v152 : BitVec 32 := Scalar.addi c0_i32_102 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v153 : BitVec 32 := Scalar.muli v6 c1_i32_103
  let v154 : BitVec 32 := Scalar.addi v152 v153
  v154.toNat
def k0_dev16 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v162 : BitVec 32 := Scalar.muli v2 c2_i32_108
  let v163 : BitVec 32 := Scalar.addi c0_i32_109 v162
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v164 : BitVec 32 := Scalar.muli v6 c1_i32_110
  let v165 : BitVec 32 := Scalar.addi v163 v164
  v165.toNat
def k0_dev17 (d0 : Dev nD) : Nat :=
  let c0_i32_116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_115 : BitVec 32 := 2#32
  let v173 : BitVec 32 := Scalar.muli v2 c2_i32_115
  let v174 : BitVec 32 := Scalar.addi c0_i32_116 v173
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_117 : BitVec 32 := 1#32
  let v175 : BitVec 32 := Scalar.muli v6 c1_i32_117
  let v176 : BitVec 32 := Scalar.addi v174 v175
  v176.toNat
def k0_dev18 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v184 : BitVec 32 := Scalar.muli v2 c2_i32_122
  let v185 : BitVec 32 := Scalar.addi c0_i32_123 v184
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v186 : BitVec 32 := Scalar.muli v6 c1_i32_124
  let v187 : BitVec 32 := Scalar.addi v185 v186
  v187.toNat
def k0_dev19 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v195 : BitVec 32 := Scalar.muli v2 c2_i32_129
  let v196 : BitVec 32 := Scalar.addi c0_i32_130 v195
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_131 : BitVec 32 := 1#32
  let v197 : BitVec 32 := Scalar.muli v6 c1_i32_131
  let v198 : BitVec 32 := Scalar.addi v196 v197
  v198.toNat
def k0_dev20 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v206 : BitVec 32 := Scalar.muli v2 c2_i32_136
  let v207 : BitVec 32 := Scalar.addi c0_i32_137 v206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_138 : BitVec 32 := 1#32
  let v208 : BitVec 32 := Scalar.muli v6 c1_i32_138
  let v209 : BitVec 32 := Scalar.addi v207 v208
  v209.toNat
def k0_dev21 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_143 : BitVec 32 := 2#32
  let v217 : BitVec 32 := Scalar.muli v2 c2_i32_143
  let v218 : BitVec 32 := Scalar.addi c0_i32_144 v217
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_145 : BitVec 32 := 1#32
  let v219 : BitVec 32 := Scalar.muli v6 c1_i32_145
  let v220 : BitVec 32 := Scalar.addi v218 v219
  v220.toNat
def k0_dev22 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v228 : BitVec 32 := Scalar.muli v2 c2_i32_150
  let v229 : BitVec 32 := Scalar.addi c0_i32_151 v228
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_152 : BitVec 32 := 1#32
  let v230 : BitVec 32 := Scalar.muli v6 c1_i32_152
  let v231 : BitVec 32 := Scalar.addi v229 v230
  v231.toNat
def k0_dev23 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v239 : BitVec 32 := Scalar.muli v2 c2_i32_157
  let v240 : BitVec 32 := Scalar.addi c0_i32_158 v239
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_159 : BitVec 32 := 1#32
  let v241 : BitVec 32 := Scalar.muli v6 c1_i32_159
  let v242 : BitVec 32 := Scalar.addi v240 v241
  v242.toNat
def k0_dev24 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v250 : BitVec 32 := Scalar.muli v2 c2_i32_164
  let v251 : BitVec 32 := Scalar.addi c0_i32_165 v250
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v252 : BitVec 32 := Scalar.muli v6 c1_i32_166
  let v253 : BitVec 32 := Scalar.addi v251 v252
  v253.toNat
def k0_dev25 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v261 : BitVec 32 := Scalar.muli v2 c2_i32_171
  let v262 : BitVec 32 := Scalar.addi c0_i32_172 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_173 : BitVec 32 := 1#32
  let v263 : BitVec 32 := Scalar.muli v6 c1_i32_173
  let v264 : BitVec 32 := Scalar.addi v262 v263
  v264.toNat
def k0_dev26 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v272 : BitVec 32 := Scalar.muli v2 c2_i32_178
  let v273 : BitVec 32 := Scalar.addi c0_i32_179 v272
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v274 : BitVec 32 := Scalar.muli v6 c1_i32_180
  let v275 : BitVec 32 := Scalar.addi v273 v274
  v275.toNat
def k0_dev27 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v283 : BitVec 32 := Scalar.muli v2 c2_i32_185
  let v284 : BitVec 32 := Scalar.addi c0_i32_186 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v285 : BitVec 32 := Scalar.muli v6 c1_i32_187
  let v286 : BitVec 32 := Scalar.addi v284 v285
  v286.toNat
def k0_dev28 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v294 : BitVec 32 := Scalar.muli v2 c2_i32_192
  let v295 : BitVec 32 := Scalar.addi c0_i32_193 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_194 : BitVec 32 := 1#32
  let v296 : BitVec 32 := Scalar.muli v6 c1_i32_194
  let v297 : BitVec 32 := Scalar.addi v295 v296
  v297.toNat
def k0_dev29 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v305 : BitVec 32 := Scalar.muli v2 c2_i32_199
  let v306 : BitVec 32 := Scalar.addi c0_i32_200 v305
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_201 : BitVec 32 := 1#32
  let v307 : BitVec 32 := Scalar.muli v6 c1_i32_201
  let v308 : BitVec 32 := Scalar.addi v306 v307
  v308.toNat
def k0_dev30 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v316 : BitVec 32 := Scalar.muli v2 c2_i32_206
  let v317 : BitVec 32 := Scalar.addi c0_i32_207 v316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_208 : BitVec 32 := 1#32
  let v318 : BitVec 32 := Scalar.muli v6 c1_i32_208
  let v319 : BitVec 32 := Scalar.addi v317 v318
  v319.toNat
def k0_dev31 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_213 : BitVec 32 := 2#32
  let v327 : BitVec 32 := Scalar.muli v2 c2_i32_213
  let v328 : BitVec 32 := Scalar.addi c0_i32_214 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_215 : BitVec 32 := 1#32
  let v329 : BitVec 32 := Scalar.muli v6 c1_i32_215
  let v330 : BitVec 32 := Scalar.addi v328 v329
  v330.toNat
def k0_dev32 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v338 : BitVec 32 := Scalar.muli v2 c2_i32_220
  let v339 : BitVec 32 := Scalar.addi c0_i32_221 v338
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_222 : BitVec 32 := 1#32
  let v340 : BitVec 32 := Scalar.muli v6 c1_i32_222
  let v341 : BitVec 32 := Scalar.addi v339 v340
  v341.toNat
def k0_dev33 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v349 : BitVec 32 := Scalar.muli v2 c2_i32_227
  let v350 : BitVec 32 := Scalar.addi c0_i32_228 v349
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_229 : BitVec 32 := 1#32
  let v351 : BitVec 32 := Scalar.muli v6 c1_i32_229
  let v352 : BitVec 32 := Scalar.addi v350 v351
  v352.toNat
def k0_dev34 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v360 : BitVec 32 := Scalar.muli v2 c2_i32_234
  let v361 : BitVec 32 := Scalar.addi c0_i32_235 v360
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_236 : BitVec 32 := 1#32
  let v362 : BitVec 32 := Scalar.muli v6 c1_i32_236
  let v363 : BitVec 32 := Scalar.addi v361 v362
  v363.toNat
def k0_off2 (d0 : Dev nD) (c0_i32_248 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v378 : BitVec 32 := Scalar.addi v17 c0_i32_248
  let v379 : Index := Scalar.indexCast v378
  let c0 : Index := 0#32
  ![v379.toNat, 0]
def k0_dev35 (d0 : Dev nD) : Nat :=
  let c0_i32_255 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_254 : BitVec 32 := 2#32
  let v386 : BitVec 32 := Scalar.muli v7 c2_i32_254
  let v387 : BitVec 32 := Scalar.addi c0_i32_255 v386
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v388 : BitVec 32 := Scalar.muli v5 c1_i32_256
  let v389 : BitVec 32 := Scalar.addi v387 v388
  v389.toNat
def k0_dev36 (d0 : Dev nD) : Nat :=
  let c0_i32_274 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_273 : BitVec 32 := 2#32
  let v412 : BitVec 32 := Scalar.muli v7 c2_i32_273
  let v413 : BitVec 32 := Scalar.addi c0_i32_274 v412
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v414 : BitVec 32 := Scalar.muli v5 c1_i32_275
  let v415 : BitVec 32 := Scalar.addi v413 v414
  v415.toNat
def k0_dev37 (d0 : Dev nD) : Nat :=
  let c0_i32_293 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_292 : BitVec 32 := 2#32
  let v438 : BitVec 32 := Scalar.muli v7 c2_i32_292
  let v439 : BitVec 32 := Scalar.addi c0_i32_293 v438
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_294 : BitVec 32 := 1#32
  let v440 : BitVec 32 := Scalar.muli v5 c1_i32_294
  let v441 : BitVec 32 := Scalar.addi v439 v440
  v441.toNat
def k0_dev38 (d0 : Dev nD) : Nat :=
  let c0_i32_312 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_311 : BitVec 32 := 2#32
  let v464 : BitVec 32 := Scalar.muli v7 c2_i32_311
  let v465 : BitVec 32 := Scalar.addi c0_i32_312 v464
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v466 : BitVec 32 := Scalar.muli v5 c1_i32_313
  let v467 : BitVec 32 := Scalar.addi v465 v466
  v467.toNat
def k0_dev39 (d0 : Dev nD) : Nat :=
  let c0_i32_331 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_330 : BitVec 32 := 2#32
  let v490 : BitVec 32 := Scalar.muli v7 c2_i32_330
  let v491 : BitVec 32 := Scalar.addi c0_i32_331 v490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v492 : BitVec 32 := Scalar.muli v5 c1_i32_332
  let v493 : BitVec 32 := Scalar.addi v491 v492
  v493.toNat
def k0_dev40 (d0 : Dev nD) : Nat :=
  let c0_i32_350 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_349 : BitVec 32 := 2#32
  let v516 : BitVec 32 := Scalar.muli v7 c2_i32_349
  let v517 : BitVec 32 := Scalar.addi c0_i32_350 v516
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_351 : BitVec 32 := 1#32
  let v518 : BitVec 32 := Scalar.muli v5 c1_i32_351
  let v519 : BitVec 32 := Scalar.addi v517 v518
  v519.toNat
def k0_dev41 (d0 : Dev nD) : Nat :=
  let c0_i32_369 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_368 : BitVec 32 := 2#32
  let v542 : BitVec 32 := Scalar.muli v7 c2_i32_368
  let v543 : BitVec 32 := Scalar.addi c0_i32_369 v542
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_370 : BitVec 32 := 1#32
  let v544 : BitVec 32 := Scalar.muli v5 c1_i32_370
  let v545 : BitVec 32 := Scalar.addi v543 v544
  v545.toNat
def k0_dev42 (d0 : Dev nD) : Nat :=
  let c0_i32_388 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_387 : BitVec 32 := 2#32
  let v568 : BitVec 32 := Scalar.muli v7 c2_i32_387
  let v569 : BitVec 32 := Scalar.addi c0_i32_388 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_389 : BitVec 32 := 1#32
  let v570 : BitVec 32 := Scalar.muli v5 c1_i32_389
  let v571 : BitVec 32 := Scalar.addi v569 v570
  v571.toNat
def k0_dev43 (d0 : Dev nD) : Nat :=
  let c0_i32_407 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_406 : BitVec 32 := 2#32
  let v594 : BitVec 32 := Scalar.muli v7 c2_i32_406
  let v595 : BitVec 32 := Scalar.addi c0_i32_407 v594
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_408 : BitVec 32 := 1#32
  let v596 : BitVec 32 := Scalar.muli v5 c1_i32_408
  let v597 : BitVec 32 := Scalar.addi v595 v596
  v597.toNat
def k0_dev44 (d0 : Dev nD) : Nat :=
  let c0_i32_426 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_425 : BitVec 32 := 2#32
  let v620 : BitVec 32 := Scalar.muli v7 c2_i32_425
  let v621 : BitVec 32 := Scalar.addi c0_i32_426 v620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_427 : BitVec 32 := 1#32
  let v622 : BitVec 32 := Scalar.muli v5 c1_i32_427
  let v623 : BitVec 32 := Scalar.addi v621 v622
  v623.toNat
def k0_dev45 (d0 : Dev nD) : Nat :=
  let c0_i32_445 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_444 : BitVec 32 := 2#32
  let v646 : BitVec 32 := Scalar.muli v7 c2_i32_444
  let v647 : BitVec 32 := Scalar.addi c0_i32_445 v646
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_446 : BitVec 32 := 1#32
  let v648 : BitVec 32 := Scalar.muli v5 c1_i32_446
  let v649 : BitVec 32 := Scalar.addi v647 v648
  v649.toNat
def k0_dev46 (d0 : Dev nD) : Nat :=
  let c0_i32_464 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_463 : BitVec 32 := 2#32
  let v672 : BitVec 32 := Scalar.muli v7 c2_i32_463
  let v673 : BitVec 32 := Scalar.addi c0_i32_464 v672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_465 : BitVec 32 := 1#32
  let v674 : BitVec 32 := Scalar.muli v5 c1_i32_465
  let v675 : BitVec 32 := Scalar.addi v673 v674
  v675.toNat
def k0_dev47 (d0 : Dev nD) : Nat :=
  let c0_i32_483 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_482 : BitVec 32 := 2#32
  let v698 : BitVec 32 := Scalar.muli v7 c2_i32_482
  let v699 : BitVec 32 := Scalar.addi c0_i32_483 v698
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_484 : BitVec 32 := 1#32
  let v700 : BitVec 32 := Scalar.muli v5 c1_i32_484
  let v701 : BitVec 32 := Scalar.addi v699 v700
  v701.toNat
def k0_dev48 (d0 : Dev nD) : Nat :=
  let c0_i32_502 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_501 : BitVec 32 := 2#32
  let v724 : BitVec 32 := Scalar.muli v7 c2_i32_501
  let v725 : BitVec 32 := Scalar.addi c0_i32_502 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_503 : BitVec 32 := 1#32
  let v726 : BitVec 32 := Scalar.muli v5 c1_i32_503
  let v727 : BitVec 32 := Scalar.addi v725 v726
  v727.toNat
def k0_dev49 (d0 : Dev nD) : Nat :=
  let c0_i32_521 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_520 : BitVec 32 := 2#32
  let v750 : BitVec 32 := Scalar.muli v7 c2_i32_520
  let v751 : BitVec 32 := Scalar.addi c0_i32_521 v750
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_522 : BitVec 32 := 1#32
  let v752 : BitVec 32 := Scalar.muli v5 c1_i32_522
  let v753 : BitVec 32 := Scalar.addi v751 v752
  v753.toNat
def k0_dev50 (d0 : Dev nD) : Nat :=
  let c0_i32_540 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_539 : BitVec 32 := 2#32
  let v776 : BitVec 32 := Scalar.muli v7 c2_i32_539
  let v777 : BitVec 32 := Scalar.addi c0_i32_540 v776
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_541 : BitVec 32 := 1#32
  let v778 : BitVec 32 := Scalar.muli v5 c1_i32_541
  let v779 : BitVec 32 := Scalar.addi v777 v778
  v779.toNat
def k0_dev51 (d0 : Dev nD) : Nat :=
  let c0_i32_559 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_558 : BitVec 32 := 2#32
  let v802 : BitVec 32 := Scalar.muli v7 c2_i32_558
  let v803 : BitVec 32 := Scalar.addi c0_i32_559 v802
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_560 : BitVec 32 := 1#32
  let v804 : BitVec 32 := Scalar.muli v5 c1_i32_560
  let v805 : BitVec 32 := Scalar.addi v803 v804
  v805.toNat
def k0_dev52 (d0 : Dev nD) : Nat :=
  let c0_i32_578 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_577 : BitVec 32 := 2#32
  let v828 : BitVec 32 := Scalar.muli v7 c2_i32_577
  let v829 : BitVec 32 := Scalar.addi c0_i32_578 v828
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_579 : BitVec 32 := 1#32
  let v830 : BitVec 32 := Scalar.muli v5 c1_i32_579
  let v831 : BitVec 32 := Scalar.addi v829 v830
  v831.toNat
def k0_dev53 (d0 : Dev nD) : Nat :=
  let c0_i32_597 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_596 : BitVec 32 := 2#32
  let v854 : BitVec 32 := Scalar.muli v7 c2_i32_596
  let v855 : BitVec 32 := Scalar.addi c0_i32_597 v854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_598 : BitVec 32 := 1#32
  let v856 : BitVec 32 := Scalar.muli v5 c1_i32_598
  let v857 : BitVec 32 := Scalar.addi v855 v856
  v857.toNat
def k0_dev54 (d0 : Dev nD) : Nat :=
  let c0_i32_616 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_615 : BitVec 32 := 2#32
  let v880 : BitVec 32 := Scalar.muli v7 c2_i32_615
  let v881 : BitVec 32 := Scalar.addi c0_i32_616 v880
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_617 : BitVec 32 := 1#32
  let v882 : BitVec 32 := Scalar.muli v5 c1_i32_617
  let v883 : BitVec 32 := Scalar.addi v881 v882
  v883.toNat
def k0_dev55 (d0 : Dev nD) : Nat :=
  let c0_i32_635 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_634 : BitVec 32 := 2#32
  let v906 : BitVec 32 := Scalar.muli v7 c2_i32_634
  let v907 : BitVec 32 := Scalar.addi c0_i32_635 v906
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_636 : BitVec 32 := 1#32
  let v908 : BitVec 32 := Scalar.muli v5 c1_i32_636
  let v909 : BitVec 32 := Scalar.addi v907 v908
  v909.toNat
def k0_dev56 (d0 : Dev nD) : Nat :=
  let c0_i32_654 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_653 : BitVec 32 := 2#32
  let v932 : BitVec 32 := Scalar.muli v7 c2_i32_653
  let v933 : BitVec 32 := Scalar.addi c0_i32_654 v932
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_655 : BitVec 32 := 1#32
  let v934 : BitVec 32 := Scalar.muli v5 c1_i32_655
  let v935 : BitVec 32 := Scalar.addi v933 v934
  v935.toNat
def k0_dev57 (d0 : Dev nD) : Nat :=
  let c0_i32_673 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_672 : BitVec 32 := 2#32
  let v958 : BitVec 32 := Scalar.muli v7 c2_i32_672
  let v959 : BitVec 32 := Scalar.addi c0_i32_673 v958
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_674 : BitVec 32 := 1#32
  let v960 : BitVec 32 := Scalar.muli v5 c1_i32_674
  let v961 : BitVec 32 := Scalar.addi v959 v960
  v961.toNat
def k0_dev58 (d0 : Dev nD) : Nat :=
  let c0_i32_692 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_691 : BitVec 32 := 2#32
  let v984 : BitVec 32 := Scalar.muli v7 c2_i32_691
  let v985 : BitVec 32 := Scalar.addi c0_i32_692 v984
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_693 : BitVec 32 := 1#32
  let v986 : BitVec 32 := Scalar.muli v5 c1_i32_693
  let v987 : BitVec 32 := Scalar.addi v985 v986
  v987.toNat
def k0_dev59 (d0 : Dev nD) : Nat :=
  let c0_i32_711 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_710 : BitVec 32 := 2#32
  let v1010 : BitVec 32 := Scalar.muli v7 c2_i32_710
  let v1011 : BitVec 32 := Scalar.addi c0_i32_711 v1010
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_712 : BitVec 32 := 1#32
  let v1012 : BitVec 32 := Scalar.muli v5 c1_i32_712
  let v1013 : BitVec 32 := Scalar.addi v1011 v1012
  v1013.toNat
def k0_dev60 (d0 : Dev nD) : Nat :=
  let c0_i32_730 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_729 : BitVec 32 := 2#32
  let v1036 : BitVec 32 := Scalar.muli v7 c2_i32_729
  let v1037 : BitVec 32 := Scalar.addi c0_i32_730 v1036
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_731 : BitVec 32 := 1#32
  let v1038 : BitVec 32 := Scalar.muli v5 c1_i32_731
  let v1039 : BitVec 32 := Scalar.addi v1037 v1038
  v1039.toNat
def k0_dev61 (d0 : Dev nD) : Nat :=
  let c0_i32_749 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_748 : BitVec 32 := 2#32
  let v1062 : BitVec 32 := Scalar.muli v7 c2_i32_748
  let v1063 : BitVec 32 := Scalar.addi c0_i32_749 v1062
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_750 : BitVec 32 := 1#32
  let v1064 : BitVec 32 := Scalar.muli v5 c1_i32_750
  let v1065 : BitVec 32 := Scalar.addi v1063 v1064
  v1065.toNat
def k0_dev62 (d0 : Dev nD) : Nat :=
  let c0_i32_768 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_767 : BitVec 32 := 2#32
  let v1088 : BitVec 32 := Scalar.muli v7 c2_i32_767
  let v1089 : BitVec 32 := Scalar.addi c0_i32_768 v1088
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_769 : BitVec 32 := 1#32
  let v1090 : BitVec 32 := Scalar.muli v5 c1_i32_769
  let v1091 : BitVec 32 := Scalar.addi v1089 v1090
  v1091.toNat
def k0_dev63 (d0 : Dev nD) : Nat :=
  let c0_i32_787 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_786 : BitVec 32 := 2#32
  let v1114 : BitVec 32 := Scalar.muli v7 c2_i32_786
  let v1115 : BitVec 32 := Scalar.addi c0_i32_787 v1114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_788 : BitVec 32 := 1#32
  let v1116 : BitVec 32 := Scalar.muli v5 c1_i32_788
  let v1117 : BitVec 32 := Scalar.addi v1115 v1116
  v1117.toNat
def k0_dev64 (d0 : Dev nD) : Nat :=
  let c0_i32_806 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_805 : BitVec 32 := 2#32
  let v1140 : BitVec 32 := Scalar.muli v7 c2_i32_805
  let v1141 : BitVec 32 := Scalar.addi c0_i32_806 v1140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_807 : BitVec 32 := 1#32
  let v1142 : BitVec 32 := Scalar.muli v5 c1_i32_807
  let v1143 : BitVec 32 := Scalar.addi v1141 v1142
  v1143.toNat
def k0_dev65 (d0 : Dev nD) : Nat :=
  let c0_i32_825 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_824 : BitVec 32 := 2#32
  let v1166 : BitVec 32 := Scalar.muli v7 c2_i32_824
  let v1167 : BitVec 32 := Scalar.addi c0_i32_825 v1166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_826 : BitVec 32 := 1#32
  let v1168 : BitVec 32 := Scalar.muli v5 c1_i32_826
  let v1169 : BitVec 32 := Scalar.addi v1167 v1168
  v1169.toNat
def k0_dev66 (d0 : Dev nD) : Nat :=
  let c0_i32_844 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_843 : BitVec 32 := 2#32
  let v1192 : BitVec 32 := Scalar.muli v7 c2_i32_843
  let v1193 : BitVec 32 := Scalar.addi c0_i32_844 v1192
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_845 : BitVec 32 := 1#32
  let v1194 : BitVec 32 := Scalar.muli v5 c1_i32_845
  let v1195 : BitVec 32 := Scalar.addi v1193 v1194
  v1195.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S1024x512_S32x512_0_0 : ∀ a, (![0, 0] : Fin 2 → Nat) a + S32x512.size a ≤ S1024x512.size a
  inb_S32_S1_1 : ∀ a, (![1] : Fin 1 → Nat) a + S1.size a ≤ S32.size a
  inb_S1024x512_S32x512_32_0 : ∀ a, (![32, 0] : Fin 2 → Nat) a + S32x512.size a ≤ S1024x512.size a
  inb_S32_S1_2 : ∀ a, (![2] : Fin 1 → Nat) a + S1.size a ≤ S32.size a
  inb_S1024x512_S32x512_64_0 : ∀ a, (![64, 0] : Fin 2 → Nat) a + S32x512.size a ≤ S1024x512.size a
  inb_S32_S1_3 : ∀ a, (![3] : Fin 1 → Nat) a + S1.size a ≤ S32.size a
  inb_S1024x512_S32x512_96_0 : ∀ a, (![96, 0] : Fin 2 → Nat) a + S32x512.size a ≤ S1024x512.size a
  inb_S32_S1_4 : ∀ a, (![4] : Fin 1 → Nat) a + S1.size a ≤ S32.size a
  inb_S1024x512_S32x512_128_0 : ∀ a, (![128, 0] : Fin 2 → Nat) a + S32x512.size a ≤ S1024x512.size a
  inb_S32_S1_5 : ∀ a, (![5] : Fin 1 → Nat) a + S1.size a ≤ S32.size a
  inb_S1024x512_S32x512_160_0 : ∀ a, (![160, 0] : Fin 2 → Nat) a + S32x512.size a ≤ S1024x512.size a
  inb_S32_S1_6 : ∀ a, (![6] : Fin 1 → Nat) a + S1.size a ≤ S32.size a
  inb_S1024x512_S32x512_192_0 : ∀ a, (![192, 0] : Fin 2 → Nat) a + S32x512.size a ≤ S1024x512.size a
  inb_S32_S1_7 : ∀ a, (![7] : Fin 1 → Nat) a + S1.size a ≤ S32.size a
  inb_S1024x512_S32x512_224_0 : ∀ a, (![224, 0] : Fin 2 → Nat) a + S32x512.size a ≤ S1024x512.size a
  inb_S32_S1_8 : ∀ a, (![8] : Fin 1 → Nat) a + S1.size a ≤ S32.size a
  inb_S1024x512_S32x512_256_0 : ∀ a, (![256, 0] : Fin 2 → Nat) a + S32x512.size a ≤ S1024x512.size a
  inb_S32_S1_9 : ∀ a, (![9] : Fin 1 → Nat) a + S1.size a ≤ S32.size a
  inb_S1024x512_S32x512_288_0 : ∀ a, (![288, 0] : Fin 2 → Nat) a + S32x512.size a ≤ S1024x512.size a
  inb_S32_S1_10 : ∀ a, (![10] : Fin 1 → Nat) a + S1.size a ≤ S32.size a
  inb_S1024x512_S32x512_320_0 : ∀ a, (![320, 0] : Fin 2 → Nat) a + S32x512.size a ≤ S1024x512.size a
  inb_S32_S1_11 : ∀ a, (![11] : Fin 1 → Nat) a + S1.size a ≤ S32.size a
  inb_S1024x512_S32x512_352_0 : ∀ a, (![352, 0] : Fin 2 → Nat) a + S32x512.size a ≤ S1024x512.size a
  inb_S32_S1_12 : ∀ a, (![12] : Fin 1 → Nat) a + S1.size a ≤ S32.size a
  inb_S1024x512_S32x512_384_0 : ∀ a, (![384, 0] : Fin 2 → Nat) a + S32x512.size a ≤ S1024x512.size a
  inb_S32_S1_13 : ∀ a, (![13] : Fin 1 → Nat) a + S1.size a ≤ S32.size a
  inb_S1024x512_S32x512_416_0 : ∀ a, (![416, 0] : Fin 2 → Nat) a + S32x512.size a ≤ S1024x512.size a
  inb_S32_S1_14 : ∀ a, (![14] : Fin 1 → Nat) a + S1.size a ≤ S32.size a
  inb_S1024x512_S32x512_448_0 : ∀ a, (![448, 0] : Fin 2 → Nat) a + S32x512.size a ≤ S1024x512.size a
  inb_S32_S1_15 : ∀ a, (![15] : Fin 1 → Nat) a + S1.size a ≤ S32.size a
  inb_S1024x512_S32x512_480_0 : ∀ a, (![480, 0] : Fin 2 → Nat) a + S32x512.size a ≤ S1024x512.size a
  inb_S32_S1_16 : ∀ a, (![16] : Fin 1 → Nat) a + S1.size a ≤ S32.size a
  inb_S1024x512_S32x512_512_0 : ∀ a, (![512, 0] : Fin 2 → Nat) a + S32x512.size a ≤ S1024x512.size a
  inb_S32_S1_17 : ∀ a, (![17] : Fin 1 → Nat) a + S1.size a ≤ S32.size a
  inb_S1024x512_S32x512_544_0 : ∀ a, (![544, 0] : Fin 2 → Nat) a + S32x512.size a ≤ S1024x512.size a
  inb_S32_S1_18 : ∀ a, (![18] : Fin 1 → Nat) a + S1.size a ≤ S32.size a
  inb_S1024x512_S32x512_576_0 : ∀ a, (![576, 0] : Fin 2 → Nat) a + S32x512.size a ≤ S1024x512.size a
  inb_S32_S1_19 : ∀ a, (![19] : Fin 1 → Nat) a + S1.size a ≤ S32.size a
  inb_S1024x512_S32x512_608_0 : ∀ a, (![608, 0] : Fin 2 → Nat) a + S32x512.size a ≤ S1024x512.size a
  inb_S32_S1_20 : ∀ a, (![20] : Fin 1 → Nat) a + S1.size a ≤ S32.size a
  inb_S1024x512_S32x512_640_0 : ∀ a, (![640, 0] : Fin 2 → Nat) a + S32x512.size a ≤ S1024x512.size a
  inb_S32_S1_21 : ∀ a, (![21] : Fin 1 → Nat) a + S1.size a ≤ S32.size a
  inb_S1024x512_S32x512_672_0 : ∀ a, (![672, 0] : Fin 2 → Nat) a + S32x512.size a ≤ S1024x512.size a
  inb_S32_S1_22 : ∀ a, (![22] : Fin 1 → Nat) a + S1.size a ≤ S32.size a
  inb_S1024x512_S32x512_704_0 : ∀ a, (![704, 0] : Fin 2 → Nat) a + S32x512.size a ≤ S1024x512.size a
  inb_S32_S1_23 : ∀ a, (![23] : Fin 1 → Nat) a + S1.size a ≤ S32.size a
  inb_S1024x512_S32x512_736_0 : ∀ a, (![736, 0] : Fin 2 → Nat) a + S32x512.size a ≤ S1024x512.size a
  inb_S32_S1_24 : ∀ a, (![24] : Fin 1 → Nat) a + S1.size a ≤ S32.size a
  inb_S1024x512_S32x512_768_0 : ∀ a, (![768, 0] : Fin 2 → Nat) a + S32x512.size a ≤ S1024x512.size a
  inb_S32_S1_25 : ∀ a, (![25] : Fin 1 → Nat) a + S1.size a ≤ S32.size a
  inb_S1024x512_S32x512_800_0 : ∀ a, (![800, 0] : Fin 2 → Nat) a + S32x512.size a ≤ S1024x512.size a
  inb_S32_S1_26 : ∀ a, (![26] : Fin 1 → Nat) a + S1.size a ≤ S32.size a
  inb_S1024x512_S32x512_832_0 : ∀ a, (![832, 0] : Fin 2 → Nat) a + S32x512.size a ≤ S1024x512.size a
  inb_S32_S1_27 : ∀ a, (![27] : Fin 1 → Nat) a + S1.size a ≤ S32.size a
  inb_S1024x512_S32x512_864_0 : ∀ a, (![864, 0] : Fin 2 → Nat) a + S32x512.size a ≤ S1024x512.size a
  inb_S32_S1_28 : ∀ a, (![28] : Fin 1 → Nat) a + S1.size a ≤ S32.size a
  inb_S1024x512_S32x512_896_0 : ∀ a, (![896, 0] : Fin 2 → Nat) a + S32x512.size a ≤ S1024x512.size a
  inb_S32_S1_29 : ∀ a, (![29] : Fin 1 → Nat) a + S1.size a ≤ S32.size a
  inb_S1024x512_S32x512_928_0 : ∀ a, (![928, 0] : Fin 2 → Nat) a + S32x512.size a ≤ S1024x512.size a
  inb_S32_S1_30 : ∀ a, (![30] : Fin 1 → Nat) a + S1.size a ≤ S32.size a
  inb_S1024x512_S32x512_960_0 : ∀ a, (![960, 0] : Fin 2 → Nat) a + S32x512.size a ≤ S1024x512.size a
  inb_S32_S1_31 : ∀ a, (![31] : Fin 1 → Nat) a + S1.size a ≤ S32.size a
  inb_S1024x512_S32x512_992_0 : ∀ a, (![992, 0] : Fin 2 → Nat) a + S32x512.size a ≤ S1024x512.size a
  h_S32x512 : 0 < S32x512.numel
  shapeCasts_S32x512_S32x512 : S32x512.ShapeCasts S32x512
  hcc0_scratch1 : 2 + S32.numel ≤ 130
  hcc0_scratch2 : 34 + S32.numel ≤ 130
  hcc0_scratch3 : 66 + S32.numel ≤ 130
  hcc0_scratch4 : 98 + S32.numel ≤ 130
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (32 * r.val))) a + S32x512.size a ≤ S2048x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off2_inb : ∀ d0 : Dev nD, ∀ (r : Fin 32), ∀ a, (k0_off2 d0 (BitVec.ofNat 32 (32 * r.val))) a + S32x512.size a ≤ S2048x512.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2
abbrev cc0_scratch3 : DmaSems sig S32 := SemArray.consecutive 66 S32 hcc0_scratch3
abbrev cc0_scratch4 : DmaSems sig S32 := SemArray.consecutive 98 S32 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S2x2048x512 : S4096x512.ShapeCasts S2x2048x512
  reducesTo_S2x2048x512_S2048x512_d0 : S2x2048x512.ReducesTo [0] S2048x512
  h_S_ : 0 < S_.numel

variable [Facts₀]

class Facts : Prop extends Facts₀ where

variable [Facts]
-- ==== Proof.Cells.lean ====
/- The all-reduce on the 2 × 2 mesh: devices, peers, buffers, row chunks, semaphore cells and the contents
   each buffer holds. Device c sits at mesh position (c / 2, c % 2). Its rows split in two halves of 1024;
   half c / 2 is the one it reduces itself, in 32 chunks of 32 rows. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The peers -/

/-- The device with the other second coordinate. -/
def yp (c : Dev nD) : Dev nD := ⟨(2 * (c.val / 2) + 1) - (c.val % 2), by have := c.isLt; revert this; generalize c.val = v; decide +revert⟩
/-- The device with the other first coordinate. -/
def xp (c : Dev nD) : Dev nD := ⟨((c.val % 2) + 2) - 2 * (c.val / 2), by have := c.isLt; revert this; generalize c.val = v; decide +revert⟩

theorem yp_yp (c : Dev nD) : yp (yp c) = c := by revert c; decide
theorem xp_xp (c : Dev nD) : xp (xp c) = c := by revert c; decide
theorem xp_yp (c : Dev nD) : xp (yp c) = yp (xp c) := by revert c; decide
theorem yp_ne (c : Dev nD) : yp c ≠ c := by revert c; decide
theorem xp_ne (c : Dev nD) : xp c ≠ c := by revert c; decide
theorem yp_ne_xp (c : Dev nD) : yp c ≠ xp c := by revert c; decide
theorem yp_half (c : Dev nD) : (yp c).val / 2 = c.val / 2 := by revert c; decide
theorem xp_half (c : Dev nD) : (xp c).val / 2 = 1 - c.val / 2 := by revert c; decide
theorem half_lt (c : Dev nD) : c.val / 2 < 2 := by revert c; decide

def ypE : Dev nD ≃ Dev nD := ⟨yp, yp, yp_yp, yp_yp⟩
def xpE : Dev nD ≃ Dev nD := ⟨xp, xp, xp_xp, xp_xp⟩

/-- Each printed device chain names one of the two peers: chains 1 and 3–34 the y-peer, 2 and 35–66 the x-peer. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)

open Lean Elab Command in
elab "peer_chain_equations" : command => do
  for n in [3:67] do
    let nm := mkIdent (Name.mkSimple s!"dev{n}_eq")
    let dv := mkIdent (Name.mkSimple s!"k0_dev{n}")
    let lt := mkIdent (Name.mkSimple s!"k0_dev{n}_lt")
    let eq := mkIdent (Name.mkSimple s!"k0_dev{n}_eq")
    let peer := mkIdent (if n < 35 then `yp else `xp)
    elabCommand (← `(theorem $nm (c : Dev nD) : (⟨$dv c, $lt c⟩ : Dev nD) = $peer c := Fin.ext ($eq c)))

peer_chain_equations

/-! ## Buffers, row chunks, semaphores -/

abbrev xM : Memref sig .tc .vmem S2048x512 .f32 := Memref.whole cc0_stg0_0
abbrev oM : Memref sig .tc .vmem S2048x512 .f32 := Memref.whole cc0_stg1_0
abbrev rM : Memref sig .tc .vmem S1024x512 .f32 := Memref.whole cc0_scratch0

/-- Chunk k of device c's own half, as a rectangle of the 2048 × 512 block: rows 1024 (c / 2) + 32 k onward. -/
abbrev rectOwn (c : Dev nD) (k : Fin 32) : Rect S2048x512 :=
  Rect.unit (s := S2048x512) (k0_off1 c (BitVec.ofNat 32 (32 * k.val))) S32x512.size (k0_off1_inb c k)
/-- The same rows through the chain the loads and the store compute. -/
abbrev rectOwn' (c : Dev nD) (k : Fin 32) : Rect S2048x512 :=
  Rect.unit (s := S2048x512) (k0_off2 c (BitVec.ofNat 32 (32 * k.val))) S32x512.size (k0_off2_inb c k)

theorem inbR (k : Fin 32) : ∀ a, (![32 * k.val, 0] : Fin 2 → Nat) a + S32x512.size a ≤ S1024x512.size a := by
  intro a; have := k.isLt
  match a with
  | ⟨0, _⟩ => show 32 * k.val + 32 ≤ 1024; omega
  | ⟨1, _⟩ => show 0 + 512 ≤ 512; omega
/-- Chunk k of the landing buffer: rows 32 k onward. -/
abbrev rectR (k : Fin 32) : Rect S1024x512 := Rect.unit (s := S1024x512) ![32 * k.val, 0] S32x512.size (inbR k)

abbrev xSl (c : Dev nD) (k : Fin 32) : Memref sig .tc .vmem S32x512 .f32 := xM.slice (rectOwn c k) (fun _ => rfl)
abbrev oSl (c : Dev nD) (k : Fin 32) : Memref sig .tc .vmem S32x512 .f32 := oM.slice (rectOwn c k) (fun _ => rfl)
abbrev rSl (k : Fin 32) : Memref sig .tc .vmem S32x512 .f32 := rM.slice (rectR k) (fun _ => rfl)

theorem inbS (k : Fin 32) : ∀ a, (![k.val] : Fin 1 → Nat) a + S1.size a ≤ S32.size a := by
  intro a; have := k.isLt
  match a with
  | ⟨0, _⟩ => show k.val + 1 ≤ 32; omega
/-- Semaphore k of one of the four arrays of 32. -/
abbrev semAt (A : DmaSems sig S32) (k : Fin 32) : DmaSem sig :=
  ((A.slice (Rect.unit (s := S32) ![k.val] S1.size (inbS k))).squeeze S_ squeezes_S1_S_).sem

abbrev ysS (k : Fin 32) : DmaSem sig := semAt cc0_scratch1 k
abbrev yrS (k : Fin 32) : DmaSem sig := semAt cc0_scratch2 k
abbrev xsS (k : Fin 32) : DmaSem sig := semAt cc0_scratch3 k
abbrev xrS (k : Fin 32) : DmaSem sig := semAt cc0_scratch4 k

theorem ysS_val (k : Fin 32) : (ysS k).val = 2 + k.val := by revert k; decide
theorem yrS_val (k : Fin 32) : (yrS k).val = 34 + k.val := by revert k; decide
theorem xsS_val (k : Fin 32) : (xsS k).val = 66 + k.val := by revert k; decide
theorem xrS_val (k : Fin 32) : (xrS k).val = 98 + k.val := by revert k; decide

abbrev barS : Sem sig := (SemArray.scalar (sig.barrier 0 rfl) : Sems sig S_).sem

abbrev barCell (c : Dev nD) : GSem nD τ sig := ((c : Thread nD τ), .reg barS)
abbrev ysCell (c : Dev nD) (k : Fin 32) : GSem nD τ sig := ((c : Thread nD τ), .dma (ysS k))
abbrev yrCell (c : Dev nD) (k : Fin 32) : GSem nD τ sig := ((c : Thread nD τ), .dma (yrS k))
abbrev xsCell (c : Dev nD) (k : Fin 32) : GSem nD τ sig := ((c : Thread nD τ), .dma (xsS k))
abbrev xrCell (c : Dev nD) (k : Fin 32) : GSem nD τ sig := ((c : Thread nD τ), .dma (xrS k))

/-- The credit of one chunk's transfer. -/
abbrev NC : ℕ := (rSl 0 : Memref sig .tc .vmem S32x512 .f32).view.dmaCredit

/-! ## Contents -/

/-- Device c's block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device c's block plus its y-peer's, entry by entry, in that order. -/
def sumV (c : Dev nD) : (cc0_stg1_0 : Ref sig .tc).ty.Contents (Elt F) := addf (xstg m ρ c) (xstg m ρ (yp c))

/-- What the output buffer of device c ends at: on its own half the sum it formed, on the other half the sum
    its x-peer formed. -/
def outFin (c : Dev nD) : (cc0_stg1_0 : Ref sig .tc).ty.Contents (Elt F) :=
  fun i => if (i 0).val / 1024 = c.val / 2 then sumV m ρ c i else sumV m ρ (xp c) i

/-- Row r of the landing buffer is row 1024 (c / 2) + r of the block. -/
def upRow (c : Dev nD) (j : S1024x512.Idx) : S2048x512.Idx := fun a => match a with
  | ⟨0, _⟩ => ⟨1024 * (c.val / 2) + (j 0).val, by have h0 : (j 0).val < 1024 := (j 0).isLt; have := half_lt c; show 1024 * (c.val / 2) + (j 0).val < 2048; omega⟩
  | ⟨1, _⟩ => ⟨(j 1).val, (j 1).isLt⟩

/-- What the landing buffer of device c ends at: the y-peer's rows of c's own half. -/
def landed (c : Dev nD) : (cc0_scratch0 : Ref sig .tc).ty.Contents (Elt F) := fun j => xstg m ρ (yp c) (upRow c j)

end Cert.KernelIdeal.AR

end
-- ==== Proof.Proto.lean ====
/- The protocol of the all-reduce under the rounds discipline: one round per semaphore cell. A device's barrier
   cell has two unit duties, one paid by each peer: the y-peer hands over its landing buffer, the x-peer the half
   of its output buffer this device will fill. Each of the 4 × 32 transfer cells has one duty of a chunk's credit:
   a send cell returns the chunk lent, a receive cell delivers the chunk landed. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Cells
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem NC_pos : 0 < NC := View.dmaCredit_pos _ (by decide)

/-! ## Payloads -/

/-- From the y-peer: its landing buffer, chunk by chunk, at some contents. -/
def barPayY (c : Dev nD) : sProp 𝕄 :=
  bigSep Finset.univ fun k : Fin 32 => iprop(∃ f, ((rSl k).view.loc ((yp c : Dev nD) : Thread nD τ)) ↦[(rSl k).view.set]{fullShare} f)
/-- From the x-peer: the chunks of this device's own half, in the x-peer's output buffer, at some contents. -/
def barPayX (c : Dev nD) : sProp 𝕄 :=
  bigSep Finset.univ fun k : Fin 32 => iprop(∃ f, ((oSl c k).view.loc ((xp c : Dev nD) : Thread nD τ)) ↦[(oSl c k).view.set]{fullShare} f)
/-- A y-send cell returns the half share of the input chunk lent to the transfer. -/
def ysPay (c : Dev nD) (k : Fin 32) : sProp 𝕄 :=
  ((xSl c k).view.loc (c : Thread nD τ)) ↦[(xSl c k).view.set]{fullShare.left} xstg m ρ c
/-- A y-receive cell delivers the landing chunk holding the y-peer's rows. -/
def yrPay (c : Dev nD) (k : Fin 32) : sProp 𝕄 :=
  ((rSl k).view.loc (c : Thread nD τ)) ↦[(rSl k).view.set]{fullShare} landed m ρ c
/-- An x-send cell returns the output chunk sent. -/
def xsPay (c : Dev nD) (k : Fin 32) : sProp 𝕄 :=
  ((oSl c k).view.loc (c : Thread nD τ)) ↦[(oSl c k).view.set]{fullShare} outFin m ρ c
/-- An x-receive cell delivers a chunk of the other half of the output. -/
def xrPay (c : Dev nD) (k : Fin 32) : sProp 𝕄 :=
  ((oSl (xp c) k).view.loc (c : Thread nD τ)) ↦[(oSl (xp c) k).view.set]{fullShare} outFin m ρ c

/-- The payload of DMA semaphore s of device c: semaphores 2 + 32 j + k, j the array, k the chunk. -/
def dmaPay (c : Dev nD) (s : DmaSem sig) : sProp 𝕄 :=
  if 2 ≤ s.val then
    (if (s.val - 2) / 32 = 0 then ysPay m ρ c ⟨(s.val - 2) % 32, Nat.mod_lt _ (by decide)⟩
    else if (s.val - 2) / 32 = 1 then yrPay m ρ c ⟨(s.val - 2) % 32, Nat.mod_lt _ (by decide)⟩
    else if (s.val - 2) / 32 = 2 then xsPay m ρ c ⟨(s.val - 2) % 32, Nat.mod_lt _ (by decide)⟩
    else xrPay m ρ c ⟨(s.val - 2) % 32, Nat.mod_lt _ (by decide)⟩)
  else iprop(emp)

/-! ## The schedule -/

def sched : Rounds.Schedule (GSem nD τ sig) Bool 𝕄 where
  duties g r := if r = 0 ∧ g.1.2 = .tc then
      (match g.2 with
        | .reg _ => Finset.univ
        | .dma s => if 2 ≤ s.val then {false} else ∅)
    else ∅
  unitless _ := False
  amount g _ _ := match g.2 with
    | .reg _ => 1
    | .dma _ => NC
  payload g _ d := match g.2 with
    | .reg _ => if d then barPayX g.1.1 else barPayY g.1.1
    | .dma s => dmaPay m ρ g.1.1 s
  amount_pos g _ _ _ := by
    cases g.2 with
    | reg _ => exact Nat.one_pos
    | dma _ => exact NC_pos

instance sched_payload_storable (g : GSem nD τ sig) (r : ℕ) (d : Bool) :
    BI.Storable (upEmb : UEmb _ 𝕄) ((sched (F := F) m ρ).payload g r d) := by
  show BI.Storable upEmb (match g.2 with
    | .reg _ => if d then barPayX g.1.1 else barPayY g.1.1
    | .dma s => dmaPay m ρ g.1.1 s)
  unfold barPayX barPayY dmaPay ysPay yrPay xsPay xrPay
  (repeat' split) <;> infer_instance

section Tables
variable (c : Dev nD) (k : Fin 32)

theorem duties_bar : (sched (F := F) m ρ).duties (barCell c) 0 = Finset.univ := by
  dsimp only [sched]; rw [if_pos ⟨rfl, rfl⟩]
theorem duties_ys : (sched (F := F) m ρ).duties (ysCell c k) 0 = {false} := by
  dsimp only [sched]; rw [if_pos ⟨rfl, rfl⟩]; exact if_pos (by rw [ysS_val]; omega)
theorem duties_yr : (sched (F := F) m ρ).duties (yrCell c k) 0 = {false} := by
  dsimp only [sched]; rw [if_pos ⟨rfl, rfl⟩]; exact if_pos (by rw [yrS_val]; omega)
theorem duties_xs : (sched (F := F) m ρ).duties (xsCell c k) 0 = {false} := by
  dsimp only [sched]; rw [if_pos ⟨rfl, rfl⟩]; exact if_pos (by rw [xsS_val]; omega)
theorem duties_xr : (sched (F := F) m ρ).duties (xrCell c k) 0 = {false} := by
  dsimp only [sched]; rw [if_pos ⟨rfl, rfl⟩]; exact if_pos (by rw [xrS_val]; omega)
theorem duties_later (g : GSem nD τ sig) : ∀ r, 1 ≤ r → (sched (F := F) m ρ).duties g r = ∅ :=
  fun r hr => by dsimp only [sched]; rw [if_neg fun h => by omega]

theorem amount_bar (d : Bool) : (sched (F := F) m ρ).amount (barCell c) 0 d = 1 := rfl
theorem amount_ys (d : Bool) : (sched (F := F) m ρ).amount (ysCell c k) 0 d = NC := rfl
theorem amount_yr (d : Bool) : (sched (F := F) m ρ).amount (yrCell c k) 0 d = NC := rfl
theorem amount_xs (d : Bool) : (sched (F := F) m ρ).amount (xsCell c k) 0 d = NC := rfl
theorem amount_xr (d : Bool) : (sched (F := F) m ρ).amount (xrCell c k) 0 d = NC := rfl

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_ys : (sched (F := F) m ρ).expect (ysCell c k) 0 = NC := by
  unfold Schedule.expect Schedule.amountOf; rw [duties_ys, Finset.sum_singleton, amount_ys]
theorem expect_yr : (sched (F := F) m ρ).expect (yrCell c k) 0 = NC := by
  unfold Schedule.expect Schedule.amountOf; rw [duties_yr, Finset.sum_singleton, amount_yr]
theorem expect_xs : (sched (F := F) m ρ).expect (xsCell c k) 0 = NC := by
  unfold Schedule.expect Schedule.amountOf; rw [duties_xs, Finset.sum_singleton, amount_xs]
theorem expect_xr : (sched (F := F) m ρ).expect (xrCell c k) 0 = NC := by
  unfold Schedule.expect Schedule.amountOf; rw [duties_xr, Finset.sum_singleton, amount_xr]

theorem payload_bar_true : (sched (F := F) m ρ).payload (barCell c) 0 true = barPayX c := by
  dsimp only [sched]; rw [if_pos rfl]
theorem payload_bar_false : (sched (F := F) m ρ).payload (barCell c) 0 false = barPayY c := by
  dsimp only [sched]; exact if_neg Bool.false_ne_true

/-- The payload of semaphore 2 + 32 j + k. -/
theorem dmaPay_at (s : DmaSem sig) (j : ℕ) (hs : s.val = 2 + 32 * j + k.val) :
    dmaPay m ρ c s = (if j = 0 then ysPay m ρ c k else if j = 1 then yrPay m ρ c k else if j = 2 then xsPay m ρ c k else xrPay m ρ c k) := by
  have hk := k.isLt
  have hj : (s.val - 2) / 32 = j := by omega
  have hm : (⟨(s.val - 2) % 32, Nat.mod_lt _ (by decide)⟩ : Fin 32) = k := Fin.ext (by show (s.val - 2) % 32 = k.val; omega)
  unfold dmaPay
  rw [if_pos (by omega), hj, hm]

theorem payload_ys (d : Bool) : (sched (F := F) m ρ).payload (ysCell c k) 0 d = ysPay m ρ c k := by
  show dmaPay m ρ c (ysS k) = _
  rw [dmaPay_at m ρ c k (ysS k) 0 (by rw [ysS_val]), if_pos rfl]
theorem payload_yr (d : Bool) : (sched (F := F) m ρ).payload (yrCell c k) 0 d = yrPay m ρ c k := by
  show dmaPay m ρ c (yrS k) = _
  rw [dmaPay_at m ρ c k (yrS k) 1 (by rw [yrS_val]), if_neg (by decide), if_pos rfl]
theorem payload_xs (d : Bool) : (sched (F := F) m ρ).payload (xsCell c k) 0 d = xsPay m ρ c k := by
  show dmaPay m ρ c (xsS k) = _
  rw [dmaPay_at m ρ c k (xsS k) 2 (by rw [xsS_val]), if_neg (by decide), if_neg (by decide), if_pos rfl]
theorem payload_xr (d : Bool) : (sched (F := F) m ρ).payload (xrCell c k) 0 d = xrPay m ρ c k := by
  show dmaPay m ρ c (xrS k) = _
  rw [dmaPay_at m ρ c k (xrS k) 3 (by rw [xrS_val]), if_neg (by decide), if_neg (by decide), if_neg (by decide)]

/-- The whole round of the barrier cell: both peers' payloads. -/
theorem rest_bar : bigSep ((sched (F := F) m ρ).duties (barCell c) 0 \ ∅) (fun d => (sched (F := F) m ρ).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys : bigSep ((sched (F := F) m ρ).duties (ysCell c k) 0 \ ∅) (fun d => (sched (F := F) m ρ).payload (ysCell c k) 0 d) = ysPay m ρ c k := by
  rw [Finset.sdiff_empty, duties_ys, bigSep_singleton, payload_ys]
theorem rest_yr : bigSep ((sched (F := F) m ρ).duties (yrCell c k) 0 \ ∅) (fun d => (sched (F := F) m ρ).payload (yrCell c k) 0 d) = yrPay m ρ c k := by
  rw [Finset.sdiff_empty, duties_yr, bigSep_singleton, payload_yr]
theorem rest_xs : bigSep ((sched (F := F) m ρ).duties (xsCell c k) 0 \ ∅) (fun d => (sched (F := F) m ρ).payload (xsCell c k) 0 d) = xsPay m ρ c k := by
  rw [Finset.sdiff_empty, duties_xs, bigSep_singleton, payload_xs]
theorem rest_xr : bigSep ((sched (F := F) m ρ).duties (xrCell c k) 0 \ ∅) (fun d => (sched (F := F) m ρ).payload (xrCell c k) 0 d) = xrPay m ρ c k := by
  rw [Finset.sdiff_empty, duties_xr, bigSep_singleton, payload_xr]

end Tables

/-! ## What a device owes; the levels -/

/-- The y-receive credits device c still owes its y-peer from chunk a on; -/
def owedY (c : Dev nD) (a : ℕ) : CellTallies nD τ sig Unit :=
  ∑ k ∈ Finset.univ.filter (fun k : Fin 32 => a ≤ k.val), tallyAt (yrCell (yp c) k) () NC
/-- the x-receive credits it still owes its x-peer from chunk a on. -/
def owedX (c : Dev nD) (a : ℕ) : CellTallies nD τ sig Unit :=
  ∑ k ∈ Finset.univ.filter (fun k : Fin 32 => a ≤ k.val), tallyAt (xrCell (xp c) k) () NC

theorem filter_ge_succ (a : Fin 32) :
    Finset.univ.filter (fun k : Fin 32 => a.val ≤ k.val) = insert a (Finset.univ.filter (fun k : Fin 32 => a.val + 1 ≤ k.val)) := by
  ext k
  simp only [Finset.mem_filter, Finset.mem_univ, true_and, Finset.mem_insert, Fin.ext_iff]
  omega

theorem owedY_peel (c : Dev nD) (a : Fin 32) : owedY c a.val = owedY c (a.val + 1) + tallyAt (yrCell (yp c) a) () NC := by
  unfold owedY
  rw [filter_ge_succ a, Finset.sum_insert (by simp only [Finset.mem_filter, Finset.mem_univ, true_and]; omega), add_comm]
theorem owedX_peel (c : Dev nD) (a : Fin 32) : owedX c a.val = owedX c (a.val + 1) + tallyAt (xrCell (xp c) a) () NC := by
  unfold owedX
  rw [filter_ge_succ a, Finset.sum_insert (by simp only [Finset.mem_filter, Finset.mem_univ, true_and]; omega), add_comm]
theorem owedY_done (c : Dev nD) : owedY c 32 = 0 := by
  unfold owedY
  rw [Finset.filter_eq_empty_iff.mpr (fun k _ => by have := k.isLt; omega), Finset.sum_empty]
theorem owedX_done (c : Dev nD) : owedX c 32 = 0 := by
  unfold owedX
  rw [Finset.filter_eq_empty_iff.mpr (fun k _ => by have := k.isLt; omega), Finset.sum_empty]

/-- After both entry signals: every transfer's receive credit. -/
def O₂ (c : Dev nD) : CellTallies nD τ sig Unit := owedX c 0 + owedY c 0
/-- After the first signal (to the y-peer): the signal to the x-peer as well. -/
def O₁ (c : Dev nD) : CellTallies nD τ sig Unit := O₂ c + tallyAt (barCell (xp c)) () 1
/-- At launch. -/
def O₀ (c : Dev nD) : CellTallies nD τ sig Unit := O₁ c + tallyAt (barCell (yp c)) () 1

def L (g : GSem nD τ sig) : Finset Unit := if g.1.2 = .tc then {()} else ∅
/-- Barrier cells at 1, y-receive cells at 2, x-receive cells at 3, every other cell (staging, send) at 0. -/
def lv (g : GSem nD τ sig) (_ : Unit) : ℕ := match g.2 with
  | .reg _ => 1
  | .dma s => if 34 ≤ s.val ∧ s.val < 66 then 2 else if 98 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.AR

end
-- ==== Proof.Data.lean ====
/- What a device's body starts from and ends with: the cells' invariants and round-0 marks shared by all devices,
   its own positions, the tokens of the duties it pays, its launch credit; the pipeline's proof data. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- DMA semaphore k of array j (0: y-send, 1: y-receive, 2: x-send, 3: x-receive). -/
def dS (jk : Fin 4 × Fin 32) : DmaSem sig := ⟨2 + 32 * jk.1.val + jk.2.val, by have := jk.1.isLt; have := jk.2.isLt; show _ < 130; omega⟩

theorem ysS_eq (k : Fin 32) : ysS k = dS (0, k) := Fin.ext (by rw [ysS_val]; show _ = 2 + 32 * 0 + k.val; omega)
theorem yrS_eq (k : Fin 32) : yrS k = dS (1, k) := Fin.ext (by rw [yrS_val]; show _ = 2 + 32 * 1 + k.val; omega)
theorem xsS_eq (k : Fin 32) : xsS k = dS (2, k) := Fin.ext (by rw [xsS_val]; show _ = 2 + 32 * 2 + k.val; omega)
theorem xrS_eq (k : Fin 32) : xrS k = dS (3, k) := Fin.ext (by rw [xrS_val]; show _ = 2 + 32 * 3 + k.val; omega)

theorem dS_injective : Function.Injective dS := by
  rintro ⟨j, k⟩ ⟨j', k'⟩ h
  have h' : 2 + 32 * j.val + k.val = 2 + 32 * j'.val + k'.val := congrArg Fin.val h
  have := k.isLt; have := k'.isLt
  have hj : j = j' := Fin.ext (by omega)
  have hk : k = k' := Fin.ext (by omega)
  rw [hj, hk]

/-- The kernel's own (scoped) semaphores, as the launch indexes them. -/
abbrev osem : Fin 4 × Fin 32 → SemLoc sig := fun jk => .dma (dS jk)
/-- Every cell of the protocol: a device's barrier cell (none) and its 128 transfer cells. -/
abbrev csem : Option (Fin 4 × Fin 32) → SemLoc sig := fun | none => .reg barS | some jk => .dma (dS jk)
abbrev kcell (ck : Dev nD × Option (Fin 4 × Fin 32)) : GSem nD τ sig := ((ck.1 : Thread nD τ), csem ck.2)

theorem kcell_bar (c : Dev nD) : kcell (c, none) = barCell c := rfl
theorem kcell_ys (c : Dev nD) (k : Fin 32) : kcell (c, some (0, k)) = ysCell c k := by show ((c : Thread nD τ), SemLoc.dma (dS (0, k))) = _; rw [← ysS_eq]
theorem kcell_yr (c : Dev nD) (k : Fin 32) : kcell (c, some (1, k)) = yrCell c k := by show ((c : Thread nD τ), SemLoc.dma (dS (1, k))) = _; rw [← yrS_eq]
theorem kcell_xs (c : Dev nD) (k : Fin 32) : kcell (c, some (2, k)) = xsCell c k := by show ((c : Thread nD τ), SemLoc.dma (dS (2, k))) = _; rw [← xsS_eq]
theorem kcell_xr (c : Dev nD) (k : Fin 32) : kcell (c, some (3, k)) = xrCell c k := by show ((c : Thread nD τ), SemLoc.dma (dS (3, k))) = _; rw [← xrS_eq]

theorem csem_injective : Function.Injective csem := by
  intro a b h
  match a, b with
  | none, none => rfl
  | none, some _ => exact absurd h (fun h => by cases h)
  | some _, none => exact absurd h (fun h => by cases h)
  | some x, some y => exact congrArg some (dS_injective (SemLoc.dma.inj h))

theorem kcell_injective : Function.Injective (kcell : Dev nD × Option (Fin 4 × Fin 32) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The ghost state -/

/-- Shared by all devices, persistent: every cell's invariant under the names K, and round 0 of every cell reached. -/
def records (K : Dev nD × Option (Fin 4 × Fin 32) → ℕ) : sProp 𝕄 :=
  iprop((bigSep Finset.univ fun ck : Dev nD × Option (Fin 4 × Fin 32) => cellInv ER (sched m ρ) (K ck) (kcell ck))
    ∗ bigSep Finset.univ fun ck : Dev nD × Option (Fin 4 × Fin 32) => reached ER (kcell ck) 0)

instance records_persistent (K : Dev nD × Option (Fin 4 × Fin 32) → ℕ) : BI.Persistent (records m ρ K) := by unfold records; infer_instance

/-- The tokens of the duties device c pays: a unit on each peer's barrier cell; per chunk, its own two send
    cells and the two receive cells of its peers. -/
def payToks (c : Dev nD) : sProp 𝕄 :=
  iprop(dutyTok ER (barCell (yp c)) 0 false ∗ dutyTok ER (barCell (xp c)) 0 true
    ∗ bigSep Finset.univ fun k : Fin 32 => iprop(dutyTok ER (ysCell c k) 0 false ∗ dutyTok ER (yrCell (yp c) k) 0 false
        ∗ dutyTok ER (xsCell c k) 0 false ∗ dutyTok ER (xrCell (xp c) k) 0 false))

/-- Device c's positions: at the start of round 0 of each of its 129 cells. -/
def positions (c : Dev nD) : sProp 𝕄 :=
  iprop(atPos ER (barCell c) 0 ∅ 0
    ∗ bigSep Finset.univ fun k : Fin 32 => iprop(atPos ER (ysCell c k) 0 ∅ 0 ∗ atPos ER (yrCell c k) 0 ∅ 0
        ∗ atPos ER (xsCell c k) 0 ∅ 0 ∗ atPos ER (xrCell c k) 0 ∅ 0))

def linear (c : Dev nD) : sProp 𝕄 := iprop(positions c ∗ payToks c)

def ghost (K : Dev nD × Option (Fin 4 × Fin 32) → ℕ) (c : Dev nD) : sProp 𝕄 := iprop(records m ρ K ∗ linear c)

/-- The credit dealt at launch for the units the peers owe device c's cells. -/
def credits (c : Dev nD) : sProp 𝕄 :=
  iprop(cred (tallyAt (barCell c) () 2)
    ∗ bigSep Finset.univ fun k : Fin 32 => iprop(cred (tallyAt (yrCell c k) () NC) ∗ cred (tallyAt (xrCell c k) () NC)))

/-- What device c's body starts from, the landing buffer apart. -/
def start (c : Dev nD) : sProp 𝕄 := iprop((∃ K, ghost m ρ K c) ∗ credits c ∗ levAts L lv)

def scrPts (c : Dev nD) (f : Buf (Elt F) ((rM : Memref sig .tc .vmem S1024x512 .f32).view.loc (c : Thread nD τ))) : sProp 𝕄 :=
  ((c : Thread nD τ).loc cc0_scratch0) ↦{fullShare} f

def Φ₀ (c : Dev nD) : sProp 𝕄 := iprop(start m ρ c ∗ ∃ f, scrPts c f)
/-- After the point: the landing buffer at the y-peer's rows, the 128 own cells closed at zero. -/
def Φ₁ (c : Dev nD) : sProp 𝕄 :=
  iprop(scrPts c (landed m ρ c) ∗ bigSep Finset.univ fun jk : Fin 4 × Fin 32 => semVal (kcell (c, some jk)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFin m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device c: the invariant before the point, what it owes, the two staging buffers. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outFin m ρ c))

end Cert.KernelIdeal.AR

end
-- ==== Proof.Levels.lean ====
/- Levels and launch credit of the all-reduce. Every wait of a device sits strictly below, in level, everything the
   device owes when it waits: staging and send cells (0) below the barrier cells (1), those below the y-receive
   cells (2), those below the x-receive cells (3). And the units the peers owe a device's cells at launch are
   exactly the credit the device waits with: two on its barrier cell, a chunk's on each receive cell. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where what a device owes is positive -/

theorem owedY_pos {c : Dev nD} {a : ℕ} {g : GSem nD τ sig} {u : Unit} (h : 0 < owedY c a g u) :
    ∃ k : Fin 32, g = yrCell (yp c) k := by
  unfold owedY at h
  obtain ⟨k, _, hk⟩ := Pipeline.sum_pos_exists h
  exact ⟨k, (Pipeline.tallyAt_pos hk).1⟩

theorem owedX_pos {c : Dev nD} {a : ℕ} {g : GSem nD τ sig} {u : Unit} (h : 0 < owedX c a g u) :
    ∃ k : Fin 32, g = xrCell (xp c) k := by
  unfold owedX at h
  obtain ⟨k, _, hk⟩ := Pipeline.sum_pos_exists h
  exact ⟨k, (Pipeline.tallyAt_pos hk).1⟩

theorem O₂_pos {c : Dev nD} {g : GSem nD τ sig} {u : Unit} (h : 0 < O₂ c g u) :
    (∃ k : Fin 32, g = yrCell (yp c) k) ∨ (∃ k : Fin 32, g = xrCell (xp c) k) := by
  unfold O₂ at h
  rcases Pipeline.add_pos_cases h with h | h
  · exact Or.inr (owedX_pos h)
  · exact Or.inl (owedY_pos h)

theorem O₀_pos {c : Dev nD} {g : GSem nD τ sig} {u : Unit} (h : 0 < O₀ c g u) :
    g = barCell (yp c) ∨ g = barCell (xp c) ∨ (∃ k : Fin 32, g = yrCell (yp c) k) ∨ (∃ k : Fin 32, g = xrCell (xp c) k) := by
  unfold O₀ O₁ at h
  rcases Pipeline.add_pos_cases h with h | h
  · rcases Pipeline.add_pos_cases h with h | h
    · exact Or.inr (Or.inr (O₂_pos h))
    · exact Or.inr (Or.inl (Pipeline.tallyAt_pos h).1)
  · exact Or.inl (Pipeline.tallyAt_pos h).1

/-! ## The levels of the cells -/

theorem lv_bar (c : Dev nD) (u : Unit) : lv (barCell c) u = 1 := rfl

theorem lv_yr (c : Dev nD) (k : Fin 32) (u : Unit) : lv (yrCell c k) u = 2 := by
  have := k.isLt
  show (if 34 ≤ (yrS k).val ∧ (yrS k).val < 66 then 2 else if 98 ≤ (yrS k).val then 3 else 0) = 2
  rw [yrS_val, if_pos (by omega)]

theorem lv_xr (c : Dev nD) (k : Fin 32) (u : Unit) : lv (xrCell c k) u = 3 := by
  have := k.isLt
  show (if 34 ≤ (xrS k).val ∧ (xrS k).val < 66 then 2 else if 98 ≤ (xrS k).val then 3 else 0) = 3
  rw [xrS_val, if_neg (by omega), if_pos (by omega)]

/-- The staging semaphores (0, 1) and the send semaphores (2–33, 66–97) sit at the bottom. -/
theorem lv_low (c : Dev nD) (q : DmaSem sig) (hq : q.val < 34 ∨ (66 ≤ q.val ∧ q.val < 98)) (u : Unit) :
    lv ((c : Thread nD τ), .dma q) u = 0 := by
  show (if 34 ≤ q.val ∧ q.val < 66 then 2 else if 98 ≤ q.val then 3 else 0) = 0
  rw [if_neg (by omega), if_neg (by omega)]

theorem mem_L (c : Dev nD) (sm : SemLoc sig) (u : Unit) : u ∈ L ((c : Thread nD τ), sm) := by
  rw [L_tc]; exact Finset.mem_singleton_self _

/-! ## Each wait below what is owed -/

/-- A cell at the bottom level may be waited on while owing everything owed at launch, or nothing. -/
theorem mayWait_stage (c : Dev nD) (q : DmaSem sig) (hq : q.val < 34 ∨ (66 ≤ q.val ∧ q.val < 98))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp]; exact mem_L c _ _)
      (fun g u hg => ?_)
      (fun p hp => by rw [Finset.mem_singleton.mp hp]; exact le_of_eq (lv_low c q hq ()))
      (fun g u hg => ?_)
    · rcases O₀_pos hg with rfl | rfl | ⟨k, rfl⟩ | ⟨k, rfl⟩ <;> exact mem_L _ _ _
    · rcases O₀_pos hg with rfl | rfl | ⟨k, rfl⟩ | ⟨k, rfl⟩
      · rw [lv_bar]; decide
      · rw [lv_bar]; decide
      · rw [lv_yr]; decide
      · rw [lv_xr]; decide
  · rw [MayWait_zero]; iintro -; iempintro

/-- At its barrier wait a device owes receive credits only, all above the barrier cells. -/
theorem mayWait_bar (c : Dev nD) :
    (levAts L lv : sProp 𝕄) ⊢ MayWait (c : Thread nD τ) (.reg barS) () (O₂ c) := by
  refine MayOwe.of_cut (L := L) (lev := lv) 1
    (fun p hp => by rw [Finset.mem_singleton.mp hp]; exact mem_L c _ _)
    (fun g u hg => ?_)
    (fun p hp => by rw [Finset.mem_singleton.mp hp]; exact le_of_eq (lv_bar c ()))
    (fun g u hg => ?_)
  · rcases O₂_pos hg with ⟨k, rfl⟩ | ⟨k, rfl⟩ <;> exact mem_L _ _ _
  · rcases O₂_pos hg with ⟨k, rfl⟩ | ⟨k, rfl⟩
    · rw [lv_yr]; decide
    · rw [lv_xr]; decide

/-- At the wait for chunk k from the y-peer a device owes x-receive credits only, one level up. -/
theorem mayWait_yr (c : Dev nD) (k : Fin 32) (a : ℕ) :
    (levAts L lv : sProp 𝕄) ⊢ MayWait (c : Thread nD τ) (.dma (yrS k)) () (owedX c a) := by
  refine MayOwe.of_cut (L := L) (lev := lv) 2
    (fun p hp => by rw [Finset.mem_singleton.mp hp]; exact mem_L c _ _)
    (fun g u hg => ?_)
    (fun p hp => by rw [Finset.mem_singleton.mp hp]; exact le_of_eq (lv_yr c k ()))
    (fun g u hg => ?_)
  · obtain ⟨k', rfl⟩ := owedX_pos hg; exact mem_L _ _ _
  · obtain ⟨k', rfl⟩ := owedX_pos hg; rw [lv_xr]; decide

/-! ## The launch credit -/

theorem O₀_fun : (O₀ : Dev nD → CellTallies nD τ sig Unit)
    = fun d => ((owedX d 0 + owedY d 0) + tallyAt (barCell (xp d)) () 1) + tallyAt (barCell (yp d)) () 1 := rfl

theorem filter_all : Finset.univ.filter (fun k : Fin 32 => 0 ≤ k.val) = Finset.univ :=
  Finset.filter_true_of_mem fun _ _ => Nat.zero_le _

/-- The unit the y-peer owes this device's barrier cell; -/
theorem cred_bar_y (c : Dev nD) :
    (Pipeline.launchCred (fun d : Dev nD => tallyAt (barCell (yp d)) () 1) c : sProp 𝕄) ⊢ cred (tallyAt (barCell c) () 1) :=
  Pipeline.launchCred_tallyAt (.reg barS) yp yp yp_yp yp_yp () 1 c
/-- the x-peer's; -/
theorem cred_bar_x (c : Dev nD) :
    (Pipeline.launchCred (fun d : Dev nD => tallyAt (barCell (xp d)) () 1) c : sProp 𝕄) ⊢ cred (tallyAt (barCell c) () 1) :=
  Pipeline.launchCred_tallyAt (.reg barS) xp xp xp_xp xp_xp () 1 c
/-- the chunk credits the y-peer owes this device's y-receive cells; -/
theorem cred_Y (c : Dev nD) :
    (Pipeline.launchCred (fun d : Dev nD => owedY d 0) c : sProp 𝕄)
      ⊢ bigSep Finset.univ fun k : Fin 32 => (cred (tallyAt (yrCell c k) () NC) : sProp 𝕄) := by
  unfold owedY
  rw [filter_all, Pipeline.launchCred_sum]
  exact bigSep_mono fun k _ => Pipeline.launchCred_tallyAt (.dma (yrS k)) yp yp yp_yp yp_yp () NC c
/-- and those the x-peer owes its x-receive cells. -/
theorem cred_X (c : Dev nD) :
    (Pipeline.launchCred (fun d : Dev nD => owedX d 0) c : sProp 𝕄)
      ⊢ bigSep Finset.univ fun k : Fin 32 => (cred (tallyAt (xrCell c k) () NC) : sProp 𝕄) := by
  unfold owedX
  rw [filter_all, Pipeline.launchCred_sum]
  exact bigSep_mono fun k _ => Pipeline.launchCred_tallyAt (.dma (xrS k)) xp xp xp_xp xp_xp () NC c

/-- The launch deals device c the credit of every unit its peers owe its cells. -/
theorem creds (c : Dev nD) : (Pipeline.launchCred O₀ c : sProp 𝕄) ⊢ credits c := by
  rw [O₀_fun, Pipeline.launchCred_add, Pipeline.launchCred_add, Pipeline.launchCred_add]
  unfold credits
  rw [show (tallyAt (barCell c) () 2 : CellTallies nD τ sig Unit) = tallyAt (barCell c) () 1 + tallyAt (barCell c) () 1 from
    (tallyAt_add (barCell c) () 1 1).symm, bigSep_sep']
  iintro ⟨⟨⟨HX, HY⟩, Hbx⟩, Hby⟩
  ihave Hbx' := (cred_bar_x (F := F) c) $$ Hbx
  ihave Hby' := (cred_bar_y (F := F) c) $$ Hby
  ihave HX' := (cred_X (F := F) c) $$ HX
  ihave HY' := (cred_Y (F := F) c) $$ HY
  isplitl [Hbx' Hby']
  · iapply (cred_add _ _).2
    isplitl [Hby'] <;> iassumption
  · isplitl [HY'] <;> iassumption

/-! ## The staging cells' waits -/

/-- The two staging semaphores are DMA semaphores 0 and 1: at the bottom level, so the pipeline may wait on them
    before the point, owing everything, and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      match t with
      | ⟨0, _⟩ => exact Or.inl rfl
      | ⟨_ + 1, _⟩ => exact Or.inr rfl)

/-- info: 'Cert.KernelIdeal.AR.creds' depends on axioms: [propext, Classical.choice, Quot.sound] -/
#guard_msgs in #print axioms creds

/-- info: 'Cert.KernelIdeal.AR.waits' depends on axioms: [propext, Classical.choice, Quot.sound] -/
#guard_msgs in #print axioms waits

end Cert.KernelIdeal.AR

end
-- ==== Proof.Final.lean ====
/- The arrays after the run: the input block as it was, the output block at what the body left in its staging buffer. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Gen.KernelIdeal.Points
import proofs.«900143_g7700000000000144_dist_ar_v7x_xy2x2_y_m2048_n512_f32_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-! ## The final arrays -/

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- An index of the output array is its own place in the one block. -/
theorem out_blk_emb (i : S2048x512.Idx) : ((cfg0.win (1 : Fin 2)).blk t₀).view.emb i = i := by
  refine Shape.idx_ext₂ ?_ ?_
  · exact Window.rect_emb_val_of_index_zero (cfg0.win (1 : Fin 2)) t₀ 0 rfl i
  · exact Window.rect_emb_val_of_index_zero (cfg0.win (1 : Fin 2)) t₀ 1 rfl i

/-- The output array after the run: the one point writes the whole array back, at what the body left. -/
theorem finalA_out (c : Dev nD) : finalA m ρ c (1 : Fin 2) = outFin m ρ c := by
  funext i
  show (dats m ρ 0 c).arrAt (1 : Fin 2) cfg0.N i = outFin m ρ c i
  have hN : cfg0.N = t₀.val + 1 := cfg0_N
  rw [hN, Dat.arrAt_succ, flush0_1 t₀, if_pos rfl]
  have hw := View.write_emb_of_mem (v := ((cfg0.win (1 : Fin 2)).blk t₀).view) (Val := Elt F)
    ((dats m ρ 0 c).arrAt (1 : Fin 2) t₀.val) ((dats m ρ 0 c).flushed (1 : Fin 2) t₀) (M := Finset.univ) (x := i) (Finset.mem_univ _)
  rw [out_blk_emb i] at hw
  rw [hw, cast_eq]
  rfl

/-- What the run's post says of the output: device c's result array ends at the sums. -/
theorem QC_out {r : PUnit × MemSt nD τ sig (Elt F)} (h : QC m ρ r) (c : Dev nD) :
    r.2.mem ((c : Thread nD τ).loc main_v1) = outFin m ρ c :=
  (h c (1 : Fin 2)).trans (finalA_out m ρ c)

/-- and of the input: unchanged. -/
theorem QC_arg {r : PUnit × MemSt nD τ sig (Elt F)} (h : QC m ρ r) (c : Dev nD) :
    r.2.mem ((c : Thread nD τ).loc main_arg0) = m ((c : Thread nD τ).loc main_arg0) :=
  (h c (0 : Fin 2)).trans (finalA_x m ρ c)

end Cert.KernelIdeal.AR

end
-- ==== Proof.Launch.lean ====
/- The launch: the ghost state minted for the 129 cells of each device, dealt to the devices that pay each duty,
   every cell's invariant allocated under one update, and the run of the whole mesh from each device's body. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Levels
import proofs.«900143_g7700000000000144_dist_ar_v7x_xy2x2_y_m2048_n512_f32_1_alg».proof.Proof.Final
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem stage_sem_lt : ∀ (w : Fin cfg0.W) (s : Fin (cfg0.spec w).nbuf), ((cfg0.spec w).sem s).val < 2 := by decide

/-- The 128 own semaphores are scoped, pairwise distinct, and none of the two staging semaphores (numbers 0 and 1). -/
theorem ownSemFacts : Pipeline.OwnSemFacts cfg0.spec osem where
  isScoped := by decide
  inj := fun a b h => dS_injective (SemLoc.dma.inj h)
  disj := fun k w s h => by
    have h1 : (dS k).val = ((cfg0.spec w).sem s).val := congrArg Fin.val (SemLoc.dma.inj h)
    have h2 := stage_sem_lt w s
    have h3 : (dS k).val = 2 + 32 * k.1.val + k.2.val := rfl
    omega

theorem share_eq (c : Dev nD) (w : Fin cfg0.W) : (dats m ρ 0 c).share w = fullShare := by unfold Dat.share; split <;> rfl

/-! ## Sums over a device's cells -/

theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext o; cases o <;> simp
  rw [h, BI.bigSep_insert (by simp), BI.bigSep_map]; rfl

theorem bigSep_bool (Φ : Bool → sProp 𝕄) : bigSep Finset.univ Φ = iprop(Φ false ∗ Φ true) :=
  bigSep_univ_eq_bigSepL [false, true] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A sum over the 4 × 32 transfer cells of a device, chunk by chunk. -/
theorem xfer_split (c : Dev nD) (Φ : GSem nD τ sig → sProp 𝕄) :
    bigSep Finset.univ (fun jk : Fin 4 × Fin 32 => Φ (kcell (c, some jk)))
      = bigSep Finset.univ fun k : Fin 32 => iprop(Φ (ysCell c k) ∗ Φ (yrCell c k) ∗ Φ (xsCell c k) ∗ Φ (xrCell c k)) := by
  rw [bigSep_univ_prod, bigSep_univ_comm]
  refine bigSep_congr fun k _ => ?_
  rw [bigSep_fin4, kcell_ys, kcell_yr, kcell_xs, kcell_xr]

/-- A sum over the 129 cells of a device: the barrier cell, then chunk by chunk. -/
theorem cells_split_all (c : Dev nD) (Φ : GSem nD τ sig → sProp 𝕄) :
    bigSep Finset.univ (fun o : Option (Fin 4 × Fin 32) => Φ (kcell (c, o)))
      = iprop(Φ (barCell c) ∗ bigSep Finset.univ fun k : Fin 32 => iprop(Φ (ysCell c k) ∗ Φ (yrCell c k) ∗ Φ (xsCell c k) ∗ Φ (xrCell c k))) := by
  rw [bigSep_option, xfer_split]

/-! ## The cells and the tokens minted -/

def cellsF : Finset (GSem nD τ sig) := Finset.univ.map ⟨kcell, kcell_injective⟩

/-- The duty tokens of a device's own cells: both duties of its barrier cell, the one duty of each transfer cell. -/
abbrev tokOf (cj : Dev nD × (Bool ⊕ (Fin 4 × Fin 32))) : GSem nD τ sig × ℕ × Bool := match cj.2 with
  | .inl b => (barCell cj.1, 0, b)
  | .inr jk => (kcell (cj.1, some jk), 0, false)

theorem tokOf_injective : Function.Injective (tokOf : Dev nD × (Bool ⊕ (Fin 4 × Fin 32)) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl b =>
    cases j' with
    | inl b' =>
      have : b = b' := congrArg (fun x : GSem nD τ sig × ℕ × Bool => x.2.2) h
      rw [this]
    | inr jk' => exact absurd (congrArg (fun x : GSem nD τ sig × ℕ × Bool => x.1.2) h) (fun h' => by cases h')
  | inr jk =>
    cases j' with
    | inl b' => exact absurd (congrArg (fun x : GSem nD τ sig × ℕ × Bool => x.1.2) h) (fun h' => by cases h')
    | inr jk' =>
      have h2 : SemLoc.dma (dS jk) = SemLoc.dma (dS jk') := congrArg (fun x : GSem nD τ sig × ℕ × Bool => x.1.2) h
      rw [dS_injective (SemLoc.dma.inj h2)]

def toksF : Finset (GSem nD τ sig × ℕ × Bool) := Finset.univ.map ⟨tokOf, tokOf_injective⟩

def u₀ : UU :=
  (initOf (Pipeline.cells cfgs cellOf_inj) (Pipeline.launchToks cfgs cellOf_inj), initOf cellsF toksF)

/-- The duty tokens of device c's own cells. -/
def toks (c : Dev nD) : sProp 𝕄 :=
  iprop((dutyTok ER (barCell c) 0 false ∗ dutyTok ER (barCell c) 0 true)
    ∗ bigSep Finset.univ fun jk : Fin 4 × Fin 32 => dutyTok ER (kcell (c, some jk)) 0 false)

/-- What the launch element deals device c: the round state of its 129 cells at counter zero, its position at the
    start of round 0 of each and that round 0 of each is reached, and its own cells' tokens. -/
def G (c : Dev nD) : sProp 𝕄 :=
  iprop((bigSep Finset.univ fun o : Option (Fin 4 × Fin 32) => roundState ER (sched m ρ) (kcell (c, o)) 0)
    ∗ (bigSep Finset.univ fun o : Option (Fin 4 × Fin 32) => iprop(atPos ER (kcell (c, o)) 0 ∅ 0 ∗ reached ER (kcell (c, o)) 0)) ∗ toks c)

/-- What the global step makes of it. -/
def G' (c : Dev nD) : sProp 𝕄 := iprop(∃ K, ghost m ρ K c)

theorem fund_all : BI.own (ER (initOf cellsF toksF)) ⊢ (|==> bigSep Finset.univ (G m ρ) : sProp 𝕄) := by
  have hX (Φ : GSem nD τ sig → sProp 𝕄) :
      bigSep cellsF Φ = bigSep Finset.univ fun c : Dev nD => bigSep Finset.univ fun o : Option (Fin 4 × Fin 32) => Φ (kcell (c, o)) := by
    unfold cellsF; rw [BI.bigSep_map, bigSep_univ_prod]; rfl
  have hT : bigSep toksF (fun x => (dutyTok ER x.1 x.2.1 x.2.2 : sProp 𝕄)) = bigSep Finset.univ fun c : Dev nD => toks c := by
    unfold toksF; rw [BI.bigSep_map, bigSep_univ_prod]
    exact bigSep_congr fun c _ => by unfold toks; rw [bigSep_univ_sum, bigSep_bool]; rfl
  iintro HX
  imod (Rounds.fund ER (sched m ρ) cellsF toksF) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 32 => semVal (kcell (c, some jk)) 0 := rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 4 × Fin 32) => semVal (kcell (c, o)) 0 : sProp 𝕄) := by
  rw [ownSems0_eq, unscopedSems0_eq, bigSep_option]
  iintro ⟨HS, HB⟩
  isplitl [HB]; · iexact HB
  iexact HS

/-- Every cell of device c closed at zero under its invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option (Fin 4 × Fin 32) => iprop(∃ κ : ℕ, cellInv ER (sched m ρ) κ (kcell (c, o))))
          ∗ (bigSep Finset.univ fun o : Option (Fin 4 × Fin 32) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (Fin 4 × Fin 32) => semVal (kcell (c, o)) 0)
        ∗ bigSep Finset.univ fun o : Option (Fin 4 × Fin 32) => roundState ER (sched m ρ) (kcell (c, o)) 0)
      ⊢ (|={Set.univ}=> bigSep Finset.univ fun o : Option (Fin 4 × Fin 32) => iprop(∃ κ : ℕ, cellInv ER (sched m ρ) κ (kcell (c, o))) : sProp 𝕄) from by
        rw [← bigSep_sep']
        exact (bigSep_mono fun o _ => (Rounds.body_intro ER (sched m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the payers; the per-device shape -/

theorem ghost_intro (K : Dev nD × Option (Fin 4 × Fin 32) → ℕ) (c : Dev nD) : iprop(records m ρ K ∗ linear c) ⊢ G' m ρ c := by
  unfold G' ghost
  iintro H; iexists K; iexact H

theorem toks_eq (c : Dev nD) : (toks c : sProp 𝕄)
    = iprop((dutyTok ER (barCell c) 0 false ∗ dutyTok ER (barCell c) 0 true)
        ∗ bigSep Finset.univ fun k : Fin 32 => iprop(dutyTok ER (ysCell c k) 0 false ∗ dutyTok ER (yrCell c k) 0 false
            ∗ dutyTok ER (xsCell c k) 0 false ∗ dutyTok ER (xrCell c k) 0 false)) := by
  unfold toks; rw [xfer_split c (fun g => (dutyTok ER g 0 false : sProp 𝕄))]

/-- A barrier cell's false-token goes to the device whose y-peer owns the cell, its true-token to the one whose x-peer
    does; a y-receive cell's token to the y-peer, an x-receive cell's to the x-peer; the send cells' tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv ypE (fun c : Dev nD => (dutyTok ER (barCell c) 0 false : sProp 𝕄)),
    bigSep_univ_equiv xpE (fun c : Dev nD => (dutyTok ER (barCell c) 0 true : sProp 𝕄)),
    bigSep_univ_equiv ypE (fun c : Dev nD => bigSep Finset.univ fun k : Fin 32 => (dutyTok ER (yrCell c k) 0 false : sProp 𝕄)),
    bigSep_univ_equiv xpE (fun c : Dev nD => bigSep Finset.univ fun k : Fin 32 => (dutyTok ER (xrCell c k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option (Fin 4 × Fin 32) => iprop(∃ κ : ℕ, cellInv ER (sched m ρ) κ (kcell (c, o))))
          ∗ (bigSep Finset.univ fun o : Option (Fin 4 × Fin 32) => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun ck : Dev nD × Option (Fin 4 × Fin 32) => iprop(∃ κ : ℕ, cellInv ER (sched m ρ) κ (kcell ck))),
    bigSep_congr (s := Finset.univ) (fun (c : Dev nD) _ => bigSep_sep' Finset.univ (fun o : Option (Fin 4 × Fin 32) => (atPos ER (kcell (c, o)) 0 ∅ 0 : sProp 𝕄)) (fun o => reached ER (kcell (c, o)) 0)),
    bigSep_sep', ← bigSep_univ_prod (fun ck : Dev nD × Option (Fin 4 × Fin 32) => (reached ER (kcell ck) 0 : sProp 𝕄))]
  iintro ⟨HI, ⟨Hat, #HR⟩, Htok⟩
  ihave HK := (BI.bigSep_exists_pi Finset.univ (fun (ck : Dev nD × Option (Fin 4 × Fin 32)) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun o : Option (Fin 4 × Fin 32) => (atPos ER (kcell (c, o)) 0 ∅ 0 : sProp 𝕄)) payToks).symm).trans
      (bigSep_mono fun c _ => show _ ⊢ linear c from Entails.of_eq (by unfold linear positions; rw [cells_split_all c (fun g => (atPos ER g 0 ∅ 0 : sProp 𝕄))])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) (hcreds : (Pipeline.launchCred O₀ c : sProp 𝕄) ⊢ credits c) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := hcreds $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

/-- After the point the 128 own cells are back at zero and the landing buffer is whole at some contents. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  iintro ⟨Hr, Hz⟩
  isplitr; · iempintro
  isplitl [Hz]; · iexact Hz
  iexists (landed m ρ c); iexact Hr

/-! ## The run -/

set_option maxRecDepth 8000 in
/-- On the mesh of four devices, for any float values, from any memory with every counter at zero: given each device's
    body, every weakly fair execution of the program terminates, and every final state has each device's two arrays at
    the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := fun c => start_intro m ρ c (creds (F := F) c)) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main' depends on axioms: [propext, Classical.choice, Quot.sound] -/
#guard_msgs in #print axioms run_main

end Cert.KernelIdeal.AR

end
-- ==== Proof.Vals.lean ====
/- What the transfers land and what the store writes, index by index: each chunk of 32 rows is one rectangle
   of its buffer, an element under it is the image of a block index, and the contents there are read off the
   closed forms of the rectangles' offsets. -/
import proofs.«900143_g7700000000000144_dist_ar_v7x_xy2x2_y_m2048_n512_f32_1_alg».proof.Proof.Cells

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a chunk's block indices sit -/

/-- Row of the block under block index j of chunk k of device c's own half. -/
theorem own_emb_row (c : Dev nD) (k : Fin 32) (j : S32x512.Idx) :
    (((rectOwn c k).emb j) 0).val = 1024 * (c.val / 2) + 32 * k.val + (j 0).val := by
  rw [Rect.emb_apply]
  show k0_off1 c (BitVec.ofNat 32 (32 * k.val)) 0 + 1 * (j 0).val = _
  rw [k0_off1_eq c k]
  show 1024 * (c.val / 2) + 32 * k.val + 1 * (j 0).val = _
  omega

theorem own_emb_col (c : Dev nD) (k : Fin 32) (j : S32x512.Idx) :
    (((rectOwn c k).emb j) 1).val = (j 1).val := by
  rw [Rect.emb_apply]
  show k0_off1 c (BitVec.ofNat 32 (32 * k.val)) 1 + 1 * (j 1).val = _
  rw [k0_off1_eq c k]
  show 0 + 1 * (j 1).val = _
  omega

theorem rectOwn'_eq (c : Dev nD) (k : Fin 32) : rectOwn' c k = rectOwn c k :=
  Rect.unit_congr ((k0_off2_eq c k).trans (k0_off1_eq c k).symm) _ _

theorem r_emb_row (k : Fin 32) (j : S32x512.Idx) : (((rectR k).emb j) 0).val = 32 * k.val + (j 0).val := by
  rw [Rect.emb_apply]
  show 32 * k.val + 1 * (j 0).val = _
  omega

theorem r_emb_col (k : Fin 32) (j : S32x512.Idx) : (((rectR k).emb j) 1).val = (j 1).val := by
  rw [Rect.emb_apply]
  show 0 + 1 * (j 1).val = _
  omega

/-- Block index j of chunk k of the landing buffer, moved up to the half of c, is block index j of chunk k of c's own half. -/
theorem upRow_r_emb (c d : Dev nD) (h : d.val / 2 = c.val / 2) (k : Fin 32) (j : S32x512.Idx) :
    upRow d ((rectR k).emb j) = (rectOwn c k).emb j := by
  refine Shape.idx_ext₂ ?_ ?_
  · show 1024 * (d.val / 2) + (((rectR k).emb j) 0).val = (((rectOwn c k).emb j) 0).val
    rw [r_emb_row, own_emb_row, h]; omega
  · show (((rectR k).emb j) 1).val = (((rectOwn c k).emb j) 1).val
    rw [r_emb_col, own_emb_col]

theorem V1 (c : Dev nD) (k : Fin 32) (fd : Buf (Elt F) ((rSl k).view.loc ((yp c : Dev nD) : Thread nD τ))) :
    ((((rSl k).view.loc ((yp c : Dev nD) : Thread nD τ)) ↦[(rSl k).view.set]{fullShare}
        ((rSl k).view.write (Elt F) fd ((xSl c k).view.read (Elt F) (xstg m ρ c)) Finset.univ)) : sProp 𝕄)
      = (((rSl k).view.loc ((yp c : Dev nD) : Thread nD τ)) ↦[(rSl k).view.set]{fullShare} landed m ρ (yp c)) := by
  refine pointsTo_congr fun i hi => ?_
  obtain ⟨j, rfl⟩ := View.exists_emb_of_mem_set _ hi
  rw [View.write_emb_of_mem _ _ (Finset.mem_univ j), View.read_apply, cast_cast, cast_eq]
  show xstg m ρ c ((rectOwn c k).emb j) = xstg m ρ (yp (yp c)) (upRow (yp c) ((rectR k).emb j))
  rw [yp_yp, upRow_r_emb c (yp c) (yp_half c) k j]

/-! ## The halves -/

theorem own_emb_half (c : Dev nD) (k : Fin 32) (j : S32x512.Idx) :
    (((rectOwn c k).emb j) 0).val / 1024 = c.val / 2 := by
  rw [own_emb_row]
  have hk := k.isLt
  have hj : (j 0).val < 32 := (j 0).isLt
  omega

/-- On a row of its own half device c's output ends at the sum it formed, -/
theorem outFin_own (c : Dev nD) (k : Fin 32) (j : S32x512.Idx) :
    outFin m ρ c ((rectOwn c k).emb j) = sumV m ρ c ((rectOwn c k).emb j) := by
  unfold outFin
  rw [if_pos (own_emb_half c k j)]

/-- and there its x-peer's output ends at the same sum: that row is in the x-peer's other half. -/
theorem outFin_peer (c : Dev nD) (k : Fin 32) (j : S32x512.Idx) :
    outFin m ρ (xp c) ((rectOwn c k).emb j) = sumV m ρ c ((rectOwn c k).emb j) := by
  unfold outFin
  rw [if_neg, xp_xp]
  rw [own_emb_half, xp_half]
  have := half_lt c
  omega

theorem V2 (c : Dev nD) (k : Fin 32) (fd : Buf (Elt F) ((oSl c k).view.loc ((xp c : Dev nD) : Thread nD τ))) :
    ((((oSl c k).view.loc ((xp c : Dev nD) : Thread nD τ)) ↦[(oSl c k).view.set]{fullShare}
        ((oSl c k).view.write (Elt F) fd ((oSl c k).view.read (Elt F) (outFin m ρ c)) Finset.univ)) : sProp 𝕄)
      = (((oSl c k).view.loc ((xp c : Dev nD) : Thread nD τ)) ↦[(oSl c k).view.set]{fullShare} outFin m ρ (xp c)) := by
  refine pointsTo_congr fun i hi => ?_
  obtain ⟨j, rfl⟩ := View.exists_emb_of_mem_set _ hi
  rw [View.write_emb_of_mem _ _ (Finset.mem_univ j), View.read_apply, cast_cast, cast_eq]
  show outFin m ρ c ((rectOwn c k).emb j) = outFin m ρ (xp c) ((rectOwn c k).emb j)
  rw [outFin_own, outFin_peer]

/-! ## The store -/

theorem own'_emb_row (c : Dev nD) (k : Fin 32) (j : S32x512.Idx) :
    (((rectOwn' c k).emb j) 0).val = 1024 * (c.val / 2) + 32 * k.val + (j 0).val := by
  rw [Rect.emb_apply]
  show k0_off2 c (BitVec.ofNat 32 (32 * k.val)) 0 + 1 * (j 0).val = _
  rw [k0_off2_eq c k]
  show 1024 * (c.val / 2) + 32 * k.val + 1 * (j 0).val = _
  omega

theorem own'_emb_col (c : Dev nD) (k : Fin 32) (j : S32x512.Idx) :
    (((rectOwn' c k).emb j) 1).val = (j 1).val := by
  rw [Rect.emb_apply]
  show k0_off2 c (BitVec.ofNat 32 (32 * k.val)) 1 + 1 * (j 1).val = _
  rw [k0_off2_eq c k]
  show 0 + 1 * (j 1).val = _
  omega

/-- The two offset chains place a block index at the same element. -/
theorem own'_emb (c : Dev nD) (k : Fin 32) (j : S32x512.Idx) : (rectOwn' c k).emb j = (rectOwn c k).emb j :=
  Shape.idx_ext₂ (by rw [own'_emb_row, own_emb_row]) (by rw [own'_emb_col, own_emb_col])

theorem V3 (c : Dev nD) (k : Fin 32) (f : Buf (Elt F) (oM.view.loc (c : Thread nD τ))) :
    ((((oM.access (rectOwn' c k)).loc (c : Thread nD τ)) ↦[(oSl c k).view.set]{fullShare}
        ((oM.access (rectOwn' c k)).write (Elt F) f
          (addf (shapeCast S32x512 (xM.view.readAt (Elt F) (rectOwn' c k).toLoadRect (xstg m ρ c)) shapeCasts_S32x512_S32x512)
            (rM.view.readAt (Elt F) (rectR k).toLoadRect (landed m ρ c))) Finset.univ)) : sProp 𝕄)
      = (((oM.access (rectOwn' c k)).loc (c : Thread nD τ)) ↦[(oSl c k).view.set]{fullShare} outFin m ρ c) := by
  refine pointsTo_congr fun i hi => ?_
  obtain ⟨j, rfl⟩ := View.exists_emb_of_mem_set _ hi
  have he : (oSl c k).view.emb j = (oM.access (rectOwn' c k)).emb j := (own'_emb c k j).symm
  rw [he, View.write_emb_of_mem _ _ (Finset.mem_univ j), cast_eq,
    shapeCast_self (s := S32x512) (xM.view.readAt (Elt F) (rectOwn' c k).toLoadRect (xstg m ρ c)) shapeCasts_S32x512_S32x512]
  show FloatOps.addf (xM.view.readAt (Elt F) (rectOwn' c k).toLoadRect (xstg m ρ c) j)
      (rM.view.readAt (Elt F) (rectR k).toLoadRect (landed m ρ c) j) = outFin m ρ c ((rectOwn' c k).emb j)
  rw [View.readAt_apply, View.readAt_apply, View.read_apply, View.read_apply, cast_eq, cast_eq]
  show FloatOps.addf (xstg m ρ c ((rectOwn' c k).emb j)) (landed m ρ c ((rectR k).emb j)) = outFin m ρ c ((rectOwn' c k).emb j)
  rw [own'_emb, outFin_own]
  show _ = FloatOps.addf (xstg m ρ c ((rectOwn c k).emb j)) (xstg m ρ (yp c) ((rectOwn c k).emb j))
  unfold landed
  rw [upRow_r_emb c c rfl]

/-! ## The program's payload terms -/

theorem pay_eq (vx vr : Vec F S32x512 .f32) :
    Gen.k0_pay1 vx vr = addf (shapeCast S32x512 vx shapeCasts_S32x512_S32x512) vr := rfl

theorem pay89_eq (vx vr : Vec F S32x512 .f32) :
    Gen.k0_pay9 (Gen.k0_pay8 vx) vr = addf (shapeCast S32x512 vx shapeCasts_S32x512_S32x512) vr := rfl

/-- info: 'Cert.KernelIdeal.AR.V1' depends on axioms: [propext, Classical.choice, Quot.sound] -/
#guard_msgs in #print axioms V1
/-- info: 'Cert.KernelIdeal.AR.V2' depends on axioms: [propext, Classical.choice, Quot.sound] -/
#guard_msgs in #print axioms V2
/-- info: 'Cert.KernelIdeal.AR.V3' depends on axioms: [propext, Classical.choice, Quot.sound] -/
#guard_msgs in #print axioms V3

end Cert.KernelIdeal.AR

end
-- ==== Proof.Phase1.lean ====
/- The first phase of a device's body, one transfer at a time: chunk a of its own half goes to the y-peer's
   landing buffer, half the chunk's share lent to the transfer. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Data
import proofs.«900143_g7700000000000144_dist_ar_v7x_xy2x2_y_m2048_n512_f32_1_alg».proof.Proof.Vals
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks from a on, chunks below a -/

abbrev GE (a : ℕ) : Finset (Fin 32) := Finset.univ.filter (fun k : Fin 32 => a ≤ k.val)
abbrev LT (a : ℕ) : Finset (Fin 32) := Finset.univ.filter (fun k : Fin 32 => k.val < a)

theorem filter_lt_succ (a : Fin 32) :
    Finset.univ.filter (fun k : Fin 32 => k.val < a.val + 1) = insert a (Finset.univ.filter (fun k : Fin 32 => k.val < a.val)) := by
  ext k
  simp only [Finset.mem_filter, Finset.mem_univ, true_and, Finset.mem_insert, Fin.ext_iff]
  omega

omit [FloatOps F] in
theorem GE_peel (a : Fin 32) (Φ : Fin 32 → sProp 𝕄) : bigSep (GE a.val) Φ = iprop(Φ a ∗ bigSep (GE (a.val + 1)) Φ) := by
  show bigSep (Finset.univ.filter _) Φ = _
  rw [filter_ge_succ a, bigSep_insert (by simp only [Finset.mem_filter, Finset.mem_univ, true_and]; omega)]
  rfl
omit [FloatOps F] in
theorem LT_push (a : Fin 32) (Φ : Fin 32 → sProp 𝕄) : bigSep (LT (a.val + 1)) Φ = iprop(Φ a ∗ bigSep (LT a.val) Φ) := by
  show bigSep (Finset.univ.filter _) Φ = _
  rw [filter_lt_succ a, bigSep_insert (by simp only [Finset.mem_filter, Finset.mem_univ, true_and]; omega)]
  rfl
theorem GE_zero : GE 0 = Finset.univ := Finset.filter_true_of_mem fun _ _ => Nat.zero_le _
theorem LT_zero : LT 0 = ∅ := Finset.filter_eq_empty_iff.mpr fun _ _ => Nat.not_lt_zero _
theorem GE_top : GE 32 = ∅ := Finset.filter_eq_empty_iff.mpr fun k _ => by have := k.isLt; omega
theorem LT_top : LT 32 = Finset.univ := Finset.filter_true_of_mem fun k _ => k.isLt

/-! ## The records, cell by cell -/

theorem rec_inv (K : Dev nD × Option (Fin 4 × Fin 32) → ℕ) (ck : Dev nD × Option (Fin 4 × Fin 32)) :
    records m ρ K ⊢ cellInv ER (sched m ρ) (K ck) (kcell ck) := by
  unfold records; iintro ⟨H, -⟩
  iapply (show (bigSep Finset.univ fun ck : Dev nD × Option (Fin 4 × Fin 32) => cellInv ER (sched m ρ) (K ck) (kcell ck) : sProp 𝕄)
    ⊢ cellInv ER (sched m ρ) (K ck) (kcell ck) from bigSep_elim (Finset.mem_univ ck))
  iexact H
theorem rec_reached (K : Dev nD × Option (Fin 4 × Fin 32) → ℕ) (ck : Dev nD × Option (Fin 4 × Fin 32)) :
    records m ρ K ⊢ reached ER (kcell ck) 0 := by
  unfold records; iintro ⟨-, H⟩
  iapply (show (bigSep Finset.univ fun ck : Dev nD × Option (Fin 4 × Fin 32) => (reached ER (kcell ck) 0 : sProp 𝕄))
    ⊢ reached ER (kcell ck) 0 from bigSep_elim (Finset.mem_univ ck))
  iexact H

/-! ## Phase 1 -/

/-- Before the y-transfer of chunk a: the chunks from a on whole with their landing places and tokens; the
    chunks below a at the half share kept, with the send credit. -/
def I1 (c : Dev nD) (W : Waits sig Unit) (a : ℕ) : sProp 𝕄 :=
  iprop(owes (c : Thread nD τ) (owedX c 0 + owedY c a) W
    ∗ bigSep (GE a) (fun k => iprop(
         (((xSl c k).view.loc (c : Thread nD τ)) ↦[(xSl c k).view.set]{fullShare} xstg m ρ c)
         ∗ (∃ f, ((rSl k).view.loc ((yp c : Dev nD) : Thread nD τ)) ↦[(rSl k).view.set]{fullShare} f)
         ∗ dutyTok ER (ysCell c k) 0 false ∗ dutyTok ER (yrCell (yp c) k) 0 false))
    ∗ bigSep (LT a) (fun k => iprop(
         (((xSl c k).view.loc (c : Thread nD τ)) ↦[(xSl c k).view.set]{fullShare.right} xstg m ρ c)
         ∗ cred (tallyAt (ysCell c k) () NC))))

theorem y_step (K : Dev nD × Option (Fin 4 × Fin 32) → ℕ) (c n : Dev nD) (hn : n = yp c) (a : Fin 32) (W : Waits sig Unit)
    {hsc : (rSl a : Memref sig (Dev.tc n : Thread nD τ).2.kind .vmem S32x512 .f32).view.ref.isScScratch = false}
    {hsrc : (xSl c a : Memref sig .tc .vmem S32x512 .f32).view.WordExact} {hdst : (rSl a : Memref sig .tc .vmem S32x512 .f32).view.WordExact}
    {hsem : DmaTarget.Typed .vmem (.dma (yrS a)) (.remote (Dev.tc n : Thread nD τ) (rSl a : Memref sig .tc .vmem S32x512 .f32) (.dma (ysS a)) hsc)}
    {α : Type} {Q : α → sProp 𝕄} {kk : PUnit → Prog (TpuEff nD τ sig (Elt F) Λ₀ .tc) α} :
    iprop(records m ρ K ∗ I1 m ρ c W a.val)
      ⊢ iprop((I1 m ρ c W (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xSl c a) (.remote (Dev.tc n : Thread nD τ) (rSl a) (.dma (ysS a)) hsc) (.dma (yrS a)) hsrc hdst hsem) kk) Q) := by
  subst hn
  unfold I1
  rw [GE_peel a, LT_push a, owedY_peel c a]
  iintro ⟨#Hrec, HO, ⟨⟨Hx, ⟨%fn, Hr⟩, Hts, Htr⟩, Hge⟩, Hlt⟩ Hk
  ihave Hx2 := (pointsTo_share (PosShare.mem_left_op_right fullShare)).1 $$ Hx
  icases Hx2 with ⟨HxL, HxR⟩
  ihave #Hi1 := ((rec_inv m ρ K (c, some (0, a))).trans (Entails.of_eq (by rw [kcell_ys]))) $$ Hrec
  ihave #Hi2 := ((rec_inv m ρ K (yp c, some (1, a))).trans (Entails.of_eq (by rw [kcell_yr]))) $$ Hrec
  ihave #Hr1 := ((rec_reached m ρ K (c, some (0, a))).trans (Entails.of_eq (by rw [kcell_ys]))) $$ Hrec
  ihave #Hr2 := ((rec_reached m ρ K (yp c, some (1, a))).trans (Entails.of_eq (by rw [kcell_yr]))) $$ Hrec
  iapply (Rounds.wp_send_pointsTo 𝒱₀ ER (sched m ρ) (c : Thread nD τ) none (κ₁ := K (c, some (0, a))) (κ₂ := K (yp c, some (1, a)))
      (r₁ := 0) (r₂ := 0) (d₁ := false) (d₂ := false) (q := fullShare.left) (fs := xstg m ρ c) (fd := fn)
      (by rw [duties_ys]; exact Finset.mem_singleton_self _) (by rw [duties_yr]; exact Finset.mem_singleton_self _)
      () () NC rfl (amount_ys m ρ c a false) (amount_yr m ρ (yp c) a false) (owedX c 0 + owedY c (a.val + 1)) (add_assoc _ _ _).symm (W := W)
      (by rw [payload_ys]; exact BI.Entails.refl _)
      (by rw [payload_yr]; unfold yrPay; rw [V1])) $$ [HO HxL Hr Hts Htr]
  · isplitr; · iexact Hi1
    isplitr; · iexact Hi2
    isplitl [HxL]; · iexact HxL
    isplitl [Hr]; · iexact Hr
    isplitl [HO]; · iexact HO
    isplitl [Hts]; · iexact Hts
    isplitr; · iexact Hr1
    isplitl [Htr]; · iexact Htr
    iexact Hr2
  iintro ⟨Hc, HO⟩
  iapply Hk
  isplitl [HO]; · iexact HO
  isplitl [Hge]; · iexact Hge
  isplitl [HxR Hc]
  · isplitl [HxR]; · iexact HxR
    iexact Hc
  iexact Hlt

end Cert.KernelIdeal.AR

end
-- ==== Proof.Inv.lean ====
/- What a device holds between the iterations of the second and third phases of its body. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Phase1
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before iteration a of the second phase (wait for the y-peer's chunk a, add, store, send to the x-peer): from a
    on, the receive credit and position, the output chunk here and at the x-peer, the two tokens; below a, the
    landed chunk, its cell closed, the x-send credit; throughout, the kept half share of every input chunk. -/
def I2 (c : Dev nD) (a : ℕ) : sProp 𝕄 :=
  iprop((∃ W, owes (c : Thread nD τ) (owedX c a) W)
    ∗ bigSep (GE a) (fun k => iprop(
        cred (tallyAt (yrCell c k) () NC) ∗ atPos ER (yrCell c k) 0 ∅ 0
        ∗ (∃ f, ((oSl c k).view.loc (c : Thread nD τ)) ↦[(oSl c k).view.set]{fullShare} f)
        ∗ (∃ f, ((oSl c k).view.loc ((xp c : Dev nD) : Thread nD τ)) ↦[(oSl c k).view.set]{fullShare} f)
        ∗ dutyTok ER (xsCell c k) 0 false ∗ dutyTok ER (xrCell (xp c) k) 0 false))
    ∗ bigSep (LT a) (fun k => iprop(
        yrPay m ρ c k ∗ semVal (yrCell c k) 0 ∗ cred (tallyAt (xsCell c k) () NC)))
    ∗ bigSep Finset.univ (fun k : Fin 32 =>
        ((xSl c k).view.loc (c : Thread nD τ)) ↦[(xSl c k).view.set]{fullShare.right} xstg m ρ c))

/-- Before iteration a of the third phase (the waits for chunk a's x-arrival and for both sends): from a on, the
    three credits and positions; below a, the three payloads with their cells closed. -/
def I3 (c : Dev nD) (a : ℕ) : sProp 𝕄 :=
  iprop((∃ W, owes (c : Thread nD τ) 0 W)
    ∗ bigSep (GE a) (fun k => iprop(
        cred (tallyAt (xrCell c k) () NC) ∗ atPos ER (xrCell c k) 0 ∅ 0
        ∗ cred (tallyAt (ysCell c k) () NC) ∗ atPos ER (ysCell c k) 0 ∅ 0
        ∗ cred (tallyAt (xsCell c k) () NC) ∗ atPos ER (xsCell c k) 0 ∅ 0))
    ∗ bigSep (LT a) (fun k => iprop(
        xrPay m ρ c k ∗ semVal (xrCell c k) 0 ∗ ysPay m ρ c k ∗ semVal (ysCell c k) 0 ∗ xsPay m ρ c k ∗ semVal (xsCell c k) 0)))

end Cert.KernelIdeal.AR

end
-- ==== Proof.Geom.lean ====
/- The geometry of the row chunks of the all-reduce on the 2 × 2 mesh. A buffer of 2048 rows is cut into two halves of
   1024 rows; half h is cut into 32 chunks of 32 rows, chunk k of half h being rows 1024 h + 32 k onward, all 512
   columns. The 64 chunks are pairwise disjoint and cover the buffer; likewise the 32 chunks of the 1024-row landing
   buffer. A points-to of a whole buffer is therefore the separating conjunction of the points-tos of its chunks. -/
import proofs.«900143_g7700000000000144_dist_ar_v7x_xy2x2_y_m2048_n512_f32_1_alg».proof.Proof.Cells

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Membership in a chunk: a condition on the row coordinate alone -/

/-- An element lies in chunk k of device c's half exactly when its row lies in [1024 (c / 2) + 32 k, + 32). -/
theorem mem_rectOwn (c : Dev nD) (k : Fin 32) (i : S2048x512.Idx) :
    i ∈ (rectOwn c k).set ↔
      1024 * (c.val / 2) + 32 * k.val ≤ (i 0).val ∧ (i 0).val < 1024 * (c.val / 2) + 32 * k.val + 32 := by
  rw [Rect.mem_set_unit, Gen.k0_off1_eq]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-- The same rows through the second offset chain. -/
theorem mem_rectOwn' (c : Dev nD) (k : Fin 32) (i : S2048x512.Idx) :
    i ∈ (rectOwn' c k).set ↔
      1024 * (c.val / 2) + 32 * k.val ≤ (i 0).val ∧ (i 0).val < 1024 * (c.val / 2) + 32 * k.val + 32 := by
  rw [Rect.mem_set_unit, Gen.k0_off2_eq]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-- The two offset chains name the same elements. -/
theorem rectOwn'_set (c : Dev nD) (k : Fin 32) : (rectOwn' c k).set = (rectOwn c k).set := by
  ext i; rw [mem_rectOwn', mem_rectOwn]

/-- An element of the landing buffer lies in chunk k exactly when its row lies in [32 k, 32 k + 32). -/
theorem mem_rectR (k : Fin 32) (i : S1024x512.Idx) :
    i ∈ (rectR k).set ↔ 32 * k.val ≤ (i 0).val ∧ (i 0).val < 32 * k.val + 32 := by
  rw [Rect.mem_set_unit]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-! ## Disjointness and cover, on the row coordinate -/

/-- Chunks of different halves, or different chunks of one half, share no element. -/
theorem rectOwn_disjoint (c c' : Dev nD) (k k' : Fin 32) (h : c.val / 2 ≠ c'.val / 2 ∨ k ≠ k') :
    Disjoint (rectOwn c k).set (rectOwn c' k').set := by
  rw [Finset.disjoint_left]
  intro i h1 h2
  rw [mem_rectOwn] at h1 h2
  have := k.isLt; have := k'.isLt; have := half_lt c; have := half_lt c'
  rcases h with h | h
  · omega
  · have : k.val ≠ k'.val := fun e => h (Fin.ext e)
    omega

/-- Every element lies in a chunk of c's half or in a chunk of the other half, which is the x-peer's. -/
theorem rectOwn_cover (c : Dev nD) (i : S2048x512.Idx) :
    (∃ k : Fin 32, i ∈ (rectOwn c k).set) ∨ (∃ k : Fin 32, i ∈ (rectOwn (xp c) k).set) := by
  have hi : (i 0).val < 2048 := (i 0).isLt
  have hc := half_lt c
  have hx := xp_half c
  by_cases h : (i 0).val / 1024 = c.val / 2
  · left
    refine ⟨⟨((i 0).val % 1024) / 32, by omega⟩, ?_⟩
    rw [mem_rectOwn]
    show 1024 * (c.val / 2) + 32 * (((i 0).val % 1024) / 32) ≤ (i 0).val
      ∧ (i 0).val < 1024 * (c.val / 2) + 32 * (((i 0).val % 1024) / 32) + 32
    omega
  · right
    refine ⟨⟨((i 0).val % 1024) / 32, by omega⟩, ?_⟩
    rw [mem_rectOwn, hx]
    show 1024 * (1 - c.val / 2) + 32 * (((i 0).val % 1024) / 32) ≤ (i 0).val
      ∧ (i 0).val < 1024 * (1 - c.val / 2) + 32 * (((i 0).val % 1024) / 32) + 32
    omega

/-- Different chunks of the landing buffer share no element. -/
theorem rectR_disjoint (k k' : Fin 32) (h : k ≠ k') : Disjoint (rectR k).set (rectR k').set := by
  rw [Finset.disjoint_left]
  intro i h1 h2
  rw [mem_rectR] at h1 h2
  have : k.val ≠ k'.val := fun e => h (Fin.ext e)
  omega

/-- Every element of the landing buffer lies in a chunk. -/
theorem rectR_cover (i : S1024x512.Idx) : ∃ k : Fin 32, i ∈ (rectR k).set := by
  have hi : (i 0).val < 1024 := (i 0).isLt
  refine ⟨⟨(i 0).val / 32, by omega⟩, ?_⟩
  rw [mem_rectR]
  show 32 * ((i 0).val / 32) ≤ (i 0).val ∧ (i 0).val < 32 * ((i 0).val / 32) + 32
  omega

/-! ## A buffer's points-to as the conjunction of its chunks' -/

section Rows

variable {sp : Space} {e : EltTy}

/-- Chunk k of half c / 2 of a 2048-row memref, as elements of the memref's buffer. -/
abbrev chunk (M : Memref sig .tc sp S2048x512 e) (c : Dev nD) (k : Fin 32) : Finset M.view.ty.Idx :=
  (M.view.slice (rectOwn c k)).set

/-- Chunk k of a 1024-row memref, as elements of the memref's buffer. -/
abbrev chunkR (M : Memref sig .tc sp S1024x512 e) (k : Fin 32) : Finset M.view.ty.Idx :=
  (M.view.slice (rectR k)).set

theorem chunk_eq (M : Memref sig .tc sp S2048x512 e) (c : Dev nD) (k : Fin 32) :
    chunk M c k = (rectOwn c k).set.map M.view.emb := View.set_slice _ _

theorem chunkR_eq (M : Memref sig .tc sp S1024x512 e) (k : Fin 32) :
    chunkR M k = (rectR k).set.map M.view.emb := View.set_slice _ _

/-- Chunks of a 2048-row memref are disjoint when their rectangles are. -/
theorem chunk_disjoint (M : Memref sig .tc sp S2048x512 e) (c c' : Dev nD) (k k' : Fin 32)
    (h : c.val / 2 ≠ c'.val / 2 ∨ k ≠ k') : Disjoint (chunk M c k) (chunk M c' k') := by
  rw [chunk_eq, chunk_eq]
  exact (Finset.disjoint_map _).mpr (rectOwn_disjoint c c' k k' h)

theorem chunkR_disjoint (M : Memref sig .tc sp S1024x512 e) (k k' : Fin 32) (h : k ≠ k') :
    Disjoint (chunkR M k) (chunkR M k') := by
  rw [chunkR_eq, chunkR_eq]
  exact (Finset.disjoint_map _).mpr (rectR_disjoint k k' h)

/-- The elements of a 2048-row memref are those of the 32 chunks of c's half and those of the 32 chunks of the other. -/
theorem set_eq_rows2048 (M : Memref sig .tc sp S2048x512 e) (c : Dev nD) :
    M.view.set = (Finset.univ.biUnion fun k : Fin 32 => chunk M c k)
      ∪ (Finset.univ.biUnion fun k : Fin 32 => chunk M (xp c) k) := by
  ext j
  constructor
  · intro hj
    rw [View.set, Finset.mem_map] at hj
    obtain ⟨i, -, rfl⟩ := hj
    rcases rectOwn_cover c i with ⟨k, hk⟩ | ⟨k, hk⟩
    · exact Finset.mem_union_left _ (Finset.mem_biUnion.mpr ⟨k, Finset.mem_univ _, by
        rw [chunk_eq]; exact Finset.mem_map_of_mem _ hk⟩)
    · exact Finset.mem_union_right _ (Finset.mem_biUnion.mpr ⟨k, Finset.mem_univ _, by
        rw [chunk_eq]; exact Finset.mem_map_of_mem _ hk⟩)
  · intro hj
    rcases Finset.mem_union.mp hj with hj | hj
    · obtain ⟨k, -, hj⟩ := Finset.mem_biUnion.mp hj
      exact View.set_slice_subset _ _ hj
    · obtain ⟨k, -, hj⟩ := Finset.mem_biUnion.mp hj
      exact View.set_slice_subset _ _ hj

/-- The elements of a 1024-row memref are those of its 32 chunks. -/
theorem set_eq_rows1024 (M : Memref sig .tc sp S1024x512 e) :
    M.view.set = Finset.univ.biUnion fun k : Fin 32 => chunkR M k := by
  ext j
  constructor
  · intro hj
    rw [View.set, Finset.mem_map] at hj
    obtain ⟨i, -, rfl⟩ := hj
    obtain ⟨k, hk⟩ := rectR_cover i
    exact Finset.mem_biUnion.mpr ⟨k, Finset.mem_univ _, by
      rw [chunkR_eq]; exact Finset.mem_map_of_mem _ hk⟩
  · intro hj
    obtain ⟨k, -, hj⟩ := Finset.mem_biUnion.mp hj
    exact View.set_slice_subset _ _ hj

/-- A 2048-row memref's points-to, at any share, is its 64 chunks' points-tos: the 32 of c's half and the 32 of the
    other half. -/
theorem rows2048 (M : Memref sig .tc sp S2048x512 e) (d c : Dev nD) (q : PosShare TreeShare)
    (f : Buf (Elt F) (M.view.loc (d : Thread nD τ))) :
    (M.view.loc (d : Thread nD τ) ↦[M.view.set]{q} f : sProp 𝕄) =
      iprop((bigSep Finset.univ fun k : Fin 32 => M.view.loc (d : Thread nD τ) ↦[chunk M c k]{q} f)
        ∗ (bigSep Finset.univ fun k : Fin 32 => M.view.loc (d : Thread nD τ) ↦[chunk M (xp c) k]{q} f)) := by
  have hd : Disjoint (Finset.univ.biUnion fun k : Fin 32 => chunk M c k)
      (Finset.univ.biUnion fun k : Fin 32 => chunk M (xp c) k) := by
    rw [Finset.disjoint_biUnion_left]; intro k _
    rw [Finset.disjoint_biUnion_right]; intro k' _
    exact chunk_disjoint M c (xp c) k k' (Or.inl (by rw [xp_half]; have := half_lt c; omega))
  have hu : (M.view.loc (d : Thread nD τ) ↦[(Finset.univ.biUnion fun k : Fin 32 => chunk M c k)
        ∪ (Finset.univ.biUnion fun k : Fin 32 => chunk M (xp c) k)]{q} f : sProp 𝕄)
      ⊣⊢ iprop((M.view.loc (d : Thread nD τ) ↦[Finset.univ.biUnion fun k : Fin 32 => chunk M c k]{q} f)
        ∗ M.view.loc (d : Thread nD τ) ↦[Finset.univ.biUnion fun k : Fin 32 => chunk M (xp c) k]{q} f) :=
    pointsTo_union hd
  rw [set_eq_rows2048 M c, BI.equiv_iff.mp ⟨hu.1, hu.2⟩,
    pointsTo_biUnion _ _ (fun k _ k' _ hk => chunk_disjoint M c c k k' (Or.inr hk)),
    pointsTo_biUnion _ _ (fun k _ k' _ hk => chunk_disjoint M (xp c) (xp c) k k' (Or.inr hk))]

/-- A 1024-row memref's points-to, at any share, is its 32 chunks' points-tos. -/
theorem rows1024 (M : Memref sig .tc sp S1024x512 e) (d : Dev nD) (q : PosShare TreeShare)
    (f : Buf (Elt F) (M.view.loc (d : Thread nD τ))) :
    (M.view.loc (d : Thread nD τ) ↦[M.view.set]{q} f : sProp 𝕄) =
      bigSep Finset.univ fun k : Fin 32 => M.view.loc (d : Thread nD τ) ↦[chunkR M k]{q} f := by
  rw [set_eq_rows1024 M]
  exact pointsTo_biUnion _ _ fun k _ k' _ hk => chunkR_disjoint M k k' hk

end Rows

/-! ## What a load and a store of a chunk touch -/

section Access

variable {sp : Space} {e : EltTy}

/-- A load of chunk (c, k) through the second offset chain reads exactly the chunk's elements, -/
theorem setOn_rectOwn'_eq (M : Memref sig .tc sp S2048x512 e) (c : Dev nD) (k : Fin 32) :
    M.view.setOn (rectOwn' c k).toLoadRect.set = chunk M c k := by
  have h : M.view.setOn (rectOwn' c k).toLoadRect.set = (rectOwn' c k).set.map M.view.emb := rfl
  rw [h, rectOwn'_set, chunk_eq]

/-- an unmasked store of it writes exactly those, -/
theorem access_rectOwn'_eq (M : Memref sig .tc sp S2048x512 e) (c : Dev nD) (k : Fin 32) :
    (M.access (rectOwn' c k)).setOn Finset.univ = chunk M c k := by
  rw [View.setOn_univ, View.set_slice, rectOwn'_set, chunk_eq]

/-- and a load of chunk k of a 1024-row memref reads exactly that chunk's. -/
theorem setOn_rectR_eq (M : Memref sig .tc sp S1024x512 e) (k : Fin 32) :
    M.view.setOn (rectR k).toLoadRect.set = chunkR M k := by
  have h : M.view.setOn (rectR k).toLoadRect.set = (rectR k).set.map M.view.emb := rfl
  rw [h, chunkR_eq]

end Access

/-! ## The three buffers -/

/-- A chunk's slice of each buffer has the rectangle's elements, placed by the whole buffer's embedding. -/
theorem xSl_set (c : Dev nD) (k : Fin 32) : (xSl c k).view.set = (rectOwn c k).set.map xM.view.emb := View.set_slice _ _
theorem oSl_set (c : Dev nD) (k : Fin 32) : (oSl c k).view.set = (rectOwn c k).set.map oM.view.emb := View.set_slice _ _
theorem rSl_set (k : Fin 32) : (rSl k).view.set = (rectR k).set.map rM.view.emb := View.set_slice _ _

/-- The output staging buffer is the 32 chunks of c's half and the 32 chunks of its x-peer's half. -/
theorem out_chunks (d c : Dev nD) (f : Buf (Elt F) (oM.view.loc (d : Thread nD τ))) :
    ((oM.view.loc (d : Thread nD τ)) ↦[oM.view.set]{fullShare} f : sProp 𝕄) ⊣⊢
      iprop((bigSep Finset.univ fun k : Fin 32 =>
            ((oSl c k).view.loc (d : Thread nD τ)) ↦[(oSl c k).view.set]{fullShare} f)
        ∗ (bigSep Finset.univ fun k : Fin 32 =>
            ((oSl (xp c) k).view.loc (d : Thread nD τ)) ↦[(oSl (xp c) k).view.set]{fullShare} f)) :=
  BIBase.BiEntails.of_eq (rows2048 oM d c fullShare f)

/-- The same as an equation, at any share. -/
theorem out_chunks_eq (d c : Dev nD) (q : PosShare TreeShare) (f : Buf (Elt F) (oM.view.loc (d : Thread nD τ))) :
    ((oM.view.loc (d : Thread nD τ)) ↦[oM.view.set]{q} f : sProp 𝕄) =
      iprop((bigSep Finset.univ fun k : Fin 32 =>
            ((oSl c k).view.loc (d : Thread nD τ)) ↦[(oSl c k).view.set]{q} f)
        ∗ (bigSep Finset.univ fun k : Fin 32 =>
            ((oSl (xp c) k).view.loc (d : Thread nD τ)) ↦[(oSl (xp c) k).view.set]{q} f)) :=
  rows2048 oM d c q f

/-- The landing buffer, at any share, is its 32 chunks. -/
theorem land_chunks (d : Dev nD) (q : PosShare TreeShare) (f : Buf (Elt F) (rM.view.loc (d : Thread nD τ))) :
    ((rM.view.loc (d : Thread nD τ)) ↦[rM.view.set]{q} f : sProp 𝕄) ⊣⊢
      bigSep Finset.univ fun k : Fin 32 => ((rSl k).view.loc (d : Thread nD τ)) ↦[(rSl k).view.set]{q} f :=
  BIBase.BiEntails.of_eq (rows1024 rM d q f)

theorem land_chunks_eq (d : Dev nD) (q : PosShare TreeShare) (f : Buf (Elt F) (rM.view.loc (d : Thread nD τ))) :
    ((rM.view.loc (d : Thread nD τ)) ↦[rM.view.set]{q} f : sProp 𝕄) =
      bigSep Finset.univ fun k : Fin 32 => ((rSl k).view.loc (d : Thread nD τ)) ↦[(rSl k).view.set]{q} f :=
  rows1024 rM d q f

/-- The input block, at any share, is the 32 chunks of c's half and the 32 chunks of its x-peer's half. -/
theorem in_chunks (d c : Dev nD) (q : PosShare TreeShare) (f : Buf (Elt F) (xM.view.loc (d : Thread nD τ))) :
    ((xM.view.loc (d : Thread nD τ)) ↦[xM.view.set]{q} f : sProp 𝕄) ⊣⊢
      iprop((bigSep Finset.univ fun k : Fin 32 =>
            ((xSl c k).view.loc (d : Thread nD τ)) ↦[(xSl c k).view.set]{q} f)
        ∗ (bigSep Finset.univ fun k : Fin 32 =>
            ((xSl (xp c) k).view.loc (d : Thread nD τ)) ↦[(xSl (xp c) k).view.set]{q} f)) :=
  BIBase.BiEntails.of_eq (rows2048 xM d c q f)

theorem in_chunks_eq (d c : Dev nD) (q : PosShare TreeShare) (f : Buf (Elt F) (xM.view.loc (d : Thread nD τ))) :
    ((xM.view.loc (d : Thread nD τ)) ↦[xM.view.set]{q} f : sProp 𝕄) =
      iprop((bigSep Finset.univ fun k : Fin 32 =>
            ((xSl c k).view.loc (d : Thread nD τ)) ↦[(xSl c k).view.set]{q} f)
        ∗ (bigSep Finset.univ fun k : Fin 32 =>
            ((xSl (xp c) k).view.loc (d : Thread nD τ)) ↦[(xSl (xp c) k).view.set]{q} f)) :=
  rows2048 xM d c q f

/-! ## The inclusions the load and store rules ask for, each an equality -/

theorem x_load_eq (c : Dev nD) (k : Fin 32) :
    xM.view.setOn (rectOwn' c k).toLoadRect.set = (xSl c k).view.set := setOn_rectOwn'_eq xM c k
theorem x_load_sub (c : Dev nD) (k : Fin 32) :
    xM.view.setOn (rectOwn' c k).toLoadRect.set ⊆ (xSl c k).view.set := (x_load_eq c k).subset

theorem o_load_eq (c : Dev nD) (k : Fin 32) :
    oM.view.setOn (rectOwn' c k).toLoadRect.set = (oSl c k).view.set := setOn_rectOwn'_eq oM c k
theorem o_load_sub (c : Dev nD) (k : Fin 32) :
    oM.view.setOn (rectOwn' c k).toLoadRect.set ⊆ (oSl c k).view.set := (o_load_eq c k).subset

theorem r_load_eq (k : Fin 32) :
    rM.view.setOn (rectR k).toLoadRect.set = (rSl k).view.set := setOn_rectR_eq rM k
theorem r_load_sub (k : Fin 32) :
    rM.view.setOn (rectR k).toLoadRect.set ⊆ (rSl k).view.set := (r_load_eq k).subset

theorem o_store_eq (c : Dev nD) (k : Fin 32) :
    (oM.access (rectOwn' c k)).setOn Finset.univ = (oSl c k).view.set := access_rectOwn'_eq oM c k
theorem o_store_sub (c : Dev nD) (k : Fin 32) :
    (oM.access (rectOwn' c k)).setOn Finset.univ ⊆ (oSl c k).view.set := (o_store_eq c k).subset

/-- info: 'Cert.KernelIdeal.AR.out_chunks' depends on axioms: [propext, Classical.choice, Quot.sound] -/
#guard_msgs in #print axioms out_chunks

end Cert.KernelIdeal.AR

end
-- ==== Proof.Entry.lean ====
/- The entry of a device's body — the two signals that hand each peer the part of this device's buffers it will
   write, and the wait for the peers' — and the regroupings between the three phases. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Inv
import proofs.«900143_g7700000000000144_dist_ar_v7x_xy2x2_y_m2048_n512_f32_1_alg».proof.Proof.Geom
import proofs.«900143_g7700000000000144_dist_ar_v7x_xy2x2_y_m2048_n512_f32_1_alg».proof.Proof.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the second and third phases and the end need beside the first phase's invariant. -/
def Rest1 (c : Dev nD) : sProp 𝕄 :=
  iprop((bigSep Finset.univ fun k : Fin 32 => iprop(
        cred (tallyAt (yrCell c k) () NC) ∗ atPos ER (yrCell c k) 0 ∅ 0
        ∗ (∃ f, ((oSl c k).view.loc (c : Thread nD τ)) ↦[(oSl c k).view.set]{fullShare} f)
        ∗ (∃ f, ((oSl c k).view.loc ((xp c : Dev nD) : Thread nD τ)) ↦[(oSl c k).view.set]{fullShare} f)
        ∗ dutyTok ER (xsCell c k) 0 false ∗ dutyTok ER (xrCell (xp c) k) 0 false))
    ∗ (bigSep Finset.univ fun k : Fin 32 => iprop(
        cred (tallyAt (xrCell c k) () NC) ∗ atPos ER (xrCell c k) 0 ∅ 0 ∗ atPos ER (ysCell c k) 0 ∅ 0 ∗ atPos ER (xsCell c k) 0 ∅ 0))
    ∗ (bigSep Finset.univ fun k : Fin 32 =>
        ((xSl (xp c) k).view.loc (c : Thread nD τ)) ↦[(xSl (xp c) k).view.set]{fullShare} xstg m ρ c))

/-- After the entry: the records, the levels, the first phase's invariant at chunk 0, and the rest. -/
def Mid (c : Dev nD) : sProp 𝕄 :=
  iprop(∃ K, records m ρ K ∗ levAts L lv ∗ (∃ W, I1 m ρ c W 0) ∗ Rest1 m ρ c)

theorem ex_chunk {ℓ : Loc nD τ sig} (S : Finset (Idx ℓ)) (f : Buf (Elt F) ℓ) :
    (ℓ ↦[S]{fullShare} f : sProp 𝕄) ⊢ iprop(∃ f, ℓ ↦[S]{fullShare} f) := by
  iintro H; iexists f; iexact H

theorem ex_chunks {ℓ : Loc nD τ sig} (S : Fin 32 → Finset (Idx ℓ)) (f : Buf (Elt F) ℓ) :
    (bigSep Finset.univ fun k : Fin 32 => (ℓ ↦[S k]{fullShare} f : sProp 𝕄))
      ⊢ bigSep Finset.univ fun k : Fin 32 => iprop(∃ f, ℓ ↦[S k]{fullShare} f) :=
  bigSep_mono fun k _ => ex_chunk _ f

theorem fetch_0 (t : Fin cfg0.N) : (cfg0.win (0 : Fin 2)).fetch t = true := by rw [fin_N t]; rfl

theorem entry (c n1 n2 : Dev nD) (hn1 : n1 = yp c) (hn2 : n2 = xp c)
    {α : Type} {Q : α → sProp 𝕄} {kk : PUnit → Prog (TpuEff nD τ sig (Elt F) Λ₀ .tc) α} :
    bodyPre m ρ c
      ⊢ iprop((Mid m ρ c -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal ((n1 : Dev nD) : Thread nD τ) barS (1#32).toNat) fun _ =>
               .op (.semSignal ((n2 : Dev nD) : Thread nD τ) barS (1#32).toNat) fun _ =>
               .op (.semWait barS (2#32).toNat) kk) Q) := by
  subst hn1; subst hn2
  unfold bodyPre Φ₀ start ghost linear positions payToks credits
  iintro ⟨⟨⟨⟨%K, #Hrec, ⟨HatB, Hat⟩, ⟨HtBy, HtBx, Htoks⟩⟩, ⟨HcB, Hcr⟩, #Hlev⟩, ⟨%f0, Hscr⟩⟩, Ho, ⟨%d0, %g0, %hg0, Hx⟩, ⟨%d1, %g1, %hg1, Hout⟩⟩ Hk
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- this device's landing buffer, chunk by chunk, for the y-peer
  ihave Hscr' := (Entails.of_eq (show scrPts c f0 = ((rM.view.loc (c : Thread nD τ)) ↦[rM.view.set]{fullShare} f0 : sProp 𝕄) from by
    unfold scrPts; rw [View.set_whole])) $$ Hscr
  ihave Hland := (land_chunks c fullShare f0).1 $$ Hscr'
  ihave Hland' := (ex_chunks (F := F) (ℓ := rM.view.loc (c : Thread nD τ)) (fun k => (rSl k).view.set) f0) $$ Hland
  -- this device's output buffer: its own half, and the other half for the x-peer
  ihave Hout' := (Entails.of_eq (show ((((c : Thread nD τ).loc cc0_stg1_0) ↦{fullShare} g1 : sProp 𝕄))
      = ((oM.view.loc (c : Thread nD τ)) ↦[oM.view.set]{fullShare} g1 : sProp 𝕄) from by rw [View.set_whole])) $$ Hout
  ihave Hoc := (out_chunks c c g1).1 $$ Hout'
  icases Hoc with ⟨Hown, Hoth⟩
  ihave Hoth' := (ex_chunks (F := F) (ℓ := oM.view.loc (c : Thread nD τ)) (fun k => (oSl (xp c) k).view.set) g1) $$ Hoth
  ihave Hown' := (ex_chunks (F := F) (ℓ := oM.view.loc (c : Thread nD τ)) (fun k => (oSl c k).view.set) g1) $$ Hown
  -- the input buffer: its own half, and the other
  ihave Hx' := (Entails.of_eq (show ((((c : Thread nD τ).loc cc0_stg0_0) ↦{fullShare} xstg m ρ c : sProp 𝕄))
      = ((xM.view.loc (c : Thread nD τ)) ↦[xM.view.set]{fullShare} xstg m ρ c : sProp 𝕄) from by rw [View.set_whole])) $$ Hx
  ihave Hxc := (in_chunks c c fullShare (xstg m ρ c)).1 $$ Hx'
  icases Hxc with ⟨Hxown, Hxoth⟩
  ihave #HiBy := ((rec_inv m ρ K (yp c, none))) $$ Hrec
  ihave #HiBx := ((rec_inv m ρ K (xp c, none))) $$ Hrec
  ihave #HiB := ((rec_inv m ρ K (c, none))) $$ Hrec
  ihave #HrBy := ((rec_reached m ρ K (yp c, none))) $$ Hrec
  ihave #HrBx := ((rec_reached m ρ K (xp c, none))) $$ Hrec
  -- the first signal: to the y-peer, with this device's landing buffer
  unfold O₀
  iapply (Rounds.wp_signal 𝒱₀ ER (sched m ρ) (c : Thread nD τ) none (dst := (yp c : Thread nD τ)) (κ := K (yp c, none))
      (d := false) (by rw [duties_bar]; exact Finset.mem_univ _) ((amount_bar m ρ (yp c) false).trans (by decide)) () (O₁ c) rfl)
    $$ [HO HtBy Hland']
  · isplitr; · iexact HiBy
    isplitl [HO]; · iexact HO
    isplitl [HtBy]; · iexact HtBy
    isplitl [Hland']
    · rw [payload_bar_false]; unfold barPayY; rw [yp_yp]; iexact Hland'
    · iexact HrBy
  iintro HO
  -- the second: to the x-peer, with the other half of this device's output buffer
  unfold O₁
  iapply (Rounds.wp_signal 𝒱₀ ER (sched m ρ) (c : Thread nD τ) none (dst := (xp c : Thread nD τ)) (κ := K (xp c, none))
      (d := true) (by rw [duties_bar]; exact Finset.mem_univ _) ((amount_bar m ρ (xp c) true).trans (by decide)) () (O₂ c) rfl)
    $$ [HO HtBx Hoth']
  · isplitr; · iexact HiBx
    isplitl [HO]; · iexact HO
    isplitl [HtBx]; · iexact HtBx
    isplitl [Hoth']
    · rw [payload_bar_true]; unfold barPayX; rw [xp_xp]; iexact Hoth'
    · iexact HrBx
  iintro HO
  -- the wait for both peers' signals
  iapply (Rounds.wp_wait_rest_token 𝒱₀ ER (sched m ρ) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HiB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPayY barPayX
  icases Hp with ⟨HpY, HpX⟩
  iapply Hk
  unfold Mid I1 Rest1
  iexists K
  isplitr; · iexact Hrec
  isplitr; · iexact Hlev
  -- regroup the per-chunk families
  rw [GE_zero, LT_zero, bigSep_empty]
  simp only [bigSep_sep']
  icases Htoks with ⟨Htys, Htyr, Htxs, Htxr⟩
  icases Hat with ⟨Hays, Hayr, Haxs, Haxr⟩
  icases Hcr with ⟨Hcyr, Hcxr⟩
  isplitl [HO Hxown HpY Htys Htyr]
  · iexists (insert (SemLoc.reg barS, ()) W)
    isplitl [HO]; · unfold O₂; iexact HO
    isplitl [Hxown HpY Htys Htyr]
    · isplitl [Hxown]; · iexact Hxown
      isplitl [HpY]; · iexact HpY
      isplitl [Htys]; · iexact Htys
      iexact Htyr
    · iempintro
  isplitl [Hcyr Hayr Hown' HpX Htxs Htxr]
  · isplitl [Hcyr]; · iexact Hcyr
    isplitl [Hayr]; · iexact Hayr
    isplitl [Hown']; · iexact Hown'
    isplitl [HpX]; · iexact HpX
    isplitl [Htxs]; · iexact Htxs
    iexact Htxr
  isplitl [Hcxr Haxr Hays Haxs]
  · isplitl [Hcxr]; · iexact Hcxr
    isplitl [Haxr]; · iexact Haxr
    isplitl [Hays]; · iexact Hays
    iexact Haxs
  iexact Hxoth

end Cert.KernelIdeal.AR

end
-- ==== Proof.Trans.lean ====
/- Between the phases of a device's body: what one phase leaves, regrouped as the next one's invariant. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Entry
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Beside the second phase's invariant: the y-send credits, what the third phase's waits need, the other half of the input. -/
def Rest2 (c : Dev nD) : sProp 𝕄 :=
  iprop((bigSep Finset.univ fun k : Fin 32 => cred (tallyAt (ysCell c k) () NC))
    ∗ (bigSep Finset.univ fun k : Fin 32 => iprop(
        cred (tallyAt (xrCell c k) () NC) ∗ atPos ER (xrCell c k) 0 ∅ 0 ∗ atPos ER (ysCell c k) 0 ∅ 0 ∗ atPos ER (xsCell c k) 0 ∅ 0))
    ∗ (bigSep Finset.univ fun k : Fin 32 =>
        ((xSl (xp c) k).view.loc (c : Thread nD τ)) ↦[(xSl (xp c) k).view.set]{fullShare} xstg m ρ c))

/-- Beside the third phase's invariant: the landing chunks with their cells closed, both parts of the input. -/
def Rest3 (c : Dev nD) : sProp 𝕄 :=
  iprop((bigSep Finset.univ fun k : Fin 32 => iprop(yrPay m ρ c k ∗ semVal (yrCell c k) 0))
    ∗ (bigSep Finset.univ fun k : Fin 32 =>
        ((xSl c k).view.loc (c : Thread nD τ)) ↦[(xSl c k).view.set]{fullShare.right} xstg m ρ c)
    ∗ (bigSep Finset.univ fun k : Fin 32 =>
        ((xSl (xp c) k).view.loc (c : Thread nD τ)) ↦[(xSl (xp c) k).view.set]{fullShare} xstg m ρ c))

theorem to_phase2 (c : Dev nD) (W : Waits sig Unit) : iprop(I1 m ρ c W 32 ∗ Rest1 m ρ c) ⊢ iprop(I2 m ρ c 0 ∗ Rest2 m ρ c) := by
  unfold I1 I2 Rest1 Rest2
  rw [GE_top, LT_top, GE_zero, LT_zero, bigSep_empty, bigSep_empty, owedY_done, add_zero]
  simp only [bigSep_sep']
  iintro ⟨⟨HO, -, Hxr, Hcys⟩, H2, H3, Hxo⟩
  isplitl [HO H2 Hxr]
  · isplitl [HO]; · iexists W; iexact HO
    isplitl [H2]; · iexact H2
    isplitr; · iempintro
    iexact Hxr
  isplitl [Hcys]; · iexact Hcys
  isplitl [H3]; · iexact H3
  iexact Hxo

theorem to_phase3 (c : Dev nD) : iprop(I2 m ρ c 32 ∗ Rest2 m ρ c) ⊢ iprop(I3 m ρ c 0 ∗ Rest3 m ρ c) := by
  unfold I2 I3 Rest2 Rest3
  rw [GE_top, LT_top, GE_zero, LT_zero, bigSep_empty, bigSep_empty, owedX_done]
  simp only [bigSep_sep']
  iintro ⟨⟨HO, -, ⟨Hyp, Hsv, Hcxs⟩, Hxr⟩, Hcys, ⟨Hcxr, Haxr, Hays, Haxs⟩, Hxo⟩
  isplitl [HO Hcxr Haxr Hcys Hays Hcxs Haxs]
  · isplitl [HO]; · iexact HO
    isplitl [Hcxr Haxr Hcys Hays Hcxs Haxs]
    · isplitl [Hcxr]; · iexact Hcxr
      isplitl [Haxr]; · iexact Haxr
      isplitl [Hcys]; · iexact Hcys
      isplitl [Hays]; · iexact Hays
      isplitl [Hcxs]; · iexact Hcxs
      iexact Haxs
    · iempintro
  isplitl [Hyp Hsv]
  · isplitl [Hyp]; · iexact Hyp
    iexact Hsv
  isplitl [Hxr]; · iexact Hxr
  iexact Hxo

end Cert.KernelIdeal.AR

end
-- ==== Proof.Phase2.lean ====
/- The second phase of a device's body, one chunk at a time: the y-peer's chunk a has landed; the device adds it to
   its own chunk a, stores the sum into its output, and sends that output chunk to the x-peer. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Data
import proofs.«900143_g7700000000000144_dist_ar_v7x_xy2x2_y_m2048_n512_f32_1_alg».proof.Proof.Phase1
import proofs.«900143_g7700000000000144_dist_ar_v7x_xy2x2_y_m2048_n512_f32_1_alg».proof.Proof.Inv
import proofs.«900143_g7700000000000144_dist_ar_v7x_xy2x2_y_m2048_n512_f32_1_alg».proof.Proof.Vals
import proofs.«900143_g7700000000000144_dist_ar_v7x_xy2x2_y_m2048_n512_f32_1_alg».proof.Proof.Geom
import proofs.«900143_g7700000000000144_dist_ar_v7x_xy2x2_y_m2048_n512_f32_1_alg».proof.Proof.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit of a chunk, whichever buffer it lies in -/

/-- Every chunk's transfer credits the same amount: a landing chunk's, -/
theorem NC_r (k : Fin 32) : (rSl k : Memref sig .tc .vmem S32x512 .f32).view.dmaCredit = NC := rfl
/-- and an output chunk's. -/
theorem NC_o (c : Dev nD) (k : Fin 32) : (oSl c k : Memref sig .tc .vmem S32x512 .f32).view.dmaCredit = NC := rfl

/-- What the x-peer's receive cell for chunk k delivers, spelt over this device's own half. -/
theorem xrPay_peer (c : Dev nD) (k : Fin 32) :
    xrPay m ρ (xp c) k
      = ((((oSl c k).view.loc ((xp c : Dev nD) : Thread nD τ)) ↦[(oSl c k).view.set]{fullShare} outFin m ρ (xp c)) : sProp 𝕄) := by
  have h : ∀ d : Dev nD, d = c →
      ((((oSl d k).view.loc ((xp c : Dev nD) : Thread nD τ)) ↦[(oSl d k).view.set]{fullShare} outFin m ρ (xp c)) : sProp 𝕄)
        = (((oSl c k).view.loc ((xp c : Dev nD) : Thread nD τ)) ↦[(oSl c k).view.set]{fullShare} outFin m ρ (xp c)) := by
    rintro d rfl; rfl
  exact h (xp (xp c)) (xp_xp c)

/-! ## Phase 2 -/

/-- Iteration a of the second phase: wait for the y-peer's chunk a, read the input and the landing chunk, store
    their sum into the output chunk, and send that chunk to the x-peer. -/
theorem x_step (K : Dev nD × Option (Fin 4 × Fin 32) → ℕ) (c n : Dev nD) (hn : n = xp c) (a : Fin 32)
    {hs1 : (xSl c a : Memref sig .tc .vmem S32x512 .f32).view.WordExact} {hd1 : (rSl a : Memref sig .tc .vmem S32x512 .f32).view.WordExact}
    {hl1 : (xM : Memref sig .tc .vmem S2048x512 .f32).view.LoadsAt (rectOwn' c a).toLoadRect}
    {hl2 : (rM : Memref sig .tc .vmem S1024x512 .f32).view.LoadsAt (rectR a).toLoadRect}
    {hl3 : (oM : Memref sig .tc .vmem S2048x512 .f32).view.LoadsAt (rectOwn' c a).toLoadRect}
    {hx : ((oM : Memref sig .tc .vmem S2048x512 .f32).access (rectOwn' c a)).Stores Finset.univ}
    {hm : (Finset.univ : Finset (rectOwn' c a).shape.Idx) = Finset.univ ∨ ∀ b, (rectOwn' c a).stride b = 1}
    {hsc : (oSl c a : Memref sig (Dev.tc n : Thread nD τ).2.kind .vmem S32x512 .f32).view.ref.isScScratch = false}
    {hsrc : (oSl c a : Memref sig .tc .vmem S32x512 .f32).view.WordExact} {hdst : (oSl c a : Memref sig .tc .vmem S32x512 .f32).view.WordExact}
    {hsem : DmaTarget.Typed .vmem (.dma (xrS a)) (.remote (Dev.tc n : Thread nD τ) (oSl c a : Memref sig .tc .vmem S32x512 .f32) (.dma (xsS a)) hsc)}
    {pay : Vec F S32x512 .f32 → Vec F S32x512 .f32 → FVec F S32x512 .f32}
    (hpay : ∀ vx vr, pay vx vr = addf (shapeCast S32x512 vx shapeCasts_S32x512_S32x512) vr)
    {α : Type} {Q : α → sProp 𝕄} {kk : PUnit → Prog (TpuEff nD τ sig (Elt F) Λ₀ .tc) α} :
    iprop(records m ρ K ∗ levAts L lv ∗ I2 m ρ c a.val)
      ⊢ iprop((I2 m ρ c (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (yrS a) (xSl c a) (rSl a) hs1 hd1) fun _ =>
               .op (.load xM (rectOwn' c a).toLoadRect hl1) fun vx =>
               .op (.load rM (rectR a).toLoadRect hl2) fun vr =>
               .op (.load oM (rectOwn' c a).toLoadRect hl3) fun _ =>
               .op (.store oM (rectOwn' c a) (pay vx vr) Finset.univ hx hm) fun _ =>
               .op (.enqueueDma (oSl c a) (.remote (Dev.tc n : Thread nD τ) (oSl c a) (.dma (xsS a)) hsc) (.dma (xrS a)) hsrc hdst hsem) kk) Q) := by
  subst hn
  unfold I2
  rw [GE_peel a, LT_push a,
    bigSep_univ_at (fun k : Fin 32 => (((xSl c k).view.loc (c : Thread nD τ)) ↦[(xSl c k).view.set]{fullShare.right} xstg m ρ c : sProp 𝕄)) a]
  iintro ⟨#Hrec, #Hlev, ⟨%W, HO⟩, ⟨⟨Hcr, Hat, ⟨%fo, Ho⟩, ⟨%fp, Hp⟩, Hts, Htr⟩, Hge⟩, Hlt, ⟨Hxa, Hxs⟩⟩ Hk
  ihave #Hiyr := ((rec_inv m ρ K (c, some (1, a))).trans (Entails.of_eq (by rw [kcell_yr]))) $$ Hrec
  ihave #Hixs := ((rec_inv m ρ K (c, some (2, a))).trans (Entails.of_eq (by rw [kcell_xs]))) $$ Hrec
  ihave #Hixr := ((rec_inv m ρ K (xp c, some (3, a))).trans (Entails.of_eq (by rw [kcell_xr]))) $$ Hrec
  ihave #Hrxs := ((rec_reached m ρ K (c, some (2, a))).trans (Entails.of_eq (by rw [kcell_xs]))) $$ Hrec
  ihave #Hrxr := ((rec_reached m ρ K (xp c, some (3, a))).trans (Entails.of_eq (by rw [kcell_xr]))) $$ Hrec
  -- the wait for the y-peer's chunk a: the landing chunk comes with it, holding the y-peer's rows; the cell closes
  iapply (Rounds.wp_wait_rest_token 𝒱₀ ER (sched m ρ) (c : Thread nD τ) none (κ := K (c, some (1, a)))
      (wpE_waitDma2_eq 𝒱₀ (c : Thread nD τ) none Set.univ) (Set.mem_univ _) () (O := owedX c a.val) (W := W) (R := 0) (m := 0) (T := ∅)
      (((Nat.zero_add _).trans (NC_r a)).trans (expect_yr m ρ c a).symm)) $$ [Hcr HO Hat]
  · isplitr; · iexact Hiyr
    isplitl [Hcr]; · iexact Hcr
    isplitl [HO]; · iexact HO
    isplitr; · iapply (mayWait_yr (F := F) c a a.val); iexact Hlev
    iexact Hat
  iintro ⟨HO, Hat, -, Hpay⟩
  ihave Hyr := (Entails.of_eq (rest_yr m ρ c a)) $$ Hpay
  imod (Rounds.cell_close ER (sched m ρ) (Set.mem_univ (K (c, some (1, a)))) (fun h => h) (R := 0 + 1) (duties_later m ρ (yrCell c a))) $$ [Hat] with Hz
  · isplitr; · iexact Hiyr
    iexact Hat
  unfold yrPay
  -- the loads of the input chunk, the landing chunk and the output chunk
  iapply (wp_load 𝒱₀ (c : Thread nD τ) none Set.univ (m := xM) (x_load_sub c a)) $$ Hxa; iintro Hxa
  iapply (wp_load 𝒱₀ (c : Thread nD τ) none Set.univ (m := rM) (r_load_sub a)) $$ Hyr; iintro Hyr
  iapply (wp_load 𝒱₀ (c : Thread nD τ) none Set.univ (m := oM) (o_load_sub c a)) $$ Ho; iintro Ho
  -- the store: the output chunk now holds this device's rows plus the y-peer's
  iapply (wp_store 𝒱₀ (c : Thread nD τ) none Set.univ (m := oM) (r := rectOwn' c a) (Mk := Finset.univ) (o_store_sub c a)) $$ Ho
  rw [hpay, V3 m ρ c a fo]
  iintro Ho
  -- the transfer of the output chunk to the x-peer, where it is the other half's final contents
  iapply (Rounds.wp_send_pointsTo 𝒱₀ ER (sched m ρ) (c : Thread nD τ) none (κ₁ := K (c, some (2, a))) (κ₂ := K (xp c, some (3, a)))
      (c' := ((xp c : Dev nD) : Thread nD τ)) (src := oSl c a) (dst := oSl c a) (sS := .dma (xsS a)) (sem := .dma (xrS a))
      (r₁ := 0) (r₂ := 0) (d₁ := false) (d₂ := false) (q := fullShare) (fs := outFin m ρ c) (fd := fp)
      (by rw [duties_xs]; exact Finset.mem_singleton_self _) (by rw [duties_xr]; exact Finset.mem_singleton_self _)
      () () NC (NC_o c a) (amount_xs m ρ c a false) (amount_xr m ρ (xp c) a false) (owedX c (a.val + 1)) (owedX_peel c a)
      (W := insert (SemLoc.dma (yrS a), ()) W)
      (by rw [payload_xs]; exact BI.Entails.refl _)
      (by rw [payload_xr, xrPay_peer, V2])) $$ [HO Ho Hp Hts Htr]
  · isplitr; · iexact Hixs
    isplitr; · iexact Hixr
    isplitl [Ho]; · iexact Ho
    isplitl [Hp]; · iexact Hp
    isplitl [HO]; · iexact HO
    isplitl [Hts]; · iexact Hts
    isplitr; · iexact Hrxs
    isplitl [Htr]; · iexact Htr
    iexact Hrxr
  iintro ⟨Hc, HO⟩
  iapply Hk
  isplitl [HO]; · iexists (insert (SemLoc.dma (yrS a), ()) W); iexact HO
  isplitl [Hge]; · iexact Hge
  isplitl [Hyr Hz Hc Hlt]
  · isplitr [Hlt]
    · isplitl [Hyr]; · iexact Hyr
      isplitl [Hz]; · iexact Hz
      iexact Hc
    · iexact Hlt
  isplitl [Hxa]; · iexact Hxa
  iexact Hxs

/-- info: 'Cert.KernelIdeal.AR.x_step' depends on axioms: [propext, Classical.choice, Quot.sound] -/
#guard_msgs in #print axioms x_step

end Cert.KernelIdeal.AR

end
-- ==== Proof.Phase3.lean ====
/- The third phase of a device's body, one chunk at a time: the waits for chunk a's arrival from the x-peer and for the
   completion of both of its own sends; and the end of the body, where the chunks of each buffer are put together. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Inv
import proofs.«900143_g7700000000000144_dist_ar_v7x_xy2x2_y_m2048_n512_f32_1_alg».proof.Proof.Geom
import proofs.«900143_g7700000000000144_dist_ar_v7x_xy2x2_y_m2048_n512_f32_1_alg».proof.Proof.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Phase 3 -/

/-- A wait naming a chunk of either staging buffer consumes one chunk's credit. -/
theorem credit_o (c : Dev nD) (k : Fin 32) : (oSl c k : Memref sig .tc .vmem S32x512 .f32).view.dmaCredit = NC := rfl
theorem credit_x (c : Dev nD) (k : Fin 32) : (xSl c k : Memref sig .tc .vmem S32x512 .f32).view.dmaCredit = NC := rfl

/-- Iteration a of the third phase: three waits, each for the whole round of its cell; each hands over the cell's
    payload and leaves the cell closed at zero. -/
theorem z_step (K : Dev nD × Option (Fin 4 × Fin 32) → ℕ) (c : Dev nD) (a : Fin 32)
    {h1 h2 h5 h6 : (oSl c a : Memref sig .tc .vmem S32x512 .f32).view.WordExact}
    {h3 : (rSl a : Memref sig .tc .vmem S32x512 .f32).view.WordExact}
    {h4 : (xSl c a : Memref sig .tc .vmem S32x512 .f32).view.WordExact}
    {α : Type} {Q : α → sProp 𝕄} {kk : PUnit → Prog (TpuEff nD τ sig (Elt F) Λ₀ .tc) α} :
    iprop(records m ρ K ∗ I3 m ρ c a.val)
      ⊢ iprop((I3 m ρ c (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (xrS a) (oSl c a) (oSl c a) h1 h2) fun _ =>
               .op (.waitDma2 (ysS a) (rSl a) (xSl c a) h3 h4) fun _ =>
               .op (.waitDma2 (xsS a) (oSl c a) (oSl c a) h5 h6) kk) Q) := by
  unfold I3
  rw [GE_peel a, LT_push a]
  iintro ⟨#Hrec, ⟨%W, HO⟩, ⟨⟨Hc1, Hat1, Hc2, Hat2, Hc3, Hat3⟩, Hge⟩, Hlt⟩ Hk
  ihave #Hi1 := ((rec_inv m ρ K (c, some (3, a))).trans (Entails.of_eq (by rw [kcell_xr]))) $$ Hrec
  ihave #Hi2 := ((rec_inv m ρ K (c, some (0, a))).trans (Entails.of_eq (by rw [kcell_ys]))) $$ Hrec
  ihave #Hi3 := ((rec_inv m ρ K (c, some (2, a))).trans (Entails.of_eq (by rw [kcell_xs]))) $$ Hrec
  -- the chunk of the other half, landed from the x-peer
  iapply (Rounds.wp_wait_rest_token 𝒱₀ ER (sched m ρ) (c : Thread nD τ) none (κ := K (c, some (3, a)))
      (wpE_waitDma2_eq 𝒱₀ (c : Thread nD τ) none Set.univ) (Set.mem_univ _) () (O := 0) (W := W) (R := 0) (m := 0) (T := ∅)
      (by rw [Nat.zero_add, expect_xr, credit_o])) $$ [Hc1 HO Hat1]
  · isplitr; · iexact Hi1
    isplitl [Hc1]; · iexact Hc1
    isplitl [HO]; · iexact HO
    isplitr; · rw [MayWait_zero]; iempintro
    iexact Hat1
  iintro ⟨HO, Hat1, -, Hp1⟩
  ihave Hp1 := (Entails.of_eq (rest_xr m ρ c a)) $$ Hp1
  -- the half share of the input chunk lent to the y-transfer
  iapply (Rounds.wp_wait_rest_token 𝒱₀ ER (sched m ρ) (c : Thread nD τ) none (κ := K (c, some (0, a)))
      (wpE_waitDma2_eq 𝒱₀ (c : Thread nD τ) none Set.univ) (Set.mem_univ _) () (O := 0)
      (W := insert (SemLoc.dma (xrS a), ()) W) (R := 0) (m := 0) (T := ∅)
      (by rw [Nat.zero_add, expect_ys, credit_x])) $$ [Hc2 HO Hat2]
  · isplitr; · iexact Hi2
    isplitl [Hc2]; · iexact Hc2
    isplitl [HO]; · iexact HO
    isplitr; · rw [MayWait_zero]; iempintro
    iexact Hat2
  iintro ⟨HO, Hat2, -, Hp2⟩
  ihave Hp2 := (Entails.of_eq (rest_ys m ρ c a)) $$ Hp2
  -- the output chunk lent to the x-transfer
  iapply (Rounds.wp_wait_rest_token 𝒱₀ ER (sched m ρ) (c : Thread nD τ) none (κ := K (c, some (2, a)))
      (wpE_waitDma2_eq 𝒱₀ (c : Thread nD τ) none Set.univ) (Set.mem_univ _) () (O := 0)
      (W := insert (SemLoc.dma (ysS a), ()) (insert (SemLoc.dma (xrS a), ()) W)) (R := 0) (m := 0) (T := ∅)
      (by rw [Nat.zero_add, expect_xs, credit_o])) $$ [Hc3 HO Hat3]
  · isplitr; · iexact Hi3
    isplitl [Hc3]; · iexact Hc3
    isplitl [HO]; · iexact HO
    isplitr; · rw [MayWait_zero]; iempintro
    iexact Hat3
  iintro ⟨HO, Hat3, -, Hp3⟩
  ihave Hp3 := (Entails.of_eq (rest_xs m ρ c a)) $$ Hp3
  -- the three cells have no later round: their counters at zero are the device's again
  imod (Rounds.cell_close ER (sched m ρ) (Set.mem_univ (K (c, some (3, a)))) (fun h => h) (R := 0 + 1)
    (duties_later m ρ (xrCell c a))) $$ [Hat1] with Hz1
  · isplitr; · iexact Hi1
    iexact Hat1
  imod (Rounds.cell_close ER (sched m ρ) (Set.mem_univ (K (c, some (0, a)))) (fun h => h) (R := 0 + 1)
    (duties_later m ρ (ysCell c a))) $$ [Hat2] with Hz2
  · isplitr; · iexact Hi2
    iexact Hat2
  imod (Rounds.cell_close ER (sched m ρ) (Set.mem_univ (K (c, some (2, a)))) (fun h => h) (R := 0 + 1)
    (duties_later m ρ (xsCell c a))) $$ [Hat3] with Hz3
  · isplitr; · iexact Hi3
    iexact Hat3
  iapply Hk
  isplitl [HO]; · iexists _; iexact HO
  isplitl [Hge]; · iexact Hge
  isplitr [Hlt]
  · isplitl [Hp1]; · iexact Hp1
    isplitl [Hz1]; · iexact Hz1
    isplitl [Hp2]; · iexact Hp2
    isplitl [Hz2]; · iexact Hz2
    isplitl [Hp3]; · iexact Hp3
    iexact Hz3
  iexact Hlt

/-! ## The end of the body -/

/-- The whole-buffer views name all of their buffers. -/
theorem whole_x (c : Dev nD) (q : PosShare TreeShare) (f : Buf (Elt F) (xM.view.loc (c : Thread nD τ))) :
    ((xM.view.loc (c : Thread nD τ)) ↦[xM.view.set]{q} f : sProp 𝕄) = (((c : Thread nD τ).loc cc0_stg0_0) ↦{q} f) := by
  rw [show xM.view.set = Finset.univ from View.set_whole _]
theorem whole_o (c : Dev nD) (q : PosShare TreeShare) (f : Buf (Elt F) (oM.view.loc (c : Thread nD τ))) :
    ((oM.view.loc (c : Thread nD τ)) ↦[oM.view.set]{q} f : sProp 𝕄) = (((c : Thread nD τ).loc cc0_stg1_0) ↦{q} f) := by
  rw [show oM.view.set = Finset.univ from View.set_whole _]
theorem whole_r (c : Dev nD) (q : PosShare TreeShare) (f : Buf (Elt F) (rM.view.loc (c : Thread nD τ))) :
    ((rM.view.loc (c : Thread nD τ)) ↦[rM.view.set]{q} f : sProp 𝕄) = (((c : Thread nD τ).loc cc0_scratch0) ↦{q} f) := by
  rw [show rM.view.set = Finset.univ from View.set_whole _]

/-- The landed chunks are the landing buffer at the y-peer's rows. -/
theorem scr_join (c : Dev nD) :
    (bigSep Finset.univ fun k : Fin 32 => yrPay m ρ c k : sProp 𝕄) = scrPts c (landed m ρ c) := by
  unfold yrPay scrPts
  rw [← land_chunks_eq c fullShare (landed m ρ c), whole_r]

/-- The input chunks of both halves are the input staging buffer. -/
theorem x_join (c : Dev nD) :
    (iprop((bigSep Finset.univ fun k : Fin 32 =>
          ((xSl c k).view.loc (c : Thread nD τ)) ↦[(xSl c k).view.set]{fullShare} xstg m ρ c)
        ∗ (bigSep Finset.univ fun k : Fin 32 =>
          ((xSl (xp c) k).view.loc (c : Thread nD τ)) ↦[(xSl (xp c) k).view.set]{fullShare} xstg m ρ c)) : sProp 𝕄)
      = (((c : Thread nD τ).loc cc0_stg0_0) ↦{fullShare} xstg m ρ c) := by
  rw [← in_chunks_eq c c fullShare (xstg m ρ c), whole_x]

/-- The returned chunks of the own half and the landed chunks of the other are the output staging buffer. -/
theorem o_join (c : Dev nD) :
    (iprop((bigSep Finset.univ fun k : Fin 32 => xsPay m ρ c k) ∗ (bigSep Finset.univ fun k : Fin 32 => xrPay m ρ c k)) : sProp 𝕄)
      = (((c : Thread nD τ).loc cc0_stg1_0) ↦{fullShare} outFin m ρ c) := by
  unfold xsPay xrPay
  rw [← out_chunks_eq c c fullShare (outFin m ρ c), whole_o]

/-- The two half shares of every own input chunk make the chunk whole. -/
theorem x_halves (c : Dev nD) :
    iprop((bigSep Finset.univ fun k : Fin 32 => ysPay m ρ c k)
        ∗ (bigSep Finset.univ fun k : Fin 32 =>
            ((xSl c k).view.loc (c : Thread nD τ)) ↦[(xSl c k).view.set]{fullShare.right} xstg m ρ c))
      ⊢ (bigSep Finset.univ fun k : Fin 32 =>
            ((xSl c k).view.loc (c : Thread nD τ)) ↦[(xSl c k).view.set]{fullShare} xstg m ρ c : sProp 𝕄) := by
  rw [← bigSep_sep']
  exact bigSep_mono fun k _ => by
    unfold ysPay
    exact (pointsTo_share (PosShare.mem_left_op_right fullShare)).2

/-- The 128 transfer cells of a device, array by array. -/
theorem cells_split (c : Dev nD) :
    (bigSep Finset.univ fun jk : Fin 4 × Fin 32 => (semVal (kcell (c, some jk)) 0 : sProp 𝕄))
      = iprop((bigSep Finset.univ fun k : Fin 32 => semVal (ysCell c k) 0)
          ∗ (bigSep Finset.univ fun k : Fin 32 => semVal (yrCell c k) 0)
          ∗ (bigSep Finset.univ fun k : Fin 32 => semVal (xsCell c k) 0)
          ∗ (bigSep Finset.univ fun k : Fin 32 => semVal (xrCell c k) 0)) := by
  rw [bigSep_univ_prod, bigSep_univ_eq_bigSepL [0, 1, 2, 3] (by decide) (by decide), bigSepL_cons_cons, bigSepL_cons_cons,
    bigSepL_cons_cons, bigSepL_singleton]
  simp only [kcell_ys, kcell_yr, kcell_xs, kcell_xr]
  rfl

/-- After the last iteration of the third phase: the body's post. -/
theorem finish (c : Dev nD) :
    iprop(I3 m ρ c 32
        ∗ (bigSep (LT 32) fun k => iprop(yrPay m ρ c k ∗ semVal (yrCell c k) 0))
        ∗ (bigSep Finset.univ fun k : Fin 32 =>
            ((xSl c k).view.loc (c : Thread nD τ)) ↦[(xSl c k).view.set]{fullShare.right} xstg m ρ c)
        ∗ (bigSep Finset.univ fun k : Fin 32 =>
            ((xSl (xp c) k).view.loc (c : Thread nD τ)) ↦[(xSl (xp c) k).view.set]{fullShare} xstg m ρ c))
      ⊢ bodyPost m ρ c := by
  unfold I3 bodyPost Φ₁
  rw [GE_top, bigSep_empty, LT_top, cells_split]
  simp only [bigSep_sep']
  iintro ⟨⟨⟨%W, HO⟩, -, Hxr, Hzxr, Hys, Hzys, Hxs, Hzxs⟩, ⟨Hyr, Hzyr⟩, HxR, HxO⟩
  isplitl [Hyr Hzys Hzyr Hzxs Hzxr]
  · isplitl [Hyr]
    · iapply (Entails.of_eq (scr_join m ρ c)); iexact Hyr
    isplitl [Hzys]; · iexact Hzys
    isplitl [Hzyr]; · iexact Hzyr
    isplitl [Hzxs]; · iexact Hzxs
    iexact Hzxr
  isplitl [HO]
  · unfold Dat.owesAt Pipeline.owesWithin
    iexists W
    isplitr; · ipureintro; exact fun _ _ => Or.inl trivial
    iexact HO
  isplitl [Hys HxR HxO]
  · iexists (xstg m ρ c)
    isplitr; · ipureintro; rfl
    iapply (Entails.of_eq (x_join m ρ c))
    isplitl [Hys HxR]
    · iapply (x_halves m ρ c)
      isplitl [Hys]; · iexact Hys
      iexact HxR
    iexact HxO
  · iexists (outFin m ρ c)
    isplitr; · ipureintro; rfl
    iapply (Entails.of_eq (o_join m ρ c))
    isplitl [Hxs]; · iexact Hxs
    iexact Hxr

/-- info: 'Cert.KernelIdeal.AR.z_step' depends on axioms: [propext, Classical.choice, Quot.sound] -/
#guard_msgs in #print axioms z_step
/-- info: 'Cert.KernelIdeal.AR.finish' depends on axioms: [propext, Classical.choice, Quot.sound] -/
#guard_msgs in #print axioms finish

end Cert.KernelIdeal.AR

end
-- ==== Proof.Body.lean ====
/- The body of a device, stepped through its three phases, and the pipeline's body obligation. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Trans
import proofs.«900143_g7700000000000144_dist_ar_v7x_xy2x2_y_m2048_n512_f32_1_alg».proof.Proof.Phase2
import proofs.«900143_g7700000000000144_dist_ar_v7x_xy2x2_y_m2048_n512_f32_1_alg».proof.Proof.Phase3
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean Elab Tactic in
/-- Runs the tactic text for i = 0 … 31, `{i}` standing for i and `{d}` for i plus the offset. -/
elab "for_chunks " off:num tpl:str : tactic => do
  for i in [0:32] do
    let s := (tpl.getString.replace "{i}" (toString i)).replace "{d}" (toString (i + off.getNat))
    match Parser.runParserCategory (← getEnv) `tactic s with
    | .ok stx => evalTactic stx
    | .error e => throwError e

set_option maxHeartbeats 16000000 in
set_option maxRecDepth 65536 in
/-- The body from its precondition to its postcondition: the entry handshake, 32 transfers to the y-peer, 32
    rounds of wait, add, store and transfer to the x-peer, 32 rounds of the three closing waits. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel]
  simp only [semSignalWord, semWaitWord, Prog.lift, Prog.bind_op, Prog.bind_ret, Prog.pure_eq_ret, wp_deviceId]
  iintro ⟨Hpre, Hk⟩
  iapply (entry m ρ c _ _ (dev1_eq c) (dev2_eq c)) $$ Hpre
  unfold Mid
  iintro ⟨%K, #Hrec, #Hlev, ⟨%W, H1⟩, HR⟩
  for_chunks 3 "(iapply (y_step m ρ K c _ (dev{d}_eq c) {i} W) $$ [H1]; (focus (isplitr; (focus iexact Hrec); iexact H1)); iintro H1)"
  ihave H2 := (to_phase2 m ρ c W) $$ [H1 HR]
  · isplitl [H1]; · iexact H1
    iexact HR
  icases H2 with ⟨H2, HR⟩
  for_chunks 35 "(iapply (x_step m ρ K c _ (dev{d}_eq c) {i} (fun _ _ => rfl)) $$ [H2]; (focus (isplitr; (focus iexact Hrec); isplitr; (focus iexact Hlev); iexact H2)); iintro H2)"
  ihave H3 := (to_phase3 m ρ c) $$ [H2 HR]
  · isplitl [H2]; · iexact H2
    iexact HR
  icases H3 with ⟨H3, HR⟩
  for_chunks 0 "(iapply (z_step m ρ K c {i}) $$ [H3]; (focus (isplitr; (focus iexact Hrec); iexact H3)); iintro H3)"
  rw [wp_ret]; imodintro
  iapply Hk
  iapply (finish m ρ c)
  unfold Rest3
  icases HR with ⟨Hy, Hxr, Hxo⟩
  isplitl [H3]; · iexact H3
  isplitl [Hy]; · rw [LT_top]; iexact Hy
  isplitl [Hxr]; · iexact Hxr
  iexact Hxo

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The pipeline's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  iintro H
  iapply (sound_body m ρ c fun _ => bodyPost m ρ c)
  isplitl [H]; · iexact H
  iintro H; iexact H

end Cert.KernelIdeal.AR

end
-- ==== Proof.Bits.Cells.lean ====
/- The all-reduce on the 2 × 2 mesh: devices, peers, buffers, row chunks, semaphore cells and the contents
   each buffer holds. Device c sits at mesh position (c / 2, c % 2). Its rows split in two halves of 1024;
   half c / 2 is the one it reduces itself, in 32 chunks of 32 rows. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The peers -/

/-- The device with the other second coordinate. -/
def yp (c : Dev nD) : Dev nD := ⟨(2 * (c.val / 2) + 1) - (c.val % 2), by have := c.isLt; revert this; generalize c.val = v; decide +revert⟩
/-- The device with the other first coordinate. -/
def xp (c : Dev nD) : Dev nD := ⟨((c.val % 2) + 2) - 2 * (c.val / 2), by have := c.isLt; revert this; generalize c.val = v; decide +revert⟩

theorem yp_yp (c : Dev nD) : yp (yp c) = c := by revert c; decide
theorem xp_xp (c : Dev nD) : xp (xp c) = c := by revert c; decide
theorem xp_yp (c : Dev nD) : xp (yp c) = yp (xp c) := by revert c; decide
theorem yp_ne (c : Dev nD) : yp c ≠ c := by revert c; decide
theorem xp_ne (c : Dev nD) : xp c ≠ c := by revert c; decide
theorem yp_ne_xp (c : Dev nD) : yp c ≠ xp c := by revert c; decide
theorem yp_half (c : Dev nD) : (yp c).val / 2 = c.val / 2 := by revert c; decide
theorem xp_half (c : Dev nD) : (xp c).val / 2 = 1 - c.val / 2 := by revert c; decide
theorem half_lt (c : Dev nD) : c.val / 2 < 2 := by revert c; decide

def ypE : Dev nD ≃ Dev nD := ⟨yp, yp, yp_yp, yp_yp⟩
def xpE : Dev nD ≃ Dev nD := ⟨xp, xp, xp_xp, xp_xp⟩

/-- Each printed device chain names one of the two peers: chains 1 and 3–34 the y-peer, 2 and 35–66 the x-peer. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)

open Lean Elab Command in
elab "peer_chain_equations" : command => do
  for n in [3:67] do
    let nm := mkIdent (Name.mkSimple s!"dev{n}_eq")
    let dv := mkIdent (Name.mkSimple s!"k0_dev{n}")
    let lt := mkIdent (Name.mkSimple s!"k0_dev{n}_lt")
    let eq := mkIdent (Name.mkSimple s!"k0_dev{n}_eq")
    let peer := mkIdent (if n < 35 then `yp else `xp)
    elabCommand (← `(theorem $nm (c : Dev nD) : (⟨$dv c, $lt c⟩ : Dev nD) = $peer c := Fin.ext ($eq c)))

peer_chain_equations

/-! ## Buffers, row chunks, semaphores -/

abbrev xM : Memref sig .tc .vmem S2048x512 .f32 := Memref.whole cc0_stg0_0
abbrev oM : Memref sig .tc .vmem S2048x512 .f32 := Memref.whole cc0_stg1_0
abbrev rM : Memref sig .tc .vmem S1024x512 .f32 := Memref.whole cc0_scratch0

/-- Chunk k of device c's own half, as a rectangle of the 2048 × 512 block: rows 1024 (c / 2) + 32 k onward. -/
abbrev rectOwn (c : Dev nD) (k : Fin 32) : Rect S2048x512 :=
  Rect.unit (s := S2048x512) (k0_off1 c (BitVec.ofNat 32 (32 * k.val))) S32x512.size (k0_off1_inb c k)
/-- The same rows through the chain the loads and the store compute. -/
abbrev rectOwn' (c : Dev nD) (k : Fin 32) : Rect S2048x512 :=
  Rect.unit (s := S2048x512) (k0_off2 c (BitVec.ofNat 32 (32 * k.val))) S32x512.size (k0_off2_inb c k)

theorem inbR (k : Fin 32) : ∀ a, (![32 * k.val, 0] : Fin 2 → Nat) a + S32x512.size a ≤ S1024x512.size a := by
  intro a; have := k.isLt
  match a with
  | ⟨0, _⟩ => show 32 * k.val + 32 ≤ 1024; omega
  | ⟨1, _⟩ => show 0 + 512 ≤ 512; omega
/-- Chunk k of the landing buffer: rows 32 k onward. -/
abbrev rectR (k : Fin 32) : Rect S1024x512 := Rect.unit (s := S1024x512) ![32 * k.val, 0] S32x512.size (inbR k)

abbrev xSl (c : Dev nD) (k : Fin 32) : Memref sig .tc .vmem S32x512 .f32 := xM.slice (rectOwn c k) (fun _ => rfl)
abbrev oSl (c : Dev nD) (k : Fin 32) : Memref sig .tc .vmem S32x512 .f32 := oM.slice (rectOwn c k) (fun _ => rfl)
abbrev rSl (k : Fin 32) : Memref sig .tc .vmem S32x512 .f32 := rM.slice (rectR k) (fun _ => rfl)

theorem inbS (k : Fin 32) : ∀ a, (![k.val] : Fin 1 → Nat) a + S1.size a ≤ S32.size a := by
  intro a; have := k.isLt
  match a with
  | ⟨0, _⟩ => show k.val + 1 ≤ 32; omega
/-- Semaphore k of one of the four arrays of 32. -/
abbrev semAt (A : DmaSems sig S32) (k : Fin 32) : DmaSem sig :=
  ((A.slice (Rect.unit (s := S32) ![k.val] S1.size (inbS k))).squeeze S_ squeezes_S1_S_).sem

abbrev ysS (k : Fin 32) : DmaSem sig := semAt cc0_scratch1 k
abbrev yrS (k : Fin 32) : DmaSem sig := semAt cc0_scratch2 k
abbrev xsS (k : Fin 32) : DmaSem sig := semAt cc0_scratch3 k
abbrev xrS (k : Fin 32) : DmaSem sig := semAt cc0_scratch4 k

theorem ysS_val (k : Fin 32) : (ysS k).val = 2 + k.val := by revert k; decide
theorem yrS_val (k : Fin 32) : (yrS k).val = 34 + k.val := by revert k; decide
theorem xsS_val (k : Fin 32) : (xsS k).val = 66 + k.val := by revert k; decide
theorem xrS_val (k : Fin 32) : (xrS k).val = 98 + k.val := by revert k; decide

abbrev barS : Sem sig := (SemArray.scalar (sig.barrier 0 rfl) : Sems sig S_).sem

abbrev barCell (c : Dev nD) : GSem nD τ sig := ((c : Thread nD τ), .reg barS)
abbrev ysCell (c : Dev nD) (k : Fin 32) : GSem nD τ sig := ((c : Thread nD τ), .dma (ysS k))
abbrev yrCell (c : Dev nD) (k : Fin 32) : GSem nD τ sig := ((c : Thread nD τ), .dma (yrS k))
abbrev xsCell (c : Dev nD) (k : Fin 32) : GSem nD τ sig := ((c : Thread nD τ), .dma (xsS k))
abbrev xrCell (c : Dev nD) (k : Fin 32) : GSem nD τ sig := ((c : Thread nD τ), .dma (xrS k))

/-- The credit of one chunk's transfer. -/
abbrev NC : ℕ := (rSl 0 : Memref sig .tc .vmem S32x512 .f32).view.dmaCredit

/-! ## Contents -/

/-- Device c's block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device c's block plus its y-peer's, entry by entry, in that order. -/
def sumV (c : Dev nD) : (cc0_stg1_0 : Ref sig .tc).ty.Contents (Elt F) := addf (xstg m ρ c) (xstg m ρ (yp c))

/-- What the output buffer of device c ends at: on its own half the sum it formed, on the other half the sum
    its x-peer formed. -/
def outFin (c : Dev nD) : (cc0_stg1_0 : Ref sig .tc).ty.Contents (Elt F) :=
  fun i => if (i 0).val / 1024 = c.val / 2 then sumV m ρ c i else sumV m ρ (xp c) i

/-- Row r of the landing buffer is row 1024 (c / 2) + r of the block. -/
def upRow (c : Dev nD) (j : S1024x512.Idx) : S2048x512.Idx := fun a => match a with
  | ⟨0, _⟩ => ⟨1024 * (c.val / 2) + (j 0).val, by have h0 : (j 0).val < 1024 := (j 0).isLt; have := half_lt c; show 1024 * (c.val / 2) + (j 0).val < 2048; omega⟩
  | ⟨1, _⟩ => ⟨(j 1).val, (j 1).isLt⟩

/-- What the landing buffer of device c ends at: the y-peer's rows of c's own half. -/
def landed (c : Dev nD) : (cc0_scratch0 : Ref sig .tc).ty.Contents (Elt F) := fun j => xstg m ρ (yp c) (upRow c j)

end Cert.Kernel.AR

end
-- ==== Proof.Bits.Proto.lean ====
/- The protocol of the all-reduce under the rounds discipline: one round per semaphore cell. A device's barrier
   cell has two unit duties, one paid by each peer: the y-peer hands over its landing buffer, the x-peer the half
   of its output buffer this device will fill. Each of the 4 × 32 transfer cells has one duty of a chunk's credit:
   a send cell returns the chunk lent, a receive cell delivers the chunk landed. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Cells
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem NC_pos : 0 < NC := View.dmaCredit_pos _ (by decide)

/-! ## Payloads -/

/-- From the y-peer: its landing buffer, chunk by chunk, at some contents. -/
def barPayY (c : Dev nD) : sProp 𝕄 :=
  bigSep Finset.univ fun k : Fin 32 => iprop(∃ f, ((rSl k).view.loc ((yp c : Dev nD) : Thread nD τ)) ↦[(rSl k).view.set]{fullShare} f)
/-- From the x-peer: the chunks of this device's own half, in the x-peer's output buffer, at some contents. -/
def barPayX (c : Dev nD) : sProp 𝕄 :=
  bigSep Finset.univ fun k : Fin 32 => iprop(∃ f, ((oSl c k).view.loc ((xp c : Dev nD) : Thread nD τ)) ↦[(oSl c k).view.set]{fullShare} f)
/-- A y-send cell returns the half share of the input chunk lent to the transfer. -/
def ysPay (c : Dev nD) (k : Fin 32) : sProp 𝕄 :=
  ((xSl c k).view.loc (c : Thread nD τ)) ↦[(xSl c k).view.set]{fullShare.left} xstg m ρ c
/-- A y-receive cell delivers the landing chunk holding the y-peer's rows. -/
def yrPay (c : Dev nD) (k : Fin 32) : sProp 𝕄 :=
  ((rSl k).view.loc (c : Thread nD τ)) ↦[(rSl k).view.set]{fullShare} landed m ρ c
/-- An x-send cell returns the output chunk sent. -/
def xsPay (c : Dev nD) (k : Fin 32) : sProp 𝕄 :=
  ((oSl c k).view.loc (c : Thread nD τ)) ↦[(oSl c k).view.set]{fullShare} outFin m ρ c
/-- An x-receive cell delivers a chunk of the other half of the output. -/
def xrPay (c : Dev nD) (k : Fin 32) : sProp 𝕄 :=
  ((oSl (xp c) k).view.loc (c : Thread nD τ)) ↦[(oSl (xp c) k).view.set]{fullShare} outFin m ρ c

/-- The payload of DMA semaphore s of device c: semaphores 2 + 32 j + k, j the array, k the chunk. -/
def dmaPay (c : Dev nD) (s : DmaSem sig) : sProp 𝕄 :=
  if 2 ≤ s.val then
    (if (s.val - 2) / 32 = 0 then ysPay m ρ c ⟨(s.val - 2) % 32, Nat.mod_lt _ (by decide)⟩
    else if (s.val - 2) / 32 = 1 then yrPay m ρ c ⟨(s.val - 2) % 32, Nat.mod_lt _ (by decide)⟩
    else if (s.val - 2) / 32 = 2 then xsPay m ρ c ⟨(s.val - 2) % 32, Nat.mod_lt _ (by decide)⟩
    else xrPay m ρ c ⟨(s.val - 2) % 32, Nat.mod_lt _ (by decide)⟩)
  else iprop(emp)

/-! ## The schedule -/

def sched : Rounds.Schedule (GSem nD τ sig) Bool 𝕄 where
  duties g r := if r = 0 ∧ g.1.2 = .tc then
      (match g.2 with
        | .reg _ => Finset.univ
        | .dma s => if 2 ≤ s.val then {false} else ∅)
    else ∅
  unitless _ := False
  amount g _ _ := match g.2 with
    | .reg _ => 1
    | .dma _ => NC
  payload g _ d := match g.2 with
    | .reg _ => if d then barPayX g.1.1 else barPayY g.1.1
    | .dma s => dmaPay m ρ g.1.1 s
  amount_pos g _ _ _ := by
    cases g.2 with
    | reg _ => exact Nat.one_pos
    | dma _ => exact NC_pos

instance sched_payload_storable (g : GSem nD τ sig) (r : ℕ) (d : Bool) :
    BI.Storable (upEmb : UEmb _ 𝕄) ((sched (F := F) m ρ).payload g r d) := by
  show BI.Storable upEmb (match g.2 with
    | .reg _ => if d then barPayX g.1.1 else barPayY g.1.1
    | .dma s => dmaPay m ρ g.1.1 s)
  unfold barPayX barPayY dmaPay ysPay yrPay xsPay xrPay
  (repeat' split) <;> infer_instance

section Tables
variable (c : Dev nD) (k : Fin 32)

theorem duties_bar : (sched (F := F) m ρ).duties (barCell c) 0 = Finset.univ := by
  dsimp only [sched]; rw [if_pos ⟨rfl, rfl⟩]
theorem duties_ys : (sched (F := F) m ρ).duties (ysCell c k) 0 = {false} := by
  dsimp only [sched]; rw [if_pos ⟨rfl, rfl⟩]; exact if_pos (by rw [ysS_val]; omega)
theorem duties_yr : (sched (F := F) m ρ).duties (yrCell c k) 0 = {false} := by
  dsimp only [sched]; rw [if_pos ⟨rfl, rfl⟩]; exact if_pos (by rw [yrS_val]; omega)
theorem duties_xs : (sched (F := F) m ρ).duties (xsCell c k) 0 = {false} := by
  dsimp only [sched]; rw [if_pos ⟨rfl, rfl⟩]; exact if_pos (by rw [xsS_val]; omega)
theorem duties_xr : (sched (F := F) m ρ).duties (xrCell c k) 0 = {false} := by
  dsimp only [sched]; rw [if_pos ⟨rfl, rfl⟩]; exact if_pos (by rw [xrS_val]; omega)
theorem duties_later (g : GSem nD τ sig) : ∀ r, 1 ≤ r → (sched (F := F) m ρ).duties g r = ∅ :=
  fun r hr => by dsimp only [sched]; rw [if_neg fun h => by omega]

theorem amount_bar (d : Bool) : (sched (F := F) m ρ).amount (barCell c) 0 d = 1 := rfl
theorem amount_ys (d : Bool) : (sched (F := F) m ρ).amount (ysCell c k) 0 d = NC := rfl
theorem amount_yr (d : Bool) : (sched (F := F) m ρ).amount (yrCell c k) 0 d = NC := rfl
theorem amount_xs (d : Bool) : (sched (F := F) m ρ).amount (xsCell c k) 0 d = NC := rfl
theorem amount_xr (d : Bool) : (sched (F := F) m ρ).amount (xrCell c k) 0 d = NC := rfl

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_ys : (sched (F := F) m ρ).expect (ysCell c k) 0 = NC := by
  unfold Schedule.expect Schedule.amountOf; rw [duties_ys, Finset.sum_singleton, amount_ys]
theorem expect_yr : (sched (F := F) m ρ).expect (yrCell c k) 0 = NC := by
  unfold Schedule.expect Schedule.amountOf; rw [duties_yr, Finset.sum_singleton, amount_yr]
theorem expect_xs : (sched (F := F) m ρ).expect (xsCell c k) 0 = NC := by
  unfold Schedule.expect Schedule.amountOf; rw [duties_xs, Finset.sum_singleton, amount_xs]
theorem expect_xr : (sched (F := F) m ρ).expect (xrCell c k) 0 = NC := by
  unfold Schedule.expect Schedule.amountOf; rw [duties_xr, Finset.sum_singleton, amount_xr]

theorem payload_bar_true : (sched (F := F) m ρ).payload (barCell c) 0 true = barPayX c := by
  dsimp only [sched]; rw [if_pos rfl]
theorem payload_bar_false : (sched (F := F) m ρ).payload (barCell c) 0 false = barPayY c := by
  dsimp only [sched]; exact if_neg Bool.false_ne_true

/-- The payload of semaphore 2 + 32 j + k. -/
theorem dmaPay_at (s : DmaSem sig) (j : ℕ) (hs : s.val = 2 + 32 * j + k.val) :
    dmaPay m ρ c s = (if j = 0 then ysPay m ρ c k else if j = 1 then yrPay m ρ c k else if j = 2 then xsPay m ρ c k else xrPay m ρ c k) := by
  have hk := k.isLt
  have hj : (s.val - 2) / 32 = j := by omega
  have hm : (⟨(s.val - 2) % 32, Nat.mod_lt _ (by decide)⟩ : Fin 32) = k := Fin.ext (by show (s.val - 2) % 32 = k.val; omega)
  unfold dmaPay
  rw [if_pos (by omega), hj, hm]

theorem payload_ys (d : Bool) : (sched (F := F) m ρ).payload (ysCell c k) 0 d = ysPay m ρ c k := by
  show dmaPay m ρ c (ysS k) = _
  rw [dmaPay_at m ρ c k (ysS k) 0 (by rw [ysS_val]), if_pos rfl]
theorem payload_yr (d : Bool) : (sched (F := F) m ρ).payload (yrCell c k) 0 d = yrPay m ρ c k := by
  show dmaPay m ρ c (yrS k) = _
  rw [dmaPay_at m ρ c k (yrS k) 1 (by rw [yrS_val]), if_neg (by decide), if_pos rfl]
theorem payload_xs (d : Bool) : (sched (F := F) m ρ).payload (xsCell c k) 0 d = xsPay m ρ c k := by
  show dmaPay m ρ c (xsS k) = _
  rw [dmaPay_at m ρ c k (xsS k) 2 (by rw [xsS_val]), if_neg (by decide), if_neg (by decide), if_pos rfl]
theorem payload_xr (d : Bool) : (sched (F := F) m ρ).payload (xrCell c k) 0 d = xrPay m ρ c k := by
  show dmaPay m ρ c (xrS k) = _
  rw [dmaPay_at m ρ c k (xrS k) 3 (by rw [xrS_val]), if_neg (by decide), if_neg (by decide), if_neg (by decide)]

/-- The whole round of the barrier cell: both peers' payloads. -/
theorem rest_bar : bigSep ((sched (F := F) m ρ).duties (barCell c) 0 \ ∅) (fun d => (sched (F := F) m ρ).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys : bigSep ((sched (F := F) m ρ).duties (ysCell c k) 0 \ ∅) (fun d => (sched (F := F) m ρ).payload (ysCell c k) 0 d) = ysPay m ρ c k := by
  rw [Finset.sdiff_empty, duties_ys, bigSep_singleton, payload_ys]
theorem rest_yr : bigSep ((sched (F := F) m ρ).duties (yrCell c k) 0 \ ∅) (fun d => (sched (F := F) m ρ).payload (yrCell c k) 0 d) = yrPay m ρ c k := by
  rw [Finset.sdiff_empty, duties_yr, bigSep_singleton, payload_yr]
theorem rest_xs : bigSep ((sched (F := F) m ρ).duties (xsCell c k) 0 \ ∅) (fun d => (sched (F := F) m ρ).payload (xsCell c k) 0 d) = xsPay m ρ c k := by
  rw [Finset.sdiff_empty, duties_xs, bigSep_singleton, payload_xs]
theorem rest_xr : bigSep ((sched (F := F) m ρ).duties (xrCell c k) 0 \ ∅) (fun d => (sched (F := F) m ρ).payload (xrCell c k) 0 d) = xrPay m ρ c k := by
  rw [Finset.sdiff_empty, duties_xr, bigSep_singleton, payload_xr]

end Tables

/-! ## What a device owes; the levels -/

/-- The y-receive credits device c still owes its y-peer from chunk a on; -/
def owedY (c : Dev nD) (a : ℕ) : CellTallies nD τ sig Unit :=
  ∑ k ∈ Finset.univ.filter (fun k : Fin 32 => a ≤ k.val), tallyAt (yrCell (yp c) k) () NC
/-- the x-receive credits it still owes its x-peer from chunk a on. -/
def owedX (c : Dev nD) (a : ℕ) : CellTallies nD τ sig Unit :=
  ∑ k ∈ Finset.univ.filter (fun k : Fin 32 => a ≤ k.val), tallyAt (xrCell (xp c) k) () NC

theorem filter_ge_succ (a : Fin 32) :
    Finset.univ.filter (fun k : Fin 32 => a.val ≤ k.val) = insert a (Finset.univ.filter (fun k : Fin 32 => a.val + 1 ≤ k.val)) := by
  ext k
  simp only [Finset.mem_filter, Finset.mem_univ, true_and, Finset.mem_insert, Fin.ext_iff]
  omega

theorem owedY_peel (c : Dev nD) (a : Fin 32) : owedY c a.val = owedY c (a.val + 1) + tallyAt (yrCell (yp c) a) () NC := by
  unfold owedY
  rw [filter_ge_succ a, Finset.sum_insert (by simp only [Finset.mem_filter, Finset.mem_univ, true_and]; omega), add_comm]
theorem owedX_peel (c : Dev nD) (a : Fin 32) : owedX c a.val = owedX c (a.val + 1) + tallyAt (xrCell (xp c) a) () NC := by
  unfold owedX
  rw [filter_ge_succ a, Finset.sum_insert (by simp only [Finset.mem_filter, Finset.mem_univ, true_and]; omega), add_comm]
theorem owedY_done (c : Dev nD) : owedY c 32 = 0 := by
  unfold owedY
  rw [Finset.filter_eq_empty_iff.mpr (fun k _ => by have := k.isLt; omega), Finset.sum_empty]
theorem owedX_done (c : Dev nD) : owedX c 32 = 0 := by
  unfold owedX
  rw [Finset.filter_eq_empty_iff.mpr (fun k _ => by have := k.isLt; omega), Finset.sum_empty]

/-- After both entry signals: every transfer's receive credit. -/
def O₂ (c : Dev nD) : CellTallies nD τ sig Unit := owedX c 0 + owedY c 0
/-- After the first signal (to the y-peer): the signal to the x-peer as well. -/
def O₁ (c : Dev nD) : CellTallies nD τ sig Unit := O₂ c + tallyAt (barCell (xp c)) () 1
/-- At launch. -/
def O₀ (c : Dev nD) : CellTallies nD τ sig Unit := O₁ c + tallyAt (barCell (yp c)) () 1

def L (g : GSem nD τ sig) : Finset Unit := if g.1.2 = .tc then {()} else ∅
/-- Barrier cells at 1, y-receive cells at 2, x-receive cells at 3, every other cell (staging, send) at 0. -/
def lv (g : GSem nD τ sig) (_ : Unit) : ℕ := match g.2 with
  | .reg _ => 1
  | .dma s => if 34 ≤ s.val ∧ s.val < 66 then 2 else if 98 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.AR

end
-- ==== Proof.Bits.Data.lean ====
/- What a device's body starts from and ends with: the cells' invariants and round-0 marks shared by all devices,
   its own positions, the tokens of the duties it pays, its launch credit; the pipeline's proof data. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- DMA semaphore k of array j (0: y-send, 1: y-receive, 2: x-send, 3: x-receive). -/
def dS (jk : Fin 4 × Fin 32) : DmaSem sig := ⟨2 + 32 * jk.1.val + jk.2.val, by have := jk.1.isLt; have := jk.2.isLt; show _ < 130; omega⟩

theorem ysS_eq (k : Fin 32) : ysS k = dS (0, k) := Fin.ext (by rw [ysS_val]; show _ = 2 + 32 * 0 + k.val; omega)
theorem yrS_eq (k : Fin 32) : yrS k = dS (1, k) := Fin.ext (by rw [yrS_val]; show _ = 2 + 32 * 1 + k.val; omega)
theorem xsS_eq (k : Fin 32) : xsS k = dS (2, k) := Fin.ext (by rw [xsS_val]; show _ = 2 + 32 * 2 + k.val; omega)
theorem xrS_eq (k : Fin 32) : xrS k = dS (3, k) := Fin.ext (by rw [xrS_val]; show _ = 2 + 32 * 3 + k.val; omega)

theorem dS_injective : Function.Injective dS := by
  rintro ⟨j, k⟩ ⟨j', k'⟩ h
  have h' : 2 + 32 * j.val + k.val = 2 + 32 * j'.val + k'.val := congrArg Fin.val h
  have := k.isLt; have := k'.isLt
  have hj : j = j' := Fin.ext (by omega)
  have hk : k = k' := Fin.ext (by omega)
  rw [hj, hk]

/-- The kernel's own (scoped) semaphores, as the launch indexes them. -/
abbrev osem : Fin 4 × Fin 32 → SemLoc sig := fun jk => .dma (dS jk)
/-- Every cell of the protocol: a device's barrier cell (none) and its 128 transfer cells. -/
abbrev csem : Option (Fin 4 × Fin 32) → SemLoc sig := fun | none => .reg barS | some jk => .dma (dS jk)
abbrev kcell (ck : Dev nD × Option (Fin 4 × Fin 32)) : GSem nD τ sig := ((ck.1 : Thread nD τ), csem ck.2)

theorem kcell_bar (c : Dev nD) : kcell (c, none) = barCell c := rfl
theorem kcell_ys (c : Dev nD) (k : Fin 32) : kcell (c, some (0, k)) = ysCell c k := by show ((c : Thread nD τ), SemLoc.dma (dS (0, k))) = _; rw [← ysS_eq]
theorem kcell_yr (c : Dev nD) (k : Fin 32) : kcell (c, some (1, k)) = yrCell c k := by show ((c : Thread nD τ), SemLoc.dma (dS (1, k))) = _; rw [← yrS_eq]
theorem kcell_xs (c : Dev nD) (k : Fin 32) : kcell (c, some (2, k)) = xsCell c k := by show ((c : Thread nD τ), SemLoc.dma (dS (2, k))) = _; rw [← xsS_eq]
theorem kcell_xr (c : Dev nD) (k : Fin 32) : kcell (c, some (3, k)) = xrCell c k := by show ((c : Thread nD τ), SemLoc.dma (dS (3, k))) = _; rw [← xrS_eq]

theorem csem_injective : Function.Injective csem := by
  intro a b h
  match a, b with
  | none, none => rfl
  | none, some _ => exact absurd h (fun h => by cases h)
  | some _, none => exact absurd h (fun h => by cases h)
  | some x, some y => exact congrArg some (dS_injective (SemLoc.dma.inj h))

theorem kcell_injective : Function.Injective (kcell : Dev nD × Option (Fin 4 × Fin 32) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The ghost state -/

/-- Shared by all devices, persistent: every cell's invariant under the names K, and round 0 of every cell reached. -/
def records (K : Dev nD × Option (Fin 4 × Fin 32) → ℕ) : sProp 𝕄 :=
  iprop((bigSep Finset.univ fun ck : Dev nD × Option (Fin 4 × Fin 32) => cellInv ER (sched m ρ) (K ck) (kcell ck))
    ∗ bigSep Finset.univ fun ck : Dev nD × Option (Fin 4 × Fin 32) => reached ER (kcell ck) 0)

instance records_persistent (K : Dev nD × Option (Fin 4 × Fin 32) → ℕ) : BI.Persistent (records m ρ K) := by unfold records; infer_instance

/-- The tokens of the duties device c pays: a unit on each peer's barrier cell; per chunk, its own two send
    cells and the two receive cells of its peers. -/
def payToks (c : Dev nD) : sProp 𝕄 :=
  iprop(dutyTok ER (barCell (yp c)) 0 false ∗ dutyTok ER (barCell (xp c)) 0 true
    ∗ bigSep Finset.univ fun k : Fin 32 => iprop(dutyTok ER (ysCell c k) 0 false ∗ dutyTok ER (yrCell (yp c) k) 0 false
        ∗ dutyTok ER (xsCell c k) 0 false ∗ dutyTok ER (xrCell (xp c) k) 0 false))

/-- Device c's positions: at the start of round 0 of each of its 129 cells. -/
def positions (c : Dev nD) : sProp 𝕄 :=
  iprop(atPos ER (barCell c) 0 ∅ 0
    ∗ bigSep Finset.univ fun k : Fin 32 => iprop(atPos ER (ysCell c k) 0 ∅ 0 ∗ atPos ER (yrCell c k) 0 ∅ 0
        ∗ atPos ER (xsCell c k) 0 ∅ 0 ∗ atPos ER (xrCell c k) 0 ∅ 0))

def linear (c : Dev nD) : sProp 𝕄 := iprop(positions c ∗ payToks c)

def ghost (K : Dev nD × Option (Fin 4 × Fin 32) → ℕ) (c : Dev nD) : sProp 𝕄 := iprop(records m ρ K ∗ linear c)

/-- The credit dealt at launch for the units the peers owe device c's cells. -/
def credits (c : Dev nD) : sProp 𝕄 :=
  iprop(cred (tallyAt (barCell c) () 2)
    ∗ bigSep Finset.univ fun k : Fin 32 => iprop(cred (tallyAt (yrCell c k) () NC) ∗ cred (tallyAt (xrCell c k) () NC)))

/-- What device c's body starts from, the landing buffer apart. -/
def start (c : Dev nD) : sProp 𝕄 := iprop((∃ K, ghost m ρ K c) ∗ credits c ∗ levAts L lv)

def scrPts (c : Dev nD) (f : Buf (Elt F) ((rM : Memref sig .tc .vmem S1024x512 .f32).view.loc (c : Thread nD τ))) : sProp 𝕄 :=
  ((c : Thread nD τ).loc cc0_scratch0) ↦{fullShare} f

def Φ₀ (c : Dev nD) : sProp 𝕄 := iprop(start m ρ c ∗ ∃ f, scrPts c f)
/-- After the point: the landing buffer at the y-peer's rows, the 128 own cells closed at zero. -/
def Φ₁ (c : Dev nD) : sProp 𝕄 :=
  iprop(scrPts c (landed m ρ c) ∗ bigSep Finset.univ fun jk : Fin 4 × Fin 32 => semVal (kcell (c, some jk)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFin m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device c: the invariant before the point, what it owes, the two staging buffers. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outFin m ρ c))

end Cert.Kernel.AR

end
-- ==== Proof.Bits.Levels.lean ====
/- Levels and launch credit of the all-reduce. Every wait of a device sits strictly below, in level, everything the
   device owes when it waits: staging and send cells (0) below the barrier cells (1), those below the y-receive
   cells (2), those below the x-receive cells (3). And the units the peers owe a device's cells at launch are
   exactly the credit the device waits with: two on its barrier cell, a chunk's on each receive cell. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Data
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where what a device owes is positive -/

theorem owedY_pos {c : Dev nD} {a : ℕ} {g : GSem nD τ sig} {u : Unit} (h : 0 < owedY c a g u) :
    ∃ k : Fin 32, g = yrCell (yp c) k := by
  unfold owedY at h
  obtain ⟨k, _, hk⟩ := Pipeline.sum_pos_exists h
  exact ⟨k, (Pipeline.tallyAt_pos hk).1⟩

theorem owedX_pos {c : Dev nD} {a : ℕ} {g : GSem nD τ sig} {u : Unit} (h : 0 < owedX c a g u) :
    ∃ k : Fin 32, g = xrCell (xp c) k := by
  unfold owedX at h
  obtain ⟨k, _, hk⟩ := Pipeline.sum_pos_exists h
  exact ⟨k, (Pipeline.tallyAt_pos hk).1⟩

theorem O₂_pos {c : Dev nD} {g : GSem nD τ sig} {u : Unit} (h : 0 < O₂ c g u) :
    (∃ k : Fin 32, g = yrCell (yp c) k) ∨ (∃ k : Fin 32, g = xrCell (xp c) k) := by
  unfold O₂ at h
  rcases Pipeline.add_pos_cases h with h | h
  · exact Or.inr (owedX_pos h)
  · exact Or.inl (owedY_pos h)

theorem O₀_pos {c : Dev nD} {g : GSem nD τ sig} {u : Unit} (h : 0 < O₀ c g u) :
    g = barCell (yp c) ∨ g = barCell (xp c) ∨ (∃ k : Fin 32, g = yrCell (yp c) k) ∨ (∃ k : Fin 32, g = xrCell (xp c) k) := by
  unfold O₀ O₁ at h
  rcases Pipeline.add_pos_cases h with h | h
  · rcases Pipeline.add_pos_cases h with h | h
    · exact Or.inr (Or.inr (O₂_pos h))
    · exact Or.inr (Or.inl (Pipeline.tallyAt_pos h).1)
  · exact Or.inl (Pipeline.tallyAt_pos h).1

/-! ## The levels of the cells -/

theorem lv_bar (c : Dev nD) (u : Unit) : lv (barCell c) u = 1 := rfl

theorem lv_yr (c : Dev nD) (k : Fin 32) (u : Unit) : lv (yrCell c k) u = 2 := by
  have := k.isLt
  show (if 34 ≤ (yrS k).val ∧ (yrS k).val < 66 then 2 else if 98 ≤ (yrS k).val then 3 else 0) = 2
  rw [yrS_val, if_pos (by omega)]

theorem lv_xr (c : Dev nD) (k : Fin 32) (u : Unit) : lv (xrCell c k) u = 3 := by
  have := k.isLt
  show (if 34 ≤ (xrS k).val ∧ (xrS k).val < 66 then 2 else if 98 ≤ (xrS k).val then 3 else 0) = 3
  rw [xrS_val, if_neg (by omega), if_pos (by omega)]

/-- The staging semaphores (0, 1) and the send semaphores (2–33, 66–97) sit at the bottom. -/
theorem lv_low (c : Dev nD) (q : DmaSem sig) (hq : q.val < 34 ∨ (66 ≤ q.val ∧ q.val < 98)) (u : Unit) :
    lv ((c : Thread nD τ), .dma q) u = 0 := by
  show (if 34 ≤ q.val ∧ q.val < 66 then 2 else if 98 ≤ q.val then 3 else 0) = 0
  rw [if_neg (by omega), if_neg (by omega)]

theorem mem_L (c : Dev nD) (sm : SemLoc sig) (u : Unit) : u ∈ L ((c : Thread nD τ), sm) := by
  rw [L_tc]; exact Finset.mem_singleton_self _

/-! ## Each wait below what is owed -/

/-- A cell at the bottom level may be waited on while owing everything owed at launch, or nothing. -/
theorem mayWait_stage (c : Dev nD) (q : DmaSem sig) (hq : q.val < 34 ∨ (66 ≤ q.val ∧ q.val < 98))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp]; exact mem_L c _ _)
      (fun g u hg => ?_)
      (fun p hp => by rw [Finset.mem_singleton.mp hp]; exact le_of_eq (lv_low c q hq ()))
      (fun g u hg => ?_)
    · rcases O₀_pos hg with rfl | rfl | ⟨k, rfl⟩ | ⟨k, rfl⟩ <;> exact mem_L _ _ _
    · rcases O₀_pos hg with rfl | rfl | ⟨k, rfl⟩ | ⟨k, rfl⟩
      · rw [lv_bar]; decide
      · rw [lv_bar]; decide
      · rw [lv_yr]; decide
      · rw [lv_xr]; decide
  · rw [MayWait_zero]; iintro -; iempintro

/-- At its barrier wait a device owes receive credits only, all above the barrier cells. -/
theorem mayWait_bar (c : Dev nD) :
    (levAts L lv : sProp 𝕄) ⊢ MayWait (c : Thread nD τ) (.reg barS) () (O₂ c) := by
  refine MayOwe.of_cut (L := L) (lev := lv) 1
    (fun p hp => by rw [Finset.mem_singleton.mp hp]; exact mem_L c _ _)
    (fun g u hg => ?_)
    (fun p hp => by rw [Finset.mem_singleton.mp hp]; exact le_of_eq (lv_bar c ()))
    (fun g u hg => ?_)
  · rcases O₂_pos hg with ⟨k, rfl⟩ | ⟨k, rfl⟩ <;> exact mem_L _ _ _
  · rcases O₂_pos hg with ⟨k, rfl⟩ | ⟨k, rfl⟩
    · rw [lv_yr]; decide
    · rw [lv_xr]; decide

/-- At the wait for chunk k from the y-peer a device owes x-receive credits only, one level up. -/
theorem mayWait_yr (c : Dev nD) (k : Fin 32) (a : ℕ) :
    (levAts L lv : sProp 𝕄) ⊢ MayWait (c : Thread nD τ) (.dma (yrS k)) () (owedX c a) := by
  refine MayOwe.of_cut (L := L) (lev := lv) 2
    (fun p hp => by rw [Finset.mem_singleton.mp hp]; exact mem_L c _ _)
    (fun g u hg => ?_)
    (fun p hp => by rw [Finset.mem_singleton.mp hp]; exact le_of_eq (lv_yr c k ()))
    (fun g u hg => ?_)
  · obtain ⟨k', rfl⟩ := owedX_pos hg; exact mem_L _ _ _
  · obtain ⟨k', rfl⟩ := owedX_pos hg; rw [lv_xr]; decide

/-! ## The launch credit -/

theorem O₀_fun : (O₀ : Dev nD → CellTallies nD τ sig Unit)
    = fun d => ((owedX d 0 + owedY d 0) + tallyAt (barCell (xp d)) () 1) + tallyAt (barCell (yp d)) () 1 := rfl

theorem filter_all : Finset.univ.filter (fun k : Fin 32 => 0 ≤ k.val) = Finset.univ :=
  Finset.filter_true_of_mem fun _ _ => Nat.zero_le _

/-- The unit the y-peer owes this device's barrier cell; -/
theorem cred_bar_y (c : Dev nD) :
    (Pipeline.launchCred (fun d : Dev nD => tallyAt (barCell (yp d)) () 1) c : sProp 𝕄) ⊢ cred (tallyAt (barCell c) () 1) :=
  Pipeline.launchCred_tallyAt (.reg barS) yp yp yp_yp yp_yp () 1 c
/-- the x-peer's; -/
theorem cred_bar_x (c : Dev nD) :
    (Pipeline.launchCred (fun d : Dev nD => tallyAt (barCell (xp d)) () 1) c : sProp 𝕄) ⊢ cred (tallyAt (barCell c) () 1) :=
  Pipeline.launchCred_tallyAt (.reg barS) xp xp xp_xp xp_xp () 1 c
/-- the chunk credits the y-peer owes this device's y-receive cells; -/
theorem cred_Y (c : Dev nD) :
    (Pipeline.launchCred (fun d : Dev nD => owedY d 0) c : sProp 𝕄)
      ⊢ bigSep Finset.univ fun k : Fin 32 => (cred (tallyAt (yrCell c k) () NC) : sProp 𝕄) := by
  unfold owedY
  rw [filter_all, Pipeline.launchCred_sum]
  exact bigSep_mono fun k _ => Pipeline.launchCred_tallyAt (.dma (yrS k)) yp yp yp_yp yp_yp () NC c
/-- and those the x-peer owes its x-receive cells. -/
theorem cred_X (c : Dev nD) :
    (Pipeline.launchCred (fun d : Dev nD => owedX d 0) c : sProp 𝕄)
      ⊢ bigSep Finset.univ fun k : Fin 32 => (cred (tallyAt (xrCell c k) () NC) : sProp 𝕄) := by
  unfold owedX
  rw [filter_all, Pipeline.launchCred_sum]
  exact bigSep_mono fun k _ => Pipeline.launchCred_tallyAt (.dma (xrS k)) xp xp xp_xp xp_xp () NC c

/-- The launch deals device c the credit of every unit its peers owe its cells. -/
theorem creds (c : Dev nD) : (Pipeline.launchCred O₀ c : sProp 𝕄) ⊢ credits c := by
  rw [O₀_fun, Pipeline.launchCred_add, Pipeline.launchCred_add, Pipeline.launchCred_add]
  unfold credits
  rw [show (tallyAt (barCell c) () 2 : CellTallies nD τ sig Unit) = tallyAt (barCell c) () 1 + tallyAt (barCell c) () 1 from
    (tallyAt_add (barCell c) () 1 1).symm, bigSep_sep']
  iintro ⟨⟨⟨HX, HY⟩, Hbx⟩, Hby⟩
  ihave Hbx' := (cred_bar_x (F := F) c) $$ Hbx
  ihave Hby' := (cred_bar_y (F := F) c) $$ Hby
  ihave HX' := (cred_X (F := F) c) $$ HX
  ihave HY' := (cred_Y (F := F) c) $$ HY
  isplitl [Hbx' Hby']
  · iapply (cred_add _ _).2
    isplitl [Hby'] <;> iassumption
  · isplitl [HY'] <;> iassumption

/-! ## The staging cells' waits -/

/-- The two staging semaphores are DMA semaphores 0 and 1: at the bottom level, so the pipeline may wait on them
    before the point, owing everything, and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      match t with
      | ⟨0, _⟩ => exact Or.inl rfl
      | ⟨_ + 1, _⟩ => exact Or.inr rfl)

/-- info: 'Cert.Kernel.AR.creds' depends on axioms: [propext, Classical.choice, Quot.sound] -/
#guard_msgs in #print axioms creds

/-- info: 'Cert.Kernel.AR.waits' depends on axioms: [propext, Classical.choice, Quot.sound] -/
#guard_msgs in #print axioms waits

end Cert.Kernel.AR

end
-- ==== Proof.Bits.Final.lean ====
/- The arrays after the run: the input block as it was, the output block at what the body left in its staging buffer. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Gen.Kernel.Points
import proofs.«900143_g7700000000000144_dist_ar_v7x_xy2x2_y_m2048_n512_f32_1_alg».proof.Proof.Bits.Data
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-! ## The final arrays -/

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- An index of the output array is its own place in the one block. -/
theorem out_blk_emb (i : S2048x512.Idx) : ((cfg0.win (1 : Fin 2)).blk t₀).view.emb i = i := by
  refine Shape.idx_ext₂ ?_ ?_
  · exact Window.rect_emb_val_of_index_zero (cfg0.win (1 : Fin 2)) t₀ 0 rfl i
  · exact Window.rect_emb_val_of_index_zero (cfg0.win (1 : Fin 2)) t₀ 1 rfl i

/-- The output array after the run: the one point writes the whole array back, at what the body left. -/
theorem finalA_out (c : Dev nD) : finalA m ρ c (1 : Fin 2) = outFin m ρ c := by
  funext i
  show (dats m ρ 0 c).arrAt (1 : Fin 2) cfg0.N i = outFin m ρ c i
  have hN : cfg0.N = t₀.val + 1 := cfg0_N
  rw [hN, Dat.arrAt_succ, flush0_1 t₀, if_pos rfl]
  have hw := View.write_emb_of_mem (v := ((cfg0.win (1 : Fin 2)).blk t₀).view) (Val := Elt F)
    ((dats m ρ 0 c).arrAt (1 : Fin 2) t₀.val) ((dats m ρ 0 c).flushed (1 : Fin 2) t₀) (M := Finset.univ) (x := i) (Finset.mem_univ _)
  rw [out_blk_emb i] at hw
  rw [hw, cast_eq]
  rfl

/-- What the run's post says of the output: device c's result array ends at the sums. -/
theorem QC_out {r : PUnit × MemSt nD τ sig (Elt F)} (h : QC m ρ r) (c : Dev nD) :
    r.2.mem ((c : Thread nD τ).loc main_v1) = outFin m ρ c :=
  (h c (1 : Fin 2)).trans (finalA_out m ρ c)

/-- and of the input: unchanged. -/
theorem QC_arg {r : PUnit × MemSt nD τ sig (Elt F)} (h : QC m ρ r) (c : Dev nD) :
    r.2.mem ((c : Thread nD τ).loc main_arg0) = m ((c : Thread nD τ).loc main_arg0) :=
  (h c (0 : Fin 2)).trans (finalA_x m ρ c)

end Cert.Kernel.AR

end
-- ==== Proof.Bits.Launch.lean ====
/- The launch: the ghost state minted for the 129 cells of each device, dealt to the devices that pay each duty,
   every cell's invariant allocated under one update, and the run of the whole mesh from each device's body. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Levels
import proofs.«900143_g7700000000000144_dist_ar_v7x_xy2x2_y_m2048_n512_f32_1_alg».proof.Proof.Bits.Final
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem stage_sem_lt : ∀ (w : Fin cfg0.W) (s : Fin (cfg0.spec w).nbuf), ((cfg0.spec w).sem s).val < 2 := by decide

/-- The 128 own semaphores are scoped, pairwise distinct, and none of the two staging semaphores (numbers 0 and 1). -/
theorem ownSemFacts : Pipeline.OwnSemFacts cfg0.spec osem where
  isScoped := by decide
  inj := fun a b h => dS_injective (SemLoc.dma.inj h)
  disj := fun k w s h => by
    have h1 : (dS k).val = ((cfg0.spec w).sem s).val := congrArg Fin.val (SemLoc.dma.inj h)
    have h2 := stage_sem_lt w s
    have h3 : (dS k).val = 2 + 32 * k.1.val + k.2.val := rfl
    omega

theorem share_eq (c : Dev nD) (w : Fin cfg0.W) : (dats m ρ 0 c).share w = fullShare := by unfold Dat.share; split <;> rfl

/-! ## Sums over a device's cells -/

theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext o; cases o <;> simp
  rw [h, BI.bigSep_insert (by simp), BI.bigSep_map]; rfl

theorem bigSep_bool (Φ : Bool → sProp 𝕄) : bigSep Finset.univ Φ = iprop(Φ false ∗ Φ true) :=
  bigSep_univ_eq_bigSepL [false, true] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A sum over the 4 × 32 transfer cells of a device, chunk by chunk. -/
theorem xfer_split (c : Dev nD) (Φ : GSem nD τ sig → sProp 𝕄) :
    bigSep Finset.univ (fun jk : Fin 4 × Fin 32 => Φ (kcell (c, some jk)))
      = bigSep Finset.univ fun k : Fin 32 => iprop(Φ (ysCell c k) ∗ Φ (yrCell c k) ∗ Φ (xsCell c k) ∗ Φ (xrCell c k)) := by
  rw [bigSep_univ_prod, bigSep_univ_comm]
  refine bigSep_congr fun k _ => ?_
  rw [bigSep_fin4, kcell_ys, kcell_yr, kcell_xs, kcell_xr]

/-- A sum over the 129 cells of a device: the barrier cell, then chunk by chunk. -/
theorem cells_split_all (c : Dev nD) (Φ : GSem nD τ sig → sProp 𝕄) :
    bigSep Finset.univ (fun o : Option (Fin 4 × Fin 32) => Φ (kcell (c, o)))
      = iprop(Φ (barCell c) ∗ bigSep Finset.univ fun k : Fin 32 => iprop(Φ (ysCell c k) ∗ Φ (yrCell c k) ∗ Φ (xsCell c k) ∗ Φ (xrCell c k))) := by
  rw [bigSep_option, xfer_split]

/-! ## The cells and the tokens minted -/

def cellsF : Finset (GSem nD τ sig) := Finset.univ.map ⟨kcell, kcell_injective⟩

/-- The duty tokens of a device's own cells: both duties of its barrier cell, the one duty of each transfer cell. -/
abbrev tokOf (cj : Dev nD × (Bool ⊕ (Fin 4 × Fin 32))) : GSem nD τ sig × ℕ × Bool := match cj.2 with
  | .inl b => (barCell cj.1, 0, b)
  | .inr jk => (kcell (cj.1, some jk), 0, false)

theorem tokOf_injective : Function.Injective (tokOf : Dev nD × (Bool ⊕ (Fin 4 × Fin 32)) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl b =>
    cases j' with
    | inl b' =>
      have : b = b' := congrArg (fun x : GSem nD τ sig × ℕ × Bool => x.2.2) h
      rw [this]
    | inr jk' => exact absurd (congrArg (fun x : GSem nD τ sig × ℕ × Bool => x.1.2) h) (fun h' => by cases h')
  | inr jk =>
    cases j' with
    | inl b' => exact absurd (congrArg (fun x : GSem nD τ sig × ℕ × Bool => x.1.2) h) (fun h' => by cases h')
    | inr jk' =>
      have h2 : SemLoc.dma (dS jk) = SemLoc.dma (dS jk') := congrArg (fun x : GSem nD τ sig × ℕ × Bool => x.1.2) h
      rw [dS_injective (SemLoc.dma.inj h2)]

def toksF : Finset (GSem nD τ sig × ℕ × Bool) := Finset.univ.map ⟨tokOf, tokOf_injective⟩

def u₀ : UU :=
  (initOf (Pipeline.cells cfgs cellOf_inj) (Pipeline.launchToks cfgs cellOf_inj), initOf cellsF toksF)

/-- The duty tokens of device c's own cells. -/
def toks (c : Dev nD) : sProp 𝕄 :=
  iprop((dutyTok ER (barCell c) 0 false ∗ dutyTok ER (barCell c) 0 true)
    ∗ bigSep Finset.univ fun jk : Fin 4 × Fin 32 => dutyTok ER (kcell (c, some jk)) 0 false)

/-- What the launch element deals device c: the round state of its 129 cells at counter zero, its position at the
    start of round 0 of each and that round 0 of each is reached, and its own cells' tokens. -/
def G (c : Dev nD) : sProp 𝕄 :=
  iprop((bigSep Finset.univ fun o : Option (Fin 4 × Fin 32) => roundState ER (sched m ρ) (kcell (c, o)) 0)
    ∗ (bigSep Finset.univ fun o : Option (Fin 4 × Fin 32) => iprop(atPos ER (kcell (c, o)) 0 ∅ 0 ∗ reached ER (kcell (c, o)) 0)) ∗ toks c)

/-- What the global step makes of it. -/
def G' (c : Dev nD) : sProp 𝕄 := iprop(∃ K, ghost m ρ K c)

theorem fund_all : BI.own (ER (initOf cellsF toksF)) ⊢ (|==> bigSep Finset.univ (G m ρ) : sProp 𝕄) := by
  have hX (Φ : GSem nD τ sig → sProp 𝕄) :
      bigSep cellsF Φ = bigSep Finset.univ fun c : Dev nD => bigSep Finset.univ fun o : Option (Fin 4 × Fin 32) => Φ (kcell (c, o)) := by
    unfold cellsF; rw [BI.bigSep_map, bigSep_univ_prod]; rfl
  have hT : bigSep toksF (fun x => (dutyTok ER x.1 x.2.1 x.2.2 : sProp 𝕄)) = bigSep Finset.univ fun c : Dev nD => toks c := by
    unfold toksF; rw [BI.bigSep_map, bigSep_univ_prod]
    exact bigSep_congr fun c _ => by unfold toks; rw [bigSep_univ_sum, bigSep_bool]; rfl
  iintro HX
  imod (Rounds.fund ER (sched m ρ) cellsF toksF) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 32 => semVal (kcell (c, some jk)) 0 := rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 4 × Fin 32) => semVal (kcell (c, o)) 0 : sProp 𝕄) := by
  rw [ownSems0_eq, unscopedSems0_eq, bigSep_option]
  iintro ⟨HS, HB⟩
  isplitl [HB]; · iexact HB
  iexact HS

/-- Every cell of device c closed at zero under its invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option (Fin 4 × Fin 32) => iprop(∃ κ : ℕ, cellInv ER (sched m ρ) κ (kcell (c, o))))
          ∗ (bigSep Finset.univ fun o : Option (Fin 4 × Fin 32) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (Fin 4 × Fin 32) => semVal (kcell (c, o)) 0)
        ∗ bigSep Finset.univ fun o : Option (Fin 4 × Fin 32) => roundState ER (sched m ρ) (kcell (c, o)) 0)
      ⊢ (|={Set.univ}=> bigSep Finset.univ fun o : Option (Fin 4 × Fin 32) => iprop(∃ κ : ℕ, cellInv ER (sched m ρ) κ (kcell (c, o))) : sProp 𝕄) from by
        rw [← bigSep_sep']
        exact (bigSep_mono fun o _ => (Rounds.body_intro ER (sched m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the payers; the per-device shape -/

theorem ghost_intro (K : Dev nD × Option (Fin 4 × Fin 32) → ℕ) (c : Dev nD) : iprop(records m ρ K ∗ linear c) ⊢ G' m ρ c := by
  unfold G' ghost
  iintro H; iexists K; iexact H

theorem toks_eq (c : Dev nD) : (toks c : sProp 𝕄)
    = iprop((dutyTok ER (barCell c) 0 false ∗ dutyTok ER (barCell c) 0 true)
        ∗ bigSep Finset.univ fun k : Fin 32 => iprop(dutyTok ER (ysCell c k) 0 false ∗ dutyTok ER (yrCell c k) 0 false
            ∗ dutyTok ER (xsCell c k) 0 false ∗ dutyTok ER (xrCell c k) 0 false)) := by
  unfold toks; rw [xfer_split c (fun g => (dutyTok ER g 0 false : sProp 𝕄))]

/-- A barrier cell's false-token goes to the device whose y-peer owns the cell, its true-token to the one whose x-peer
    does; a y-receive cell's token to the y-peer, an x-receive cell's to the x-peer; the send cells' tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv ypE (fun c : Dev nD => (dutyTok ER (barCell c) 0 false : sProp 𝕄)),
    bigSep_univ_equiv xpE (fun c : Dev nD => (dutyTok ER (barCell c) 0 true : sProp 𝕄)),
    bigSep_univ_equiv ypE (fun c : Dev nD => bigSep Finset.univ fun k : Fin 32 => (dutyTok ER (yrCell c k) 0 false : sProp 𝕄)),
    bigSep_univ_equiv xpE (fun c : Dev nD => bigSep Finset.univ fun k : Fin 32 => (dutyTok ER (xrCell c k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option (Fin 4 × Fin 32) => iprop(∃ κ : ℕ, cellInv ER (sched m ρ) κ (kcell (c, o))))
          ∗ (bigSep Finset.univ fun o : Option (Fin 4 × Fin 32) => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun ck : Dev nD × Option (Fin 4 × Fin 32) => iprop(∃ κ : ℕ, cellInv ER (sched m ρ) κ (kcell ck))),
    bigSep_congr (s := Finset.univ) (fun (c : Dev nD) _ => bigSep_sep' Finset.univ (fun o : Option (Fin 4 × Fin 32) => (atPos ER (kcell (c, o)) 0 ∅ 0 : sProp 𝕄)) (fun o => reached ER (kcell (c, o)) 0)),
    bigSep_sep', ← bigSep_univ_prod (fun ck : Dev nD × Option (Fin 4 × Fin 32) => (reached ER (kcell ck) 0 : sProp 𝕄))]
  iintro ⟨HI, ⟨Hat, #HR⟩, Htok⟩
  ihave HK := (BI.bigSep_exists_pi Finset.univ (fun (ck : Dev nD × Option (Fin 4 × Fin 32)) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun o : Option (Fin 4 × Fin 32) => (atPos ER (kcell (c, o)) 0 ∅ 0 : sProp 𝕄)) payToks).symm).trans
      (bigSep_mono fun c _ => show _ ⊢ linear c from Entails.of_eq (by unfold linear positions; rw [cells_split_all c (fun g => (atPos ER g 0 ∅ 0 : sProp 𝕄))])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) (hcreds : (Pipeline.launchCred O₀ c : sProp 𝕄) ⊢ credits c) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := hcreds $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

/-- After the point the 128 own cells are back at zero and the landing buffer is whole at some contents. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  iintro ⟨Hr, Hz⟩
  isplitr; · iempintro
  isplitl [Hz]; · iexact Hz
  iexists (landed m ρ c); iexact Hr

/-! ## The run -/

set_option maxRecDepth 8000 in
/-- On the mesh of four devices, for any float values, from any memory with every counter at zero: given each device's
    body, every weakly fair execution of the program terminates, and every final state has each device's two arrays at
    the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := fun c => start_intro m ρ c (creds (F := F) c)) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AR.run_main' depends on axioms: [propext, Classical.choice, Quot.sound] -/
#guard_msgs in #print axioms run_main

end Cert.Kernel.AR

end
-- ==== Proof.Bits.Vals.lean ====
/- What the transfers land and what the store writes, index by index: each chunk of 32 rows is one rectangle
   of its buffer, an element under it is the image of a block index, and the contents there are read off the
   closed forms of the rectangles' offsets. -/
import proofs.«900143_g7700000000000144_dist_ar_v7x_xy2x2_y_m2048_n512_f32_1_alg».proof.Proof.Bits.Cells

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a chunk's block indices sit -/

/-- Row of the block under block index j of chunk k of device c's own half. -/
theorem own_emb_row (c : Dev nD) (k : Fin 32) (j : S32x512.Idx) :
    (((rectOwn c k).emb j) 0).val = 1024 * (c.val / 2) + 32 * k.val + (j 0).val := by
  rw [Rect.emb_apply]
  show k0_off1 c (BitVec.ofNat 32 (32 * k.val)) 0 + 1 * (j 0).val = _
  rw [k0_off1_eq c k]
  show 1024 * (c.val / 2) + 32 * k.val + 1 * (j 0).val = _
  omega

theorem own_emb_col (c : Dev nD) (k : Fin 32) (j : S32x512.Idx) :
    (((rectOwn c k).emb j) 1).val = (j 1).val := by
  rw [Rect.emb_apply]
  show k0_off1 c (BitVec.ofNat 32 (32 * k.val)) 1 + 1 * (j 1).val = _
  rw [k0_off1_eq c k]
  show 0 + 1 * (j 1).val = _
  omega

theorem rectOwn'_eq (c : Dev nD) (k : Fin 32) : rectOwn' c k = rectOwn c k :=
  Rect.unit_congr ((k0_off2_eq c k).trans (k0_off1_eq c k).symm) _ _

theorem r_emb_row (k : Fin 32) (j : S32x512.Idx) : (((rectR k).emb j) 0).val = 32 * k.val + (j 0).val := by
  rw [Rect.emb_apply]
  show 32 * k.val + 1 * (j 0).val = _
  omega

theorem r_emb_col (k : Fin 32) (j : S32x512.Idx) : (((rectR k).emb j) 1).val = (j 1).val := by
  rw [Rect.emb_apply]
  show 0 + 1 * (j 1).val = _
  omega

/-- Block index j of chunk k of the landing buffer, moved up to the half of c, is block index j of chunk k of c's own half. -/
theorem upRow_r_emb (c d : Dev nD) (h : d.val / 2 = c.val / 2) (k : Fin 32) (j : S32x512.Idx) :
    upRow d ((rectR k).emb j) = (rectOwn c k).emb j := by
  refine Shape.idx_ext₂ ?_ ?_
  · show 1024 * (d.val / 2) + (((rectR k).emb j) 0).val = (((rectOwn c k).emb j) 0).val
    rw [r_emb_row, own_emb_row, h]; omega
  · show (((rectR k).emb j) 1).val = (((rectOwn c k).emb j) 1).val
    rw [r_emb_col, own_emb_col]

theorem V1 (c : Dev nD) (k : Fin 32) (fd : Buf (Elt F) ((rSl k).view.loc ((yp c : Dev nD) : Thread nD τ))) :
    ((((rSl k).view.loc ((yp c : Dev nD) : Thread nD τ)) ↦[(rSl k).view.set]{fullShare}
        ((rSl k).view.write (Elt F) fd ((xSl c k).view.read (Elt F) (xstg m ρ c)) Finset.univ)) : sProp 𝕄)
      = (((rSl k).view.loc ((yp c : Dev nD) : Thread nD τ)) ↦[(rSl k).view.set]{fullShare} landed m ρ (yp c)) := by
  refine pointsTo_congr fun i hi => ?_
  obtain ⟨j, rfl⟩ := View.exists_emb_of_mem_set _ hi
  rw [View.write_emb_of_mem _ _ (Finset.mem_univ j), View.read_apply, cast_cast, cast_eq]
  show xstg m ρ c ((rectOwn c k).emb j) = xstg m ρ (yp (yp c)) (upRow (yp c) ((rectR k).emb j))
  rw [yp_yp, upRow_r_emb c (yp c) (yp_half c) k j]

/-! ## The halves -/

theorem own_emb_half (c : Dev nD) (k : Fin 32) (j : S32x512.Idx) :
    (((rectOwn c k).emb j) 0).val / 1024 = c.val / 2 := by
  rw [own_emb_row]
  have hk := k.isLt
  have hj : (j 0).val < 32 := (j 0).isLt
  omega

/-- On a row of its own half device c's output ends at the sum it formed, -/
theorem outFin_own (c : Dev nD) (k : Fin 32) (j : S32x512.Idx) :
    outFin m ρ c ((rectOwn c k).emb j) = sumV m ρ c ((rectOwn c k).emb j) := by
  unfold outFin
  rw [if_pos (own_emb_half c k j)]

/-- and there its x-peer's output ends at the same sum: that row is in the x-peer's other half. -/
theorem outFin_peer (c : Dev nD) (k : Fin 32) (j : S32x512.Idx) :
    outFin m ρ (xp c) ((rectOwn c k).emb j) = sumV m ρ c ((rectOwn c k).emb j) := by
  unfold outFin
  rw [if_neg, xp_xp]
  rw [own_emb_half, xp_half]
  have := half_lt c
  omega

theorem V2 (c : Dev nD) (k : Fin 32) (fd : Buf (Elt F) ((oSl c k).view.loc ((xp c : Dev nD) : Thread nD τ))) :
    ((((oSl c k).view.loc ((xp c : Dev nD) : Thread nD τ)) ↦[(oSl c k).view.set]{fullShare}
        ((oSl c k).view.write (Elt F) fd ((oSl c k).view.read (Elt F) (outFin m ρ c)) Finset.univ)) : sProp 𝕄)
      = (((oSl c k).view.loc ((xp c : Dev nD) : Thread nD τ)) ↦[(oSl c k).view.set]{fullShare} outFin m ρ (xp c)) := by
  refine pointsTo_congr fun i hi => ?_
  obtain ⟨j, rfl⟩ := View.exists_emb_of_mem_set _ hi
  rw [View.write_emb_of_mem _ _ (Finset.mem_univ j), View.read_apply, cast_cast, cast_eq]
  show outFin m ρ c ((rectOwn c k).emb j) = outFin m ρ (xp c) ((rectOwn c k).emb j)
  rw [outFin_own, outFin_peer]

/-! ## The store -/

theorem own'_emb_row (c : Dev nD) (k : Fin 32) (j : S32x512.Idx) :
    (((rectOwn' c k).emb j) 0).val = 1024 * (c.val / 2) + 32 * k.val + (j 0).val := by
  rw [Rect.emb_apply]
  show k0_off2 c (BitVec.ofNat 32 (32 * k.val)) 0 + 1 * (j 0).val = _
  rw [k0_off2_eq c k]
  show 1024 * (c.val / 2) + 32 * k.val + 1 * (j 0).val = _
  omega

theorem own'_emb_col (c : Dev nD) (k : Fin 32) (j : S32x512.Idx) :
    (((rectOwn' c k).emb j) 1).val = (j 1).val := by
  rw [Rect.emb_apply]
  show k0_off2 c (BitVec.ofNat 32 (32 * k.val)) 1 + 1 * (j 1).val = _
  rw [k0_off2_eq c k]
  show 0 + 1 * (j 1).val = _
  omega

/-- The two offset chains place a block index at the same element. -/
theorem own'_emb (c : Dev nD) (k : Fin 32) (j : S32x512.Idx) : (rectOwn' c k).emb j = (rectOwn c k).emb j :=
  Shape.idx_ext₂ (by rw [own'_emb_row, own_emb_row]) (by rw [own'_emb_col, own_emb_col])

theorem V3 (c : Dev nD) (k : Fin 32) (f : Buf (Elt F) (oM.view.loc (c : Thread nD τ))) :
    ((((oM.access (rectOwn' c k)).loc (c : Thread nD τ)) ↦[(oSl c k).view.set]{fullShare}
        ((oM.access (rectOwn' c k)).write (Elt F) f
          (addf (shapeCast S32x512 (xM.view.readAt (Elt F) (rectOwn' c k).toLoadRect (xstg m ρ c)) shapeCasts_S32x512_S32x512)
            (rM.view.readAt (Elt F) (rectR k).toLoadRect (landed m ρ c))) Finset.univ)) : sProp 𝕄)
      = (((oM.access (rectOwn' c k)).loc (c : Thread nD τ)) ↦[(oSl c k).view.set]{fullShare} outFin m ρ c) := by
  refine pointsTo_congr fun i hi => ?_
  obtain ⟨j, rfl⟩ := View.exists_emb_of_mem_set _ hi
  have he : (oSl c k).view.emb j = (oM.access (rectOwn' c k)).emb j := (own'_emb c k j).symm
  rw [he, View.write_emb_of_mem _ _ (Finset.mem_univ j), cast_eq,
    shapeCast_self (s := S32x512) (xM.view.readAt (Elt F) (rectOwn' c k).toLoadRect (xstg m ρ c)) shapeCasts_S32x512_S32x512]
  show FloatOps.addf (xM.view.readAt (Elt F) (rectOwn' c k).toLoadRect (xstg m ρ c) j)
      (rM.view.readAt (Elt F) (rectR k).toLoadRect (landed m ρ c) j) = outFin m ρ c ((rectOwn' c k).emb j)
  rw [View.readAt_apply, View.readAt_apply, View.read_apply, View.read_apply, cast_eq, cast_eq]
  show FloatOps.addf (xstg m ρ c ((rectOwn' c k).emb j)) (landed m ρ c ((rectR k).emb j)) = outFin m ρ c ((rectOwn' c k).emb j)
  rw [own'_emb, outFin_own]
  show _ = FloatOps.addf (xstg m ρ c ((rectOwn c k).emb j)) (xstg m ρ (yp c) ((rectOwn c k).emb j))
  unfold landed
  rw [upRow_r_emb c c rfl]

/-! ## The program's payload terms -/

theorem pay_eq (vx vr : Vec F S32x512 .f32) :
    Gen.k0_pay1 vx vr = addf (shapeCast S32x512 vx shapeCasts_S32x512_S32x512) vr := rfl

theorem pay89_eq (vx vr : Vec F S32x512 .f32) :
    Gen.k0_pay9 (Gen.k0_pay8 vx) vr = addf (shapeCast S32x512 vx shapeCasts_S32x512_S32x512) vr := rfl

/-- info: 'Cert.Kernel.AR.V1' depends on axioms: [propext, Classical.choice, Quot.sound] -/
#guard_msgs in #print axioms V1
/-- info: 'Cert.Kernel.AR.V2' depends on axioms: [propext, Classical.choice, Quot.sound] -/
#guard_msgs in #print axioms V2
/-- info: 'Cert.Kernel.AR.V3' depends on axioms: [propext, Classical.choice, Quot.sound] -/
#guard_msgs in #print axioms V3

end Cert.Kernel.AR

end
-- ==== Proof.Bits.Phase1.lean ====
/- The first phase of a device's body, one transfer at a time: chunk a of its own half goes to the y-peer's
   landing buffer, half the chunk's share lent to the transfer. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Data
import proofs.«900143_g7700000000000144_dist_ar_v7x_xy2x2_y_m2048_n512_f32_1_alg».proof.Proof.Bits.Vals
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks from a on, chunks below a -/

abbrev GE (a : ℕ) : Finset (Fin 32) := Finset.univ.filter (fun k : Fin 32 => a ≤ k.val)
abbrev LT (a : ℕ) : Finset (Fin 32) := Finset.univ.filter (fun k : Fin 32 => k.val < a)

theorem filter_lt_succ (a : Fin 32) :
    Finset.univ.filter (fun k : Fin 32 => k.val < a.val + 1) = insert a (Finset.univ.filter (fun k : Fin 32 => k.val < a.val)) := by
  ext k
  simp only [Finset.mem_filter, Finset.mem_univ, true_and, Finset.mem_insert, Fin.ext_iff]
  omega

omit [FloatOps F] in
theorem GE_peel (a : Fin 32) (Φ : Fin 32 → sProp 𝕄) : bigSep (GE a.val) Φ = iprop(Φ a ∗ bigSep (GE (a.val + 1)) Φ) := by
  show bigSep (Finset.univ.filter _) Φ = _
  rw [filter_ge_succ a, bigSep_insert (by simp only [Finset.mem_filter, Finset.mem_univ, true_and]; omega)]
  rfl
omit [FloatOps F] in
theorem LT_push (a : Fin 32) (Φ : Fin 32 → sProp 𝕄) : bigSep (LT (a.val + 1)) Φ = iprop(Φ a ∗ bigSep (LT a.val) Φ) := by
  show bigSep (Finset.univ.filter _) Φ = _
  rw [filter_lt_succ a, bigSep_insert (by simp only [Finset.mem_filter, Finset.mem_univ, true_and]; omega)]
  rfl
theorem GE_zero : GE 0 = Finset.univ := Finset.filter_true_of_mem fun _ _ => Nat.zero_le _
theorem LT_zero : LT 0 = ∅ := Finset.filter_eq_empty_iff.mpr fun _ _ => Nat.not_lt_zero _
theorem GE_top : GE 32 = ∅ := Finset.filter_eq_empty_iff.mpr fun k _ => by have := k.isLt; omega
theorem LT_top : LT 32 = Finset.univ := Finset.filter_true_of_mem fun k _ => k.isLt

/-! ## The records, cell by cell -/

theorem rec_inv (K : Dev nD × Option (Fin 4 × Fin 32) → ℕ) (ck : Dev nD × Option (Fin 4 × Fin 32)) :
    records m ρ K ⊢ cellInv ER (sched m ρ) (K ck) (kcell ck) := by
  unfold records; iintro ⟨H, -⟩
  iapply (show (bigSep Finset.univ fun ck : Dev nD × Option (Fin 4 × Fin 32) => cellInv ER (sched m ρ) (K ck) (kcell ck) : sProp 𝕄)
    ⊢ cellInv ER (sched m ρ) (K ck) (kcell ck) from bigSep_elim (Finset.mem_univ ck))
  iexact H
theorem rec_reached (K : Dev nD × Option (Fin 4 × Fin 32) → ℕ) (ck : Dev nD × Option (Fin 4 × Fin 32)) :
    records m ρ K ⊢ reached ER (kcell ck) 0 := by
  unfold records; iintro ⟨-, H⟩
  iapply (show (bigSep Finset.univ fun ck : Dev nD × Option (Fin 4 × Fin 32) => (reached ER (kcell ck) 0 : sProp 𝕄))
    ⊢ reached ER (kcell ck) 0 from bigSep_elim (Finset.mem_univ ck))
  iexact H

/-! ## Phase 1 -/

/-- Before the y-transfer of chunk a: the chunks from a on whole with their landing places and tokens; the
    chunks below a at the half share kept, with the send credit. -/
def I1 (c : Dev nD) (W : Waits sig Unit) (a : ℕ) : sProp 𝕄 :=
  iprop(owes (c : Thread nD τ) (owedX c 0 + owedY c a) W
    ∗ bigSep (GE a) (fun k => iprop(
         (((xSl c k).view.loc (c : Thread nD τ)) ↦[(xSl c k).view.set]{fullShare} xstg m ρ c)
         ∗ (∃ f, ((rSl k).view.loc ((yp c : Dev nD) : Thread nD τ)) ↦[(rSl k).view.set]{fullShare} f)
         ∗ dutyTok ER (ysCell c k) 0 false ∗ dutyTok ER (yrCell (yp c) k) 0 false))
    ∗ bigSep (LT a) (fun k => iprop(
         (((xSl c k).view.loc (c : Thread nD τ)) ↦[(xSl c k).view.set]{fullShare.right} xstg m ρ c)
         ∗ cred (tallyAt (ysCell c k) () NC))))

theorem y_step (K : Dev nD × Option (Fin 4 × Fin 32) → ℕ) (c n : Dev nD) (hn : n = yp c) (a : Fin 32) (W : Waits sig Unit)
    {hsc : (rSl a : Memref sig (Dev.tc n : Thread nD τ).2.kind .vmem S32x512 .f32).view.ref.isScScratch = false}
    {hsrc : (xSl c a : Memref sig .tc .vmem S32x512 .f32).view.WordExact} {hdst : (rSl a : Memref sig .tc .vmem S32x512 .f32).view.WordExact}
    {hsem : DmaTarget.Typed .vmem (.dma (yrS a)) (.remote (Dev.tc n : Thread nD τ) (rSl a : Memref sig .tc .vmem S32x512 .f32) (.dma (ysS a)) hsc)}
    {α : Type} {Q : α → sProp 𝕄} {kk : PUnit → Prog (TpuEff nD τ sig (Elt F) Λ₀ .tc) α} :
    iprop(records m ρ K ∗ I1 m ρ c W a.val)
      ⊢ iprop((I1 m ρ c W (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xSl c a) (.remote (Dev.tc n : Thread nD τ) (rSl a) (.dma (ysS a)) hsc) (.dma (yrS a)) hsrc hdst hsem) kk) Q) := by
  subst hn
  unfold I1
  rw [GE_peel a, LT_push a, owedY_peel c a]
  iintro ⟨#Hrec, HO, ⟨⟨Hx, ⟨%fn, Hr⟩, Hts, Htr⟩, Hge⟩, Hlt⟩ Hk
  ihave Hx2 := (pointsTo_share (PosShare.mem_left_op_right fullShare)).1 $$ Hx
  icases Hx2 with ⟨HxL, HxR⟩
  ihave #Hi1 := ((rec_inv m ρ K (c, some (0, a))).trans (Entails.of_eq (by rw [kcell_ys]))) $$ Hrec
  ihave #Hi2 := ((rec_inv m ρ K (yp c, some (1, a))).trans (Entails.of_eq (by rw [kcell_yr]))) $$ Hrec
  ihave #Hr1 := ((rec_reached m ρ K (c, some (0, a))).trans (Entails.of_eq (by rw [kcell_ys]))) $$ Hrec
  ihave #Hr2 := ((rec_reached m ρ K (yp c, some (1, a))).trans (Entails.of_eq (by rw [kcell_yr]))) $$ Hrec
  iapply (Rounds.wp_send_pointsTo 𝒱₀ ER (sched m ρ) (c : Thread nD τ) none (κ₁ := K (c, some (0, a))) (κ₂ := K (yp c, some (1, a)))
      (r₁ := 0) (r₂ := 0) (d₁ := false) (d₂ := false) (q := fullShare.left) (fs := xstg m ρ c) (fd := fn)
      (by rw [duties_ys]; exact Finset.mem_singleton_self _) (by rw [duties_yr]; exact Finset.mem_singleton_self _)
      () () NC rfl (amount_ys m ρ c a false) (amount_yr m ρ (yp c) a false) (owedX c 0 + owedY c (a.val + 1)) (add_assoc _ _ _).symm (W := W)
      (by rw [payload_ys]; exact BI.Entails.refl _)
      (by rw [payload_yr]; unfold yrPay; rw [V1])) $$ [HO HxL Hr Hts Htr]
  · isplitr; · iexact Hi1
    isplitr; · iexact Hi2
    isplitl [HxL]; · iexact HxL
    isplitl [Hr]; · iexact Hr
    isplitl [HO]; · iexact HO
    isplitl [Hts]; · iexact Hts
    isplitr; · iexact Hr1
    isplitl [Htr]; · iexact Htr
    iexact Hr2
  iintro ⟨Hc, HO⟩
  iapply Hk
  isplitl [HO]; · iexact HO
  isplitl [Hge]; · iexact Hge
  isplitl [HxR Hc]
  · isplitl [HxR]; · iexact HxR
    iexact Hc
  iexact Hlt

end Cert.Kernel.AR

end
-- ==== Proof.Bits.Inv.lean ====
/- What a device holds between the iterations of the second and third phases of its body. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Phase1
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before iteration a of the second phase (wait for the y-peer's chunk a, add, store, send to the x-peer): from a
    on, the receive credit and position, the output chunk here and at the x-peer, the two tokens; below a, the
    landed chunk, its cell closed, the x-send credit; throughout, the kept half share of every input chunk. -/
def I2 (c : Dev nD) (a : ℕ) : sProp 𝕄 :=
  iprop((∃ W, owes (c : Thread nD τ) (owedX c a) W)
    ∗ bigSep (GE a) (fun k => iprop(
        cred (tallyAt (yrCell c k) () NC) ∗ atPos ER (yrCell c k) 0 ∅ 0
        ∗ (∃ f, ((oSl c k).view.loc (c : Thread nD τ)) ↦[(oSl c k).view.set]{fullShare} f)
        ∗ (∃ f, ((oSl c k).view.loc ((xp c : Dev nD) : Thread nD τ)) ↦[(oSl c k).view.set]{fullShare} f)
        ∗ dutyTok ER (xsCell c k) 0 false ∗ dutyTok ER (xrCell (xp c) k) 0 false))
    ∗ bigSep (LT a) (fun k => iprop(
        yrPay m ρ c k ∗ semVal (yrCell c k) 0 ∗ cred (tallyAt (xsCell c k) () NC)))
    ∗ bigSep Finset.univ (fun k : Fin 32 =>
        ((xSl c k).view.loc (c : Thread nD τ)) ↦[(xSl c k).view.set]{fullShare.right} xstg m ρ c))

/-- Before iteration a of the third phase (the waits for chunk a's x-arrival and for both sends): from a on, the
    three credits and positions; below a, the three payloads with their cells closed. -/
def I3 (c : Dev nD) (a : ℕ) : sProp 𝕄 :=
  iprop((∃ W, owes (c : Thread nD τ) 0 W)
    ∗ bigSep (GE a) (fun k => iprop(
        cred (tallyAt (xrCell c k) () NC) ∗ atPos ER (xrCell c k) 0 ∅ 0
        ∗ cred (tallyAt (ysCell c k) () NC) ∗ atPos ER (ysCell c k) 0 ∅ 0
        ∗ cred (tallyAt (xsCell c k) () NC) ∗ atPos ER (xsCell c k) 0 ∅ 0))
    ∗ bigSep (LT a) (fun k => iprop(
        xrPay m ρ c k ∗ semVal (xrCell c k) 0 ∗ ysPay m ρ c k ∗ semVal (ysCell c k) 0 ∗ xsPay m ρ c k ∗ semVal (xsCell c k) 0)))

end Cert.Kernel.AR

end
-- ==== Proof.Bits.Geom.lean ====
/- The geometry of the row chunks of the all-reduce on the 2 × 2 mesh. A buffer of 2048 rows is cut into two halves of
   1024 rows; half h is cut into 32 chunks of 32 rows, chunk k of half h being rows 1024 h + 32 k onward, all 512
   columns. The 64 chunks are pairwise disjoint and cover the buffer; likewise the 32 chunks of the 1024-row landing
   buffer. A points-to of a whole buffer is therefore the separating conjunction of the points-tos of its chunks. -/
import proofs.«900143_g7700000000000144_dist_ar_v7x_xy2x2_y_m2048_n512_f32_1_alg».proof.Proof.Bits.Cells

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Membership in a chunk: a condition on the row coordinate alone -/

/-- An element lies in chunk k of device c's half exactly when its row lies in [1024 (c / 2) + 32 k, + 32). -/
theorem mem_rectOwn (c : Dev nD) (k : Fin 32) (i : S2048x512.Idx) :
    i ∈ (rectOwn c k).set ↔
      1024 * (c.val / 2) + 32 * k.val ≤ (i 0).val ∧ (i 0).val < 1024 * (c.val / 2) + 32 * k.val + 32 := by
  rw [Rect.mem_set_unit, Gen.k0_off1_eq]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-- The same rows through the second offset chain. -/
theorem mem_rectOwn' (c : Dev nD) (k : Fin 32) (i : S2048x512.Idx) :
    i ∈ (rectOwn' c k).set ↔
      1024 * (c.val / 2) + 32 * k.val ≤ (i 0).val ∧ (i 0).val < 1024 * (c.val / 2) + 32 * k.val + 32 := by
  rw [Rect.mem_set_unit, Gen.k0_off2_eq]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-- The two offset chains name the same elements. -/
theorem rectOwn'_set (c : Dev nD) (k : Fin 32) : (rectOwn' c k).set = (rectOwn c k).set := by
  ext i; rw [mem_rectOwn', mem_rectOwn]

/-- An element of the landing buffer lies in chunk k exactly when its row lies in [32 k, 32 k + 32). -/
theorem mem_rectR (k : Fin 32) (i : S1024x512.Idx) :
    i ∈ (rectR k).set ↔ 32 * k.val ≤ (i 0).val ∧ (i 0).val < 32 * k.val + 32 := by
  rw [Rect.mem_set_unit]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

/-! ## Disjointness and cover, on the row coordinate -/

/-- Chunks of different halves, or different chunks of one half, share no element. -/
theorem rectOwn_disjoint (c c' : Dev nD) (k k' : Fin 32) (h : c.val / 2 ≠ c'.val / 2 ∨ k ≠ k') :
    Disjoint (rectOwn c k).set (rectOwn c' k').set := by
  rw [Finset.disjoint_left]
  intro i h1 h2
  rw [mem_rectOwn] at h1 h2
  have := k.isLt; have := k'.isLt; have := half_lt c; have := half_lt c'
  rcases h with h | h
  · omega
  · have : k.val ≠ k'.val := fun e => h (Fin.ext e)
    omega

/-- Every element lies in a chunk of c's half or in a chunk of the other half, which is the x-peer's. -/
theorem rectOwn_cover (c : Dev nD) (i : S2048x512.Idx) :
    (∃ k : Fin 32, i ∈ (rectOwn c k).set) ∨ (∃ k : Fin 32, i ∈ (rectOwn (xp c) k).set) := by
  have hi : (i 0).val < 2048 := (i 0).isLt
  have hc := half_lt c
  have hx := xp_half c
  by_cases h : (i 0).val / 1024 = c.val / 2
  · left
    refine ⟨⟨((i 0).val % 1024) / 32, by omega⟩, ?_⟩
    rw [mem_rectOwn]
    show 1024 * (c.val / 2) + 32 * (((i 0).val % 1024) / 32) ≤ (i 0).val
      ∧ (i 0).val < 1024 * (c.val / 2) + 32 * (((i 0).val % 1024) / 32) + 32
    omega
  · right
    refine ⟨⟨((i 0).val % 1024) / 32, by omega⟩, ?_⟩
    rw [mem_rectOwn, hx]
    show 1024 * (1 - c.val / 2) + 32 * (((i 0).val % 1024) / 32) ≤ (i 0).val
      ∧ (i 0).val < 1024 * (1 - c.val / 2) + 32 * (((i 0).val % 1024) / 32) + 32
    omega

/-- Different chunks of the landing buffer share no element. -/
theorem rectR_disjoint (k k' : Fin 32) (h : k ≠ k') : Disjoint (rectR k).set (rectR k').set := by
  rw [Finset.disjoint_left]
  intro i h1 h2
  rw [mem_rectR] at h1 h2
  have : k.val ≠ k'.val := fun e => h (Fin.ext e)
  omega

/-- Every element of the landing buffer lies in a chunk. -/
theorem rectR_cover (i : S1024x512.Idx) : ∃ k : Fin 32, i ∈ (rectR k).set := by
  have hi : (i 0).val < 1024 := (i 0).isLt
  refine ⟨⟨(i 0).val / 32, by omega⟩, ?_⟩
  rw [mem_rectR]
  show 32 * ((i 0).val / 32) ≤ (i 0).val ∧ (i 0).val < 32 * ((i 0).val / 32) + 32
  omega

/-! ## A buffer's points-to as the conjunction of its chunks' -/

section Rows

variable {sp : Space} {e : EltTy}

/-- Chunk k of half c / 2 of a 2048-row memref, as elements of the memref's buffer. -/
abbrev chunk (M : Memref sig .tc sp S2048x512 e) (c : Dev nD) (k : Fin 32) : Finset M.view.ty.Idx :=
  (M.view.slice (rectOwn c k)).set

/-- Chunk k of a 1024-row memref, as elements of the memref's buffer. -/
abbrev chunkR (M : Memref sig .tc sp S1024x512 e) (k : Fin 32) : Finset M.view.ty.Idx :=
  (M.view.slice (rectR k)).set

theorem chunk_eq (M : Memref sig .tc sp S2048x512 e) (c : Dev nD) (k : Fin 32) :
    chunk M c k = (rectOwn c k).set.map M.view.emb := View.set_slice _ _

theorem chunkR_eq (M : Memref sig .tc sp S1024x512 e) (k : Fin 32) :
    chunkR M k = (rectR k).set.map M.view.emb := View.set_slice _ _

/-- Chunks of a 2048-row memref are disjoint when their rectangles are. -/
theorem chunk_disjoint (M : Memref sig .tc sp S2048x512 e) (c c' : Dev nD) (k k' : Fin 32)
    (h : c.val / 2 ≠ c'.val / 2 ∨ k ≠ k') : Disjoint (chunk M c k) (chunk M c' k') := by
  rw [chunk_eq, chunk_eq]
  exact (Finset.disjoint_map _).mpr (rectOwn_disjoint c c' k k' h)

theorem chunkR_disjoint (M : Memref sig .tc sp S1024x512 e) (k k' : Fin 32) (h : k ≠ k') :
    Disjoint (chunkR M k) (chunkR M k') := by
  rw [chunkR_eq, chunkR_eq]
  exact (Finset.disjoint_map _).mpr (rectR_disjoint k k' h)

/-- The elements of a 2048-row memref are those of the 32 chunks of c's half and those of the 32 chunks of the other. -/
theorem set_eq_rows2048 (M : Memref sig .tc sp S2048x512 e) (c : Dev nD) :
    M.view.set = (Finset.univ.biUnion fun k : Fin 32 => chunk M c k)
      ∪ (Finset.univ.biUnion fun k : Fin 32 => chunk M (xp c) k) := by
  ext j
  constructor
  · intro hj
    rw [View.set, Finset.mem_map] at hj
    obtain ⟨i, -, rfl⟩ := hj
    rcases rectOwn_cover c i with ⟨k, hk⟩ | ⟨k, hk⟩
    · exact Finset.mem_union_left _ (Finset.mem_biUnion.mpr ⟨k, Finset.mem_univ _, by
        rw [chunk_eq]; exact Finset.mem_map_of_mem _ hk⟩)
    · exact Finset.mem_union_right _ (Finset.mem_biUnion.mpr ⟨k, Finset.mem_univ _, by
        rw [chunk_eq]; exact Finset.mem_map_of_mem _ hk⟩)
  · intro hj
    rcases Finset.mem_union.mp hj with hj | hj
    · obtain ⟨k, -, hj⟩ := Finset.mem_biUnion.mp hj
      exact View.set_slice_subset _ _ hj
    · obtain ⟨k, -, hj⟩ := Finset.mem_biUnion.mp hj
      exact View.set_slice_subset _ _ hj

/-- The elements of a 1024-row memref are those of its 32 chunks. -/
theorem set_eq_rows1024 (M : Memref sig .tc sp S1024x512 e) :
    M.view.set = Finset.univ.biUnion fun k : Fin 32 => chunkR M k := by
  ext j
  constructor
  · intro hj
    rw [View.set, Finset.mem_map] at hj
    obtain ⟨i, -, rfl⟩ := hj
    obtain ⟨k, hk⟩ := rectR_cover i
    exact Finset.mem_biUnion.mpr ⟨k, Finset.mem_univ _, by
      rw [chunkR_eq]; exact Finset.mem_map_of_mem _ hk⟩
  · intro hj
    obtain ⟨k, -, hj⟩ := Finset.mem_biUnion.mp hj
    exact View.set_slice_subset _ _ hj

/-- A 2048-row memref's points-to, at any share, is its 64 chunks' points-tos: the 32 of c's half and the 32 of the
    other half. -/
theorem rows2048 (M : Memref sig .tc sp S2048x512 e) (d c : Dev nD) (q : PosShare TreeShare)
    (f : Buf (Elt F) (M.view.loc (d : Thread nD τ))) :
    (M.view.loc (d : Thread nD τ) ↦[M.view.set]{q} f : sProp 𝕄) =
      iprop((bigSep Finset.univ fun k : Fin 32 => M.view.loc (d : Thread nD τ) ↦[chunk M c k]{q} f)
        ∗ (bigSep Finset.univ fun k : Fin 32 => M.view.loc (d : Thread nD τ) ↦[chunk M (xp c) k]{q} f)) := by
  have hd : Disjoint (Finset.univ.biUnion fun k : Fin 32 => chunk M c k)
      (Finset.univ.biUnion fun k : Fin 32 => chunk M (xp c) k) := by
    rw [Finset.disjoint_biUnion_left]; intro k _
    rw [Finset.disjoint_biUnion_right]; intro k' _
    exact chunk_disjoint M c (xp c) k k' (Or.inl (by rw [xp_half]; have := half_lt c; omega))
  have hu : (M.view.loc (d : Thread nD τ) ↦[(Finset.univ.biUnion fun k : Fin 32 => chunk M c k)
        ∪ (Finset.univ.biUnion fun k : Fin 32 => chunk M (xp c) k)]{q} f : sProp 𝕄)
      ⊣⊢ iprop((M.view.loc (d : Thread nD τ) ↦[Finset.univ.biUnion fun k : Fin 32 => chunk M c k]{q} f)
        ∗ M.view.loc (d : Thread nD τ) ↦[Finset.univ.biUnion fun k : Fin 32 => chunk M (xp c) k]{q} f) :=
    pointsTo_union hd
  rw [set_eq_rows2048 M c, BI.equiv_iff.mp ⟨hu.1, hu.2⟩,
    pointsTo_biUnion _ _ (fun k _ k' _ hk => chunk_disjoint M c c k k' (Or.inr hk)),
    pointsTo_biUnion _ _ (fun k _ k' _ hk => chunk_disjoint M (xp c) (xp c) k k' (Or.inr hk))]

/-- A 1024-row memref's points-to, at any share, is its 32 chunks' points-tos. -/
theorem rows1024 (M : Memref sig .tc sp S1024x512 e) (d : Dev nD) (q : PosShare TreeShare)
    (f : Buf (Elt F) (M.view.loc (d : Thread nD τ))) :
    (M.view.loc (d : Thread nD τ) ↦[M.view.set]{q} f : sProp 𝕄) =
      bigSep Finset.univ fun k : Fin 32 => M.view.loc (d : Thread nD τ) ↦[chunkR M k]{q} f := by
  rw [set_eq_rows1024 M]
  exact pointsTo_biUnion _ _ fun k _ k' _ hk => chunkR_disjoint M k k' hk

end Rows

/-! ## What a load and a store of a chunk touch -/

section Access

variable {sp : Space} {e : EltTy}

/-- A load of chunk (c, k) through the second offset chain reads exactly the chunk's elements, -/
theorem setOn_rectOwn'_eq (M : Memref sig .tc sp S2048x512 e) (c : Dev nD) (k : Fin 32) :
    M.view.setOn (rectOwn' c k).toLoadRect.set = chunk M c k := by
  have h : M.view.setOn (rectOwn' c k).toLoadRect.set = (rectOwn' c k).set.map M.view.emb := rfl
  rw [h, rectOwn'_set, chunk_eq]

/-- an unmasked store of it writes exactly those, -/
theorem access_rectOwn'_eq (M : Memref sig .tc sp S2048x512 e) (c : Dev nD) (k : Fin 32) :
    (M.access (rectOwn' c k)).setOn Finset.univ = chunk M c k := by
  rw [View.setOn_univ, View.set_slice, rectOwn'_set, chunk_eq]

/-- and a load of chunk k of a 1024-row memref reads exactly that chunk's. -/
theorem setOn_rectR_eq (M : Memref sig .tc sp S1024x512 e) (k : Fin 32) :
    M.view.setOn (rectR k).toLoadRect.set = chunkR M k := by
  have h : M.view.setOn (rectR k).toLoadRect.set = (rectR k).set.map M.view.emb := rfl
  rw [h, chunkR_eq]

end Access

/-! ## The three buffers -/

/-- A chunk's slice of each buffer has the rectangle's elements, placed by the whole buffer's embedding. -/
theorem xSl_set (c : Dev nD) (k : Fin 32) : (xSl c k).view.set = (rectOwn c k).set.map xM.view.emb := View.set_slice _ _
theorem oSl_set (c : Dev nD) (k : Fin 32) : (oSl c k).view.set = (rectOwn c k).set.map oM.view.emb := View.set_slice _ _
theorem rSl_set (k : Fin 32) : (rSl k).view.set = (rectR k).set.map rM.view.emb := View.set_slice _ _

/-- The output staging buffer is the 32 chunks of c's half and the 32 chunks of its x-peer's half. -/
theorem out_chunks (d c : Dev nD) (f : Buf (Elt F) (oM.view.loc (d : Thread nD τ))) :
    ((oM.view.loc (d : Thread nD τ)) ↦[oM.view.set]{fullShare} f : sProp 𝕄) ⊣⊢
      iprop((bigSep Finset.univ fun k : Fin 32 =>
            ((oSl c k).view.loc (d : Thread nD τ)) ↦[(oSl c k).view.set]{fullShare} f)
        ∗ (bigSep Finset.univ fun k : Fin 32 =>
            ((oSl (xp c) k).view.loc (d : Thread nD τ)) ↦[(oSl (xp c) k).view.set]{fullShare} f)) :=
  BIBase.BiEntails.of_eq (rows2048 oM d c fullShare f)

/-- The same as an equation, at any share. -/
theorem out_chunks_eq (d c : Dev nD) (q : PosShare TreeShare) (f : Buf (Elt F) (oM.view.loc (d : Thread nD τ))) :
    ((oM.view.loc (d : Thread nD τ)) ↦[oM.view.set]{q} f : sProp 𝕄) =
      iprop((bigSep Finset.univ fun k : Fin 32 =>
            ((oSl c k).view.loc (d : Thread nD τ)) ↦[(oSl c k).view.set]{q} f)
        ∗ (bigSep Finset.univ fun k : Fin 32 =>
            ((oSl (xp c) k).view.loc (d : Thread nD τ)) ↦[(oSl (xp c) k).view.set]{q} f)) :=
  rows2048 oM d c q f

/-- The landing buffer, at any share, is its 32 chunks. -/
theorem land_chunks (d : Dev nD) (q : PosShare TreeShare) (f : Buf (Elt F) (rM.view.loc (d : Thread nD τ))) :
    ((rM.view.loc (d : Thread nD τ)) ↦[rM.view.set]{q} f : sProp 𝕄) ⊣⊢
      bigSep Finset.univ fun k : Fin 32 => ((rSl k).view.loc (d : Thread nD τ)) ↦[(rSl k).view.set]{q} f :=
  BIBase.BiEntails.of_eq (rows1024 rM d q f)

theorem land_chunks_eq (d : Dev nD) (q : PosShare TreeShare) (f : Buf (Elt F) (rM.view.loc (d : Thread nD τ))) :
    ((rM.view.loc (d : Thread nD τ)) ↦[rM.view.set]{q} f : sProp 𝕄) =
      bigSep Finset.univ fun k : Fin 32 => ((rSl k).view.loc (d : Thread nD τ)) ↦[(rSl k).view.set]{q} f :=
  rows1024 rM d q f

/-- The input block, at any share, is the 32 chunks of c's half and the 32 chunks of its x-peer's half. -/
theorem in_chunks (d c : Dev nD) (q : PosShare TreeShare) (f : Buf (Elt F) (xM.view.loc (d : Thread nD τ))) :
    ((xM.view.loc (d : Thread nD τ)) ↦[xM.view.set]{q} f : sProp 𝕄) ⊣⊢
      iprop((bigSep Finset.univ fun k : Fin 32 =>
            ((xSl c k).view.loc (d : Thread nD τ)) ↦[(xSl c k).view.set]{q} f)
        ∗ (bigSep Finset.univ fun k : Fin 32 =>
            ((xSl (xp c) k).view.loc (d : Thread nD τ)) ↦[(xSl (xp c) k).view.set]{q} f)) :=
  BIBase.BiEntails.of_eq (rows2048 xM d c q f)

theorem in_chunks_eq (d c : Dev nD) (q : PosShare TreeShare) (f : Buf (Elt F) (xM.view.loc (d : Thread nD τ))) :
    ((xM.view.loc (d : Thread nD τ)) ↦[xM.view.set]{q} f : sProp 𝕄) =
      iprop((bigSep Finset.univ fun k : Fin 32 =>
            ((xSl c k).view.loc (d : Thread nD τ)) ↦[(xSl c k).view.set]{q} f)
        ∗ (bigSep Finset.univ fun k : Fin 32 =>
            ((xSl (xp c) k).view.loc (d : Thread nD τ)) ↦[(xSl (xp c) k).view.set]{q} f)) :=
  rows2048 xM d c q f

/-! ## The inclusions the load and store rules ask for, each an equality -/

theorem x_load_eq (c : Dev nD) (k : Fin 32) :
    xM.view.setOn (rectOwn' c k).toLoadRect.set = (xSl c k).view.set := setOn_rectOwn'_eq xM c k
theorem x_load_sub (c : Dev nD) (k : Fin 32) :
    xM.view.setOn (rectOwn' c k).toLoadRect.set ⊆ (xSl c k).view.set := (x_load_eq c k).subset

theorem o_load_eq (c : Dev nD) (k : Fin 32) :
    oM.view.setOn (rectOwn' c k).toLoadRect.set = (oSl c k).view.set := setOn_rectOwn'_eq oM c k
theorem o_load_sub (c : Dev nD) (k : Fin 32) :
    oM.view.setOn (rectOwn' c k).toLoadRect.set ⊆ (oSl c k).view.set := (o_load_eq c k).subset

theorem r_load_eq (k : Fin 32) :
    rM.view.setOn (rectR k).toLoadRect.set = (rSl k).view.set := setOn_rectR_eq rM k
theorem r_load_sub (k : Fin 32) :
    rM.view.setOn (rectR k).toLoadRect.set ⊆ (rSl k).view.set := (r_load_eq k).subset

theorem o_store_eq (c : Dev nD) (k : Fin 32) :
    (oM.access (rectOwn' c k)).setOn Finset.univ = (oSl c k).view.set := access_rectOwn'_eq oM c k
theorem o_store_sub (c : Dev nD) (k : Fin 32) :
    (oM.access (rectOwn' c k)).setOn Finset.univ ⊆ (oSl c k).view.set := (o_store_eq c k).subset

/-- info: 'Cert.Kernel.AR.out_chunks' depends on axioms: [propext, Classical.choice, Quot.sound] -/
#guard_msgs in #print axioms out_chunks

end Cert.Kernel.AR

end
-- ==== Proof.Bits.Entry.lean ====
/- The entry of a device's body — the two signals that hand each peer the part of this device's buffers it will
   write, and the wait for the peers' — and the regroupings between the three phases. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Inv
import proofs.«900143_g7700000000000144_dist_ar_v7x_xy2x2_y_m2048_n512_f32_1_alg».proof.Proof.Bits.Geom
import proofs.«900143_g7700000000000144_dist_ar_v7x_xy2x2_y_m2048_n512_f32_1_alg».proof.Proof.Bits.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the second and third phases and the end need beside the first phase's invariant. -/
def Rest1 (c : Dev nD) : sProp 𝕄 :=
  iprop((bigSep Finset.univ fun k : Fin 32 => iprop(
        cred (tallyAt (yrCell c k) () NC) ∗ atPos ER (yrCell c k) 0 ∅ 0
        ∗ (∃ f, ((oSl c k).view.loc (c : Thread nD τ)) ↦[(oSl c k).view.set]{fullShare} f)
        ∗ (∃ f, ((oSl c k).view.loc ((xp c : Dev nD) : Thread nD τ)) ↦[(oSl c k).view.set]{fullShare} f)
        ∗ dutyTok ER (xsCell c k) 0 false ∗ dutyTok ER (xrCell (xp c) k) 0 false))
    ∗ (bigSep Finset.univ fun k : Fin 32 => iprop(
        cred (tallyAt (xrCell c k) () NC) ∗ atPos ER (xrCell c k) 0 ∅ 0 ∗ atPos ER (ysCell c k) 0 ∅ 0 ∗ atPos ER (xsCell c k) 0 ∅ 0))
    ∗ (bigSep Finset.univ fun k : Fin 32 =>
        ((xSl (xp c) k).view.loc (c : Thread nD τ)) ↦[(xSl (xp c) k).view.set]{fullShare} xstg m ρ c))

/-- After the entry: the records, the levels, the first phase's invariant at chunk 0, and the rest. -/
def Mid (c : Dev nD) : sProp 𝕄 :=
  iprop(∃ K, records m ρ K ∗ levAts L lv ∗ (∃ W, I1 m ρ c W 0) ∗ Rest1 m ρ c)

theorem ex_chunk {ℓ : Loc nD τ sig} (S : Finset (Idx ℓ)) (f : Buf (Elt F) ℓ) :
    (ℓ ↦[S]{fullShare} f : sProp 𝕄) ⊢ iprop(∃ f, ℓ ↦[S]{fullShare} f) := by
  iintro H; iexists f; iexact H

theorem ex_chunks {ℓ : Loc nD τ sig} (S : Fin 32 → Finset (Idx ℓ)) (f : Buf (Elt F) ℓ) :
    (bigSep Finset.univ fun k : Fin 32 => (ℓ ↦[S k]{fullShare} f : sProp 𝕄))
      ⊢ bigSep Finset.univ fun k : Fin 32 => iprop(∃ f, ℓ ↦[S k]{fullShare} f) :=
  bigSep_mono fun k _ => ex_chunk _ f

theorem fetch_0 (t : Fin cfg0.N) : (cfg0.win (0 : Fin 2)).fetch t = true := by rw [fin_N t]; rfl

theorem entry (c n1 n2 : Dev nD) (hn1 : n1 = yp c) (hn2 : n2 = xp c)
    {α : Type} {Q : α → sProp 𝕄} {kk : PUnit → Prog (TpuEff nD τ sig (Elt F) Λ₀ .tc) α} :
    bodyPre m ρ c
      ⊢ iprop((Mid m ρ c -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal ((n1 : Dev nD) : Thread nD τ) barS (1#32).toNat) fun _ =>
               .op (.semSignal ((n2 : Dev nD) : Thread nD τ) barS (1#32).toNat) fun _ =>
               .op (.semWait barS (2#32).toNat) kk) Q) := by
  subst hn1; subst hn2
  unfold bodyPre Φ₀ start ghost linear positions payToks credits
  iintro ⟨⟨⟨⟨%K, #Hrec, ⟨HatB, Hat⟩, ⟨HtBy, HtBx, Htoks⟩⟩, ⟨HcB, Hcr⟩, #Hlev⟩, ⟨%f0, Hscr⟩⟩, Ho, ⟨%d0, %g0, %hg0, Hx⟩, ⟨%d1, %g1, %hg1, Hout⟩⟩ Hk
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- this device's landing buffer, chunk by chunk, for the y-peer
  ihave Hscr' := (Entails.of_eq (show scrPts c f0 = ((rM.view.loc (c : Thread nD τ)) ↦[rM.view.set]{fullShare} f0 : sProp 𝕄) from by
    unfold scrPts; rw [View.set_whole])) $$ Hscr
  ihave Hland := (land_chunks c fullShare f0).1 $$ Hscr'
  ihave Hland' := (ex_chunks (F := F) (ℓ := rM.view.loc (c : Thread nD τ)) (fun k => (rSl k).view.set) f0) $$ Hland
  -- this device's output buffer: its own half, and the other half for the x-peer
  ihave Hout' := (Entails.of_eq (show ((((c : Thread nD τ).loc cc0_stg1_0) ↦{fullShare} g1 : sProp 𝕄))
      = ((oM.view.loc (c : Thread nD τ)) ↦[oM.view.set]{fullShare} g1 : sProp 𝕄) from by rw [View.set_whole])) $$ Hout
  ihave Hoc := (out_chunks c c g1).1 $$ Hout'
  icases Hoc with ⟨Hown, Hoth⟩
  ihave Hoth' := (ex_chunks (F := F) (ℓ := oM.view.loc (c : Thread nD τ)) (fun k => (oSl (xp c) k).view.set) g1) $$ Hoth
  ihave Hown' := (ex_chunks (F := F) (ℓ := oM.view.loc (c : Thread nD τ)) (fun k => (oSl c k).view.set) g1) $$ Hown
  -- the input buffer: its own half, and the other
  ihave Hx' := (Entails.of_eq (show ((((c : Thread nD τ).loc cc0_stg0_0) ↦{fullShare} xstg m ρ c : sProp 𝕄))
      = ((xM.view.loc (c : Thread nD τ)) ↦[xM.view.set]{fullShare} xstg m ρ c : sProp 𝕄) from by rw [View.set_whole])) $$ Hx
  ihave Hxc := (in_chunks c c fullShare (xstg m ρ c)).1 $$ Hx'
  icases Hxc with ⟨Hxown, Hxoth⟩
  ihave #HiBy := ((rec_inv m ρ K (yp c, none))) $$ Hrec
  ihave #HiBx := ((rec_inv m ρ K (xp c, none))) $$ Hrec
  ihave #HiB := ((rec_inv m ρ K (c, none))) $$ Hrec
  ihave #HrBy := ((rec_reached m ρ K (yp c, none))) $$ Hrec
  ihave #HrBx := ((rec_reached m ρ K (xp c, none))) $$ Hrec
  -- the first signal: to the y-peer, with this device's landing buffer
  unfold O₀
  iapply (Rounds.wp_signal 𝒱₀ ER (sched m ρ) (c : Thread nD τ) none (dst := (yp c : Thread nD τ)) (κ := K (yp c, none))
      (d := false) (by rw [duties_bar]; exact Finset.mem_univ _) ((amount_bar m ρ (yp c) false).trans (by decide)) () (O₁ c) rfl)
    $$ [HO HtBy Hland']
  · isplitr; · iexact HiBy
    isplitl [HO]; · iexact HO
    isplitl [HtBy]; · iexact HtBy
    isplitl [Hland']
    · rw [payload_bar_false]; unfold barPayY; rw [yp_yp]; iexact Hland'
    · iexact HrBy
  iintro HO
  -- the second: to the x-peer, with the other half of this device's output buffer
  unfold O₁
  iapply (Rounds.wp_signal 𝒱₀ ER (sched m ρ) (c : Thread nD τ) none (dst := (xp c : Thread nD τ)) (κ := K (xp c, none))
      (d := true) (by rw [duties_bar]; exact Finset.mem_univ _) ((amount_bar m ρ (xp c) true).trans (by decide)) () (O₂ c) rfl)
    $$ [HO HtBx Hoth']
  · isplitr; · iexact HiBx
    isplitl [HO]; · iexact HO
    isplitl [HtBx]; · iexact HtBx
    isplitl [Hoth']
    · rw [payload_bar_true]; unfold barPayX; rw [xp_xp]; iexact Hoth'
    · iexact HrBx
  iintro HO
  -- the wait for both peers' signals
  iapply (Rounds.wp_wait_rest_token 𝒱₀ ER (sched m ρ) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HiB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPayY barPayX
  icases Hp with ⟨HpY, HpX⟩
  iapply Hk
  unfold Mid I1 Rest1
  iexists K
  isplitr; · iexact Hrec
  isplitr; · iexact Hlev
  -- regroup the per-chunk families
  rw [GE_zero, LT_zero, bigSep_empty]
  simp only [bigSep_sep']
  icases Htoks with ⟨Htys, Htyr, Htxs, Htxr⟩
  icases Hat with ⟨Hays, Hayr, Haxs, Haxr⟩
  icases Hcr with ⟨Hcyr, Hcxr⟩
  isplitl [HO Hxown HpY Htys Htyr]
  · iexists (insert (SemLoc.reg barS, ()) W)
    isplitl [HO]; · unfold O₂; iexact HO
    isplitl [Hxown HpY Htys Htyr]
    · isplitl [Hxown]; · iexact Hxown
      isplitl [HpY]; · iexact HpY
      isplitl [Htys]; · iexact Htys
      iexact Htyr
    · iempintro
  isplitl [Hcyr Hayr Hown' HpX Htxs Htxr]
  · isplitl [Hcyr]; · iexact Hcyr
    isplitl [Hayr]; · iexact Hayr
    isplitl [Hown']; · iexact Hown'
    isplitl [HpX]; · iexact HpX
    isplitl [Htxs]; · iexact Htxs
    iexact Htxr
  isplitl [Hcxr Haxr Hays Haxs]
  · isplitl [Hcxr]; · iexact Hcxr
    isplitl [Haxr]; · iexact Haxr
    isplitl [Hays]; · iexact Hays
    iexact Haxs
  iexact Hxoth

end Cert.Kernel.AR

end
-- ==== Proof.Bits.Trans.lean ====
/- Between the phases of a device's body: what one phase leaves, regrouped as the next one's invariant. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Entry
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Beside the second phase's invariant: the y-send credits, what the third phase's waits need, the other half of the input. -/
def Rest2 (c : Dev nD) : sProp 𝕄 :=
  iprop((bigSep Finset.univ fun k : Fin 32 => cred (tallyAt (ysCell c k) () NC))
    ∗ (bigSep Finset.univ fun k : Fin 32 => iprop(
        cred (tallyAt (xrCell c k) () NC) ∗ atPos ER (xrCell c k) 0 ∅ 0 ∗ atPos ER (ysCell c k) 0 ∅ 0 ∗ atPos ER (xsCell c k) 0 ∅ 0))
    ∗ (bigSep Finset.univ fun k : Fin 32 =>
        ((xSl (xp c) k).view.loc (c : Thread nD τ)) ↦[(xSl (xp c) k).view.set]{fullShare} xstg m ρ c))

/-- Beside the third phase's invariant: the landing chunks with their cells closed, both parts of the input. -/
def Rest3 (c : Dev nD) : sProp 𝕄 :=
  iprop((bigSep Finset.univ fun k : Fin 32 => iprop(yrPay m ρ c k ∗ semVal (yrCell c k) 0))
    ∗ (bigSep Finset.univ fun k : Fin 32 =>
        ((xSl c k).view.loc (c : Thread nD τ)) ↦[(xSl c k).view.set]{fullShare.right} xstg m ρ c)
    ∗ (bigSep Finset.univ fun k : Fin 32 =>
        ((xSl (xp c) k).view.loc (c : Thread nD τ)) ↦[(xSl (xp c) k).view.set]{fullShare} xstg m ρ c))

theorem to_phase2 (c : Dev nD) (W : Waits sig Unit) : iprop(I1 m ρ c W 32 ∗ Rest1 m ρ c) ⊢ iprop(I2 m ρ c 0 ∗ Rest2 m ρ c) := by
  unfold I1 I2 Rest1 Rest2
  rw [GE_top, LT_top, GE_zero, LT_zero, bigSep_empty, bigSep_empty, owedY_done, add_zero]
  simp only [bigSep_sep']
  iintro ⟨⟨HO, -, Hxr, Hcys⟩, H2, H3, Hxo⟩
  isplitl [HO H2 Hxr]
  · isplitl [HO]; · iexists W; iexact HO
    isplitl [H2]; · iexact H2
    isplitr; · iempintro
    iexact Hxr
  isplitl [Hcys]; · iexact Hcys
  isplitl [H3]; · iexact H3
  iexact Hxo

theorem to_phase3 (c : Dev nD) : iprop(I2 m ρ c 32 ∗ Rest2 m ρ c) ⊢ iprop(I3 m ρ c 0 ∗ Rest3 m ρ c) := by
  unfold I2 I3 Rest2 Rest3
  rw [GE_top, LT_top, GE_zero, LT_zero, bigSep_empty, bigSep_empty, owedX_done]
  simp only [bigSep_sep']
  iintro ⟨⟨HO, -, ⟨Hyp, Hsv, Hcxs⟩, Hxr⟩, Hcys, ⟨Hcxr, Haxr, Hays, Haxs⟩, Hxo⟩
  isplitl [HO Hcxr Haxr Hcys Hays Hcxs Haxs]
  · isplitl [HO]; · iexact HO
    isplitl [Hcxr Haxr Hcys Hays Hcxs Haxs]
    · isplitl [Hcxr]; · iexact Hcxr
      isplitl [Haxr]; · iexact Haxr
      isplitl [Hcys]; · iexact Hcys
      isplitl [Hays]; · iexact Hays
      isplitl [Hcxs]; · iexact Hcxs
      iexact Haxs
    · iempintro
  isplitl [Hyp Hsv]
  · isplitl [Hyp]; · iexact Hyp
    iexact Hsv
  isplitl [Hxr]; · iexact Hxr
  iexact Hxo

end Cert.Kernel.AR

end
-- ==== Proof.Bits.Phase2.lean ====
/- The second phase of a device's body, one chunk at a time: the y-peer's chunk a has landed; the device adds it to
   its own chunk a, stores the sum into its output, and sends that output chunk to the x-peer. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Data
import proofs.«900143_g7700000000000144_dist_ar_v7x_xy2x2_y_m2048_n512_f32_1_alg».proof.Proof.Bits.Phase1
import proofs.«900143_g7700000000000144_dist_ar_v7x_xy2x2_y_m2048_n512_f32_1_alg».proof.Proof.Bits.Inv
import proofs.«900143_g7700000000000144_dist_ar_v7x_xy2x2_y_m2048_n512_f32_1_alg».proof.Proof.Bits.Vals
import proofs.«900143_g7700000000000144_dist_ar_v7x_xy2x2_y_m2048_n512_f32_1_alg».proof.Proof.Bits.Geom
import proofs.«900143_g7700000000000144_dist_ar_v7x_xy2x2_y_m2048_n512_f32_1_alg».proof.Proof.Bits.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit of a chunk, whichever buffer it lies in -/

/-- Every chunk's transfer credits the same amount: a landing chunk's, -/
theorem NC_r (k : Fin 32) : (rSl k : Memref sig .tc .vmem S32x512 .f32).view.dmaCredit = NC := rfl
/-- and an output chunk's. -/
theorem NC_o (c : Dev nD) (k : Fin 32) : (oSl c k : Memref sig .tc .vmem S32x512 .f32).view.dmaCredit = NC := rfl

/-- What the x-peer's receive cell for chunk k delivers, spelt over this device's own half. -/
theorem xrPay_peer (c : Dev nD) (k : Fin 32) :
    xrPay m ρ (xp c) k
      = ((((oSl c k).view.loc ((xp c : Dev nD) : Thread nD τ)) ↦[(oSl c k).view.set]{fullShare} outFin m ρ (xp c)) : sProp 𝕄) := by
  have h : ∀ d : Dev nD, d = c →
      ((((oSl d k).view.loc ((xp c : Dev nD) : Thread nD τ)) ↦[(oSl d k).view.set]{fullShare} outFin m ρ (xp c)) : sProp 𝕄)
        = (((oSl c k).view.loc ((xp c : Dev nD) : Thread nD τ)) ↦[(oSl c k).view.set]{fullShare} outFin m ρ (xp c)) := by
    rintro d rfl; rfl
  exact h (xp (xp c)) (xp_xp c)

/-! ## Phase 2 -/

/-- Iteration a of the second phase: wait for the y-peer's chunk a, read the input and the landing chunk, store
    their sum into the output chunk, and send that chunk to the x-peer. -/
theorem x_step (K : Dev nD × Option (Fin 4 × Fin 32) → ℕ) (c n : Dev nD) (hn : n = xp c) (a : Fin 32)
    {hs1 : (xSl c a : Memref sig .tc .vmem S32x512 .f32).view.WordExact} {hd1 : (rSl a : Memref sig .tc .vmem S32x512 .f32).view.WordExact}
    {hl1 : (xM : Memref sig .tc .vmem S2048x512 .f32).view.LoadsAt (rectOwn' c a).toLoadRect}
    {hl2 : (rM : Memref sig .tc .vmem S1024x512 .f32).view.LoadsAt (rectR a).toLoadRect}
    {hl3 : (oM : Memref sig .tc .vmem S2048x512 .f32).view.LoadsAt (rectOwn' c a).toLoadRect}
    {hx : ((oM : Memref sig .tc .vmem S2048x512 .f32).access (rectOwn' c a)).Stores Finset.univ}
    {hm : (Finset.univ : Finset (rectOwn' c a).shape.Idx) = Finset.univ ∨ ∀ b, (rectOwn' c a).stride b = 1}
    {hsc : (oSl c a : Memref sig (Dev.tc n : Thread nD τ).2.kind .vmem S32x512 .f32).view.ref.isScScratch = false}
    {hsrc : (oSl c a : Memref sig .tc .vmem S32x512 .f32).view.WordExact} {hdst : (oSl c a : Memref sig .tc .vmem S32x512 .f32).view.WordExact}
    {hsem : DmaTarget.Typed .vmem (.dma (xrS a)) (.remote (Dev.tc n : Thread nD τ) (oSl c a : Memref sig .tc .vmem S32x512 .f32) (.dma (xsS a)) hsc)}
    {pay : Vec F S32x512 .f32 → Vec F S32x512 .f32 → FVec F S32x512 .f32}
    (hpay : ∀ vx vr, pay vx vr = addf (shapeCast S32x512 vx shapeCasts_S32x512_S32x512) vr)
    {α : Type} {Q : α → sProp 𝕄} {kk : PUnit → Prog (TpuEff nD τ sig (Elt F) Λ₀ .tc) α} :
    iprop(records m ρ K ∗ levAts L lv ∗ I2 m ρ c a.val)
      ⊢ iprop((I2 m ρ c (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (yrS a) (xSl c a) (rSl a) hs1 hd1) fun _ =>
               .op (.load xM (rectOwn' c a).toLoadRect hl1) fun vx =>
               .op (.load rM (rectR a).toLoadRect hl2) fun vr =>
               .op (.load oM (rectOwn' c a).toLoadRect hl3) fun _ =>
               .op (.store oM (rectOwn' c a) (pay vx vr) Finset.univ hx hm) fun _ =>
               .op (.enqueueDma (oSl c a) (.remote (Dev.tc n : Thread nD τ) (oSl c a) (.dma (xsS a)) hsc) (.dma (xrS a)) hsrc hdst hsem) kk) Q) := by
  subst hn
  unfold I2
  rw [GE_peel a, LT_push a,
    bigSep_univ_at (fun k : Fin 32 => (((xSl c k).view.loc (c : Thread nD τ)) ↦[(xSl c k).view.set]{fullShare.right} xstg m ρ c : sProp 𝕄)) a]
  iintro ⟨#Hrec, #Hlev, ⟨%W, HO⟩, ⟨⟨Hcr, Hat, ⟨%fo, Ho⟩, ⟨%fp, Hp⟩, Hts, Htr⟩, Hge⟩, Hlt, ⟨Hxa, Hxs⟩⟩ Hk
  ihave #Hiyr := ((rec_inv m ρ K (c, some (1, a))).trans (Entails.of_eq (by rw [kcell_yr]))) $$ Hrec
  ihave #Hixs := ((rec_inv m ρ K (c, some (2, a))).trans (Entails.of_eq (by rw [kcell_xs]))) $$ Hrec
  ihave #Hixr := ((rec_inv m ρ K (xp c, some (3, a))).trans (Entails.of_eq (by rw [kcell_xr]))) $$ Hrec
  ihave #Hrxs := ((rec_reached m ρ K (c, some (2, a))).trans (Entails.of_eq (by rw [kcell_xs]))) $$ Hrec
  ihave #Hrxr := ((rec_reached m ρ K (xp c, some (3, a))).trans (Entails.of_eq (by rw [kcell_xr]))) $$ Hrec
  -- the wait for the y-peer's chunk a: the landing chunk comes with it, holding the y-peer's rows; the cell closes
  iapply (Rounds.wp_wait_rest_token 𝒱₀ ER (sched m ρ) (c : Thread nD τ) none (κ := K (c, some (1, a)))
      (wpE_waitDma2_eq 𝒱₀ (c : Thread nD τ) none Set.univ) (Set.mem_univ _) () (O := owedX c a.val) (W := W) (R := 0) (m := 0) (T := ∅)
      (((Nat.zero_add _).trans (NC_r a)).trans (expect_yr m ρ c a).symm)) $$ [Hcr HO Hat]
  · isplitr; · iexact Hiyr
    isplitl [Hcr]; · iexact Hcr
    isplitl [HO]; · iexact HO
    isplitr; · iapply (mayWait_yr (F := F) c a a.val); iexact Hlev
    iexact Hat
  iintro ⟨HO, Hat, -, Hpay⟩
  ihave Hyr := (Entails.of_eq (rest_yr m ρ c a)) $$ Hpay
  imod (Rounds.cell_close ER (sched m ρ) (Set.mem_univ (K (c, some (1, a)))) (fun h => h) (R := 0 + 1) (duties_later m ρ (yrCell c a))) $$ [Hat] with Hz
  · isplitr; · iexact Hiyr
    iexact Hat
  unfold yrPay
  -- the loads of the input chunk, the landing chunk and the output chunk
  iapply (wp_load 𝒱₀ (c : Thread nD τ) none Set.univ (m := xM) (x_load_sub c a)) $$ Hxa; iintro Hxa
  iapply (wp_load 𝒱₀ (c : Thread nD τ) none Set.univ (m := rM) (r_load_sub a)) $$ Hyr; iintro Hyr
  iapply (wp_load 𝒱₀ (c : Thread nD τ) none Set.univ (m := oM) (o_load_sub c a)) $$ Ho; iintro Ho
  -- the store: the output chunk now holds this device's rows plus the y-peer's
  iapply (wp_store 𝒱₀ (c : Thread nD τ) none Set.univ (m := oM) (r := rectOwn' c a) (Mk := Finset.univ) (o_store_sub c a)) $$ Ho
  rw [hpay, V3 m ρ c a fo]
  iintro Ho
  -- the transfer of the output chunk to the x-peer, where it is the other half's final contents
  iapply (Rounds.wp_send_pointsTo 𝒱₀ ER (sched m ρ) (c : Thread nD τ) none (κ₁ := K (c, some (2, a))) (κ₂ := K (xp c, some (3, a)))
      (c' := ((xp c : Dev nD) : Thread nD τ)) (src := oSl c a) (dst := oSl c a) (sS := .dma (xsS a)) (sem := .dma (xrS a))
      (r₁ := 0) (r₂ := 0) (d₁ := false) (d₂ := false) (q := fullShare) (fs := outFin m ρ c) (fd := fp)
      (by rw [duties_xs]; exact Finset.mem_singleton_self _) (by rw [duties_xr]; exact Finset.mem_singleton_self _)
      () () NC (NC_o c a) (amount_xs m ρ c a false) (amount_xr m ρ (xp c) a false) (owedX c (a.val + 1)) (owedX_peel c a)
      (W := insert (SemLoc.dma (yrS a), ()) W)
      (by rw [payload_xs]; exact BI.Entails.refl _)
      (by rw [payload_xr, xrPay_peer, V2])) $$ [HO Ho Hp Hts Htr]
  · isplitr; · iexact Hixs
    isplitr; · iexact Hixr
    isplitl [Ho]; · iexact Ho
    isplitl [Hp]; · iexact Hp
    isplitl [HO]; · iexact HO
    isplitl [Hts]; · iexact Hts
    isplitr; · iexact Hrxs
    isplitl [Htr]; · iexact Htr
    iexact Hrxr
  iintro ⟨Hc, HO⟩
  iapply Hk
  isplitl [HO]; · iexists (insert (SemLoc.dma (yrS a), ()) W); iexact HO
  isplitl [Hge]; · iexact Hge
  isplitl [Hyr Hz Hc Hlt]
  · isplitr [Hlt]
    · isplitl [Hyr]; · iexact Hyr
      isplitl [Hz]; · iexact Hz
      iexact Hc
    · iexact Hlt
  isplitl [Hxa]; · iexact Hxa
  iexact Hxs

/-- info: 'Cert.Kernel.AR.x_step' depends on axioms: [propext, Classical.choice, Quot.sound] -/
#guard_msgs in #print axioms x_step

end Cert.Kernel.AR

end
-- ==== Proof.Bits.Phase3.lean ====
/- The third phase of a device's body, one chunk at a time: the waits for chunk a's arrival from the x-peer and for the
   completion of both of its own sends; and the end of the body, where the chunks of each buffer are put together. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Inv
import proofs.«900143_g7700000000000144_dist_ar_v7x_xy2x2_y_m2048_n512_f32_1_alg».proof.Proof.Bits.Geom
import proofs.«900143_g7700000000000144_dist_ar_v7x_xy2x2_y_m2048_n512_f32_1_alg».proof.Proof.Bits.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Phase 3 -/

/-- A wait naming a chunk of either staging buffer consumes one chunk's credit. -/
theorem credit_o (c : Dev nD) (k : Fin 32) : (oSl c k : Memref sig .tc .vmem S32x512 .f32).view.dmaCredit = NC := rfl
theorem credit_x (c : Dev nD) (k : Fin 32) : (xSl c k : Memref sig .tc .vmem S32x512 .f32).view.dmaCredit = NC := rfl

/-- Iteration a of the third phase: three waits, each for the whole round of its cell; each hands over the cell's
    payload and leaves the cell closed at zero. -/
theorem z_step (K : Dev nD × Option (Fin 4 × Fin 32) → ℕ) (c : Dev nD) (a : Fin 32)
    {h1 h2 h5 h6 : (oSl c a : Memref sig .tc .vmem S32x512 .f32).view.WordExact}
    {h3 : (rSl a : Memref sig .tc .vmem S32x512 .f32).view.WordExact}
    {h4 : (xSl c a : Memref sig .tc .vmem S32x512 .f32).view.WordExact}
    {α : Type} {Q : α → sProp 𝕄} {kk : PUnit → Prog (TpuEff nD τ sig (Elt F) Λ₀ .tc) α} :
    iprop(records m ρ K ∗ I3 m ρ c a.val)
      ⊢ iprop((I3 m ρ c (a.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (xrS a) (oSl c a) (oSl c a) h1 h2) fun _ =>
               .op (.waitDma2 (ysS a) (rSl a) (xSl c a) h3 h4) fun _ =>
               .op (.waitDma2 (xsS a) (oSl c a) (oSl c a) h5 h6) kk) Q) := by
  unfold I3
  rw [GE_peel a, LT_push a]
  iintro ⟨#Hrec, ⟨%W, HO⟩, ⟨⟨Hc1, Hat1, Hc2, Hat2, Hc3, Hat3⟩, Hge⟩, Hlt⟩ Hk
  ihave #Hi1 := ((rec_inv m ρ K (c, some (3, a))).trans (Entails.of_eq (by rw [kcell_xr]))) $$ Hrec
  ihave #Hi2 := ((rec_inv m ρ K (c, some (0, a))).trans (Entails.of_eq (by rw [kcell_ys]))) $$ Hrec
  ihave #Hi3 := ((rec_inv m ρ K (c, some (2, a))).trans (Entails.of_eq (by rw [kcell_xs]))) $$ Hrec
  -- the chunk of the other half, landed from the x-peer
  iapply (Rounds.wp_wait_rest_token 𝒱₀ ER (sched m ρ) (c : Thread nD τ) none (κ := K (c, some (3, a)))
      (wpE_waitDma2_eq 𝒱₀ (c : Thread nD τ) none Set.univ) (Set.mem_univ _) () (O := 0) (W := W) (R := 0) (m := 0) (T := ∅)
      (by rw [Nat.zero_add, expect_xr, credit_o])) $$ [Hc1 HO Hat1]
  · isplitr; · iexact Hi1
    isplitl [Hc1]; · iexact Hc1
    isplitl [HO]; · iexact HO
    isplitr; · rw [MayWait_zero]; iempintro
    iexact Hat1
  iintro ⟨HO, Hat1, -, Hp1⟩
  ihave Hp1 := (Entails.of_eq (rest_xr m ρ c a)) $$ Hp1
  -- the half share of the input chunk lent to the y-transfer
  iapply (Rounds.wp_wait_rest_token 𝒱₀ ER (sched m ρ) (c : Thread nD τ) none (κ := K (c, some (0, a)))
      (wpE_waitDma2_eq 𝒱₀ (c : Thread nD τ) none Set.univ) (Set.mem_univ _) () (O := 0)
      (W := insert (SemLoc.dma (xrS a), ()) W) (R := 0) (m := 0) (T := ∅)
      (by rw [Nat.zero_add, expect_ys, credit_x])) $$ [Hc2 HO Hat2]
  · isplitr; · iexact Hi2
    isplitl [Hc2]; · iexact Hc2
    isplitl [HO]; · iexact HO
    isplitr; · rw [MayWait_zero]; iempintro
    iexact Hat2
  iintro ⟨HO, Hat2, -, Hp2⟩
  ihave Hp2 := (Entails.of_eq (rest_ys m ρ c a)) $$ Hp2
  -- the output chunk lent to the x-transfer
  iapply (Rounds.wp_wait_rest_token 𝒱₀ ER (sched m ρ) (c : Thread nD τ) none (κ := K (c, some (2, a)))
      (wpE_waitDma2_eq 𝒱₀ (c : Thread nD τ) none Set.univ) (Set.mem_univ _) () (O := 0)
      (W := insert (SemLoc.dma (ysS a), ()) (insert (SemLoc.dma (xrS a), ()) W)) (R := 0) (m := 0) (T := ∅)
      (by rw [Nat.zero_add, expect_xs, credit_o])) $$ [Hc3 HO Hat3]
  · isplitr; · iexact Hi3
    isplitl [Hc3]; · iexact Hc3
    isplitl [HO]; · iexact HO
    isplitr; · rw [MayWait_zero]; iempintro
    iexact Hat3
  iintro ⟨HO, Hat3, -, Hp3⟩
  ihave Hp3 := (Entails.of_eq (rest_xs m ρ c a)) $$ Hp3
  -- the three cells have no later round: their counters at zero are the device's again
  imod (Rounds.cell_close ER (sched m ρ) (Set.mem_univ (K (c, some (3, a)))) (fun h => h) (R := 0 + 1)
    (duties_later m ρ (xrCell c a))) $$ [Hat1] with Hz1
  · isplitr; · iexact Hi1
    iexact Hat1
  imod (Rounds.cell_close ER (sched m ρ) (Set.mem_univ (K (c, some (0, a)))) (fun h => h) (R := 0 + 1)
    (duties_later m ρ (ysCell c a))) $$ [Hat2] with Hz2
  · isplitr; · iexact Hi2
    iexact Hat2
  imod (Rounds.cell_close ER (sched m ρ) (Set.mem_univ (K (c, some (2, a)))) (fun h => h) (R := 0 + 1)
    (duties_later m ρ (xsCell c a))) $$ [Hat3] with Hz3
  · isplitr; · iexact Hi3
    iexact Hat3
  iapply Hk
  isplitl [HO]; · iexists _; iexact HO
  isplitl [Hge]; · iexact Hge
  isplitr [Hlt]
  · isplitl [Hp1]; · iexact Hp1
    isplitl [Hz1]; · iexact Hz1
    isplitl [Hp2]; · iexact Hp2
    isplitl [Hz2]; · iexact Hz2
    isplitl [Hp3]; · iexact Hp3
    iexact Hz3
  iexact Hlt

/-! ## The end of the body -/

/-- The whole-buffer views name all of their buffers. -/
theorem whole_x (c : Dev nD) (q : PosShare TreeShare) (f : Buf (Elt F) (xM.view.loc (c : Thread nD τ))) :
    ((xM.view.loc (c : Thread nD τ)) ↦[xM.view.set]{q} f : sProp 𝕄) = (((c : Thread nD τ).loc cc0_stg0_0) ↦{q} f) := by
  rw [show xM.view.set = Finset.univ from View.set_whole _]
theorem whole_o (c : Dev nD) (q : PosShare TreeShare) (f : Buf (Elt F) (oM.view.loc (c : Thread nD τ))) :
    ((oM.view.loc (c : Thread nD τ)) ↦[oM.view.set]{q} f : sProp 𝕄) = (((c : Thread nD τ).loc cc0_stg1_0) ↦{q} f) := by
  rw [show oM.view.set = Finset.univ from View.set_whole _]
theorem whole_r (c : Dev nD) (q : PosShare TreeShare) (f : Buf (Elt F) (rM.view.loc (c : Thread nD τ))) :
    ((rM.view.loc (c : Thread nD τ)) ↦[rM.view.set]{q} f : sProp 𝕄) = (((c : Thread nD τ).loc cc0_scratch0) ↦{q} f) := by
  rw [show rM.view.set = Finset.univ from View.set_whole _]

/-- The landed chunks are the landing buffer at the y-peer's rows. -/
theorem scr_join (c : Dev nD) :
    (bigSep Finset.univ fun k : Fin 32 => yrPay m ρ c k : sProp 𝕄) = scrPts c (landed m ρ c) := by
  unfold yrPay scrPts
  rw [← land_chunks_eq c fullShare (landed m ρ c), whole_r]

/-- The input chunks of both halves are the input staging buffer. -/
theorem x_join (c : Dev nD) :
    (iprop((bigSep Finset.univ fun k : Fin 32 =>
          ((xSl c k).view.loc (c : Thread nD τ)) ↦[(xSl c k).view.set]{fullShare} xstg m ρ c)
        ∗ (bigSep Finset.univ fun k : Fin 32 =>
          ((xSl (xp c) k).view.loc (c : Thread nD τ)) ↦[(xSl (xp c) k).view.set]{fullShare} xstg m ρ c)) : sProp 𝕄)
      = (((c : Thread nD τ).loc cc0_stg0_0) ↦{fullShare} xstg m ρ c) := by
  rw [← in_chunks_eq c c fullShare (xstg m ρ c), whole_x]

/-- The returned chunks of the own half and the landed chunks of the other are the output staging buffer. -/
theorem o_join (c : Dev nD) :
    (iprop((bigSep Finset.univ fun k : Fin 32 => xsPay m ρ c k) ∗ (bigSep Finset.univ fun k : Fin 32 => xrPay m ρ c k)) : sProp 𝕄)
      = (((c : Thread nD τ).loc cc0_stg1_0) ↦{fullShare} outFin m ρ c) := by
  unfold xsPay xrPay
  rw [← out_chunks_eq c c fullShare (outFin m ρ c), whole_o]

/-- The two half shares of every own input chunk make the chunk whole. -/
theorem x_halves (c : Dev nD) :
    iprop((bigSep Finset.univ fun k : Fin 32 => ysPay m ρ c k)
        ∗ (bigSep Finset.univ fun k : Fin 32 =>
            ((xSl c k).view.loc (c : Thread nD τ)) ↦[(xSl c k).view.set]{fullShare.right} xstg m ρ c))
      ⊢ (bigSep Finset.univ fun k : Fin 32 =>
            ((xSl c k).view.loc (c : Thread nD τ)) ↦[(xSl c k).view.set]{fullShare} xstg m ρ c : sProp 𝕄) := by
  rw [← bigSep_sep']
  exact bigSep_mono fun k _ => by
    unfold ysPay
    exact (pointsTo_share (PosShare.mem_left_op_right fullShare)).2

/-- The 128 transfer cells of a device, array by array. -/
theorem cells_split (c : Dev nD) :
    (bigSep Finset.univ fun jk : Fin 4 × Fin 32 => (semVal (kcell (c, some jk)) 0 : sProp 𝕄))
      = iprop((bigSep Finset.univ fun k : Fin 32 => semVal (ysCell c k) 0)
          ∗ (bigSep Finset.univ fun k : Fin 32 => semVal (yrCell c k) 0)
          ∗ (bigSep Finset.univ fun k : Fin 32 => semVal (xsCell c k) 0)
          ∗ (bigSep Finset.univ fun k : Fin 32 => semVal (xrCell c k) 0)) := by
  rw [bigSep_univ_prod, bigSep_univ_eq_bigSepL [0, 1, 2, 3] (by decide) (by decide), bigSepL_cons_cons, bigSepL_cons_cons,
    bigSepL_cons_cons, bigSepL_singleton]
  simp only [kcell_ys, kcell_yr, kcell_xs, kcell_xr]
  rfl

/-- After the last iteration of the third phase: the body's post. -/
theorem finish (c : Dev nD) :
    iprop(I3 m ρ c 32
        ∗ (bigSep (LT 32) fun k => iprop(yrPay m ρ c k ∗ semVal (yrCell c k) 0))
        ∗ (bigSep Finset.univ fun k : Fin 32 =>
            ((xSl c k).view.loc (c : Thread nD τ)) ↦[(xSl c k).view.set]{fullShare.right} xstg m ρ c)
        ∗ (bigSep Finset.univ fun k : Fin 32 =>
            ((xSl (xp c) k).view.loc (c : Thread nD τ)) ↦[(xSl (xp c) k).view.set]{fullShare} xstg m ρ c))
      ⊢ bodyPost m ρ c := by
  unfold I3 bodyPost Φ₁
  rw [GE_top, bigSep_empty, LT_top, cells_split]
  simp only [bigSep_sep']
  iintro ⟨⟨⟨%W, HO⟩, -, Hxr, Hzxr, Hys, Hzys, Hxs, Hzxs⟩, ⟨Hyr, Hzyr⟩, HxR, HxO⟩
  isplitl [Hyr Hzys Hzyr Hzxs Hzxr]
  · isplitl [Hyr]
    · iapply (Entails.of_eq (scr_join m ρ c)); iexact Hyr
    isplitl [Hzys]; · iexact Hzys
    isplitl [Hzyr]; · iexact Hzyr
    isplitl [Hzxs]; · iexact Hzxs
    iexact Hzxr
  isplitl [HO]
  · unfold Dat.owesAt Pipeline.owesWithin
    iexists W
    isplitr; · ipureintro; exact fun _ _ => Or.inl trivial
    iexact HO
  isplitl [Hys HxR HxO]
  · iexists (xstg m ρ c)
    isplitr; · ipureintro; rfl
    iapply (Entails.of_eq (x_join m ρ c))
    isplitl [Hys HxR]
    · iapply (x_halves m ρ c)
      isplitl [Hys]; · iexact Hys
      iexact HxR
    iexact HxO
  · iexists (outFin m ρ c)
    isplitr; · ipureintro; rfl
    iapply (Entails.of_eq (o_join m ρ c))
    isplitl [Hxs]; · iexact Hxs
    iexact Hxr

/-- info: 'Cert.Kernel.AR.z_step' depends on axioms: [propext, Classical.choice, Quot.sound] -/
#guard_msgs in #print axioms z_step
/-- info: 'Cert.Kernel.AR.finish' depends on axioms: [propext, Classical.choice, Quot.sound] -/
#guard_msgs in #print axioms finish

end Cert.Kernel.AR

end
-- ==== Proof.Bits.Body.lean ====
/- The body of a device, stepped through its three phases, and the pipeline's body obligation. -/
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Bits.Trans
import proofs.«900143_g7700000000000144_dist_ar_v7x_xy2x2_y_m2048_n512_f32_1_alg».proof.Proof.Bits.Phase2
import proofs.«900143_g7700000000000144_dist_ar_v7x_xy2x2_y_m2048_n512_f32_1_alg».proof.Proof.Bits.Phase3
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean Elab Tactic in
/-- Runs the tactic text for i = 0 … 31, `{i}` standing for i and `{d}` for i plus the offset. -/
elab "for_chunks " off:num tpl:str : tactic => do
  for i in [0:32] do
    let s := (tpl.getString.replace "{i}" (toString i)).replace "{d}" (toString (i + off.getNat))
    match Parser.runParserCategory (← getEnv) `tactic s with
    | .ok stx => evalTactic stx
    | .error e => throwError e

set_option maxHeartbeats 16000000 in
set_option maxRecDepth 65536 in
/-- The body from its precondition to its postcondition: the entry handshake, 32 transfers to the y-peer, 32
    rounds of wait, add, store and transfer to the x-peer, 32 rounds of the three closing waits. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel]
  simp only [semSignalWord, semWaitWord, Prog.lift, Prog.bind_op, Prog.bind_ret, Prog.pure_eq_ret, wp_deviceId]
  iintro ⟨Hpre, Hk⟩
  iapply (entry m ρ c _ _ (dev1_eq c) (dev2_eq c)) $$ Hpre
  unfold Mid
  iintro ⟨%K, #Hrec, #Hlev, ⟨%W, H1⟩, HR⟩
  for_chunks 3 "(iapply (y_step m ρ K c _ (dev{d}_eq c) {i} W) $$ [H1]; (focus (isplitr; (focus iexact Hrec); iexact H1)); iintro H1)"
  ihave H2 := (to_phase2 m ρ c W) $$ [H1 HR]
  · isplitl [H1]; · iexact H1
    iexact HR
  icases H2 with ⟨H2, HR⟩
  for_chunks 35 "(iapply (x_step m ρ K c _ (dev{d}_eq c) {i} (fun _ _ => rfl)) $$ [H2]; (focus (isplitr; (focus iexact Hrec); isplitr; (focus iexact Hlev); iexact H2)); iintro H2)"
  ihave H3 := (to_phase3 m ρ c) $$ [H2 HR]
  · isplitl [H2]; · iexact H2
    iexact HR
  icases H3 with ⟨H3, HR⟩
  for_chunks 0 "(iapply (z_step m ρ K c {i}) $$ [H3]; (focus (isplitr; (focus iexact Hrec); iexact H3)); iintro H3)"
  rw [wp_ret]; imodintro
  iapply Hk
  iapply (finish m ρ c)
  unfold Rest3
  icases HR with ⟨Hy, Hxr, Hxo⟩
  isplitl [H3]; · iexact H3
  isplitl [Hy]; · rw [LT_top]; iexact Hy
  isplitl [Hxr]; · iexact Hxr
  iexact Hxo

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The pipeline's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  iintro H
  iapply (sound_body m ρ c fun _ => bodyPost m ρ c)
  isplitl [H]; · iexact H
  iintro H; iexact H

end Cert.Kernel.AR

end
-- ==== Proof.RefSide.lean ====
/- The reference program's run and the value it computes, index by index. -/
import proofs.«900143_g7700000000000144_dist_ar_v7x_xy2x2_y_m2048_n512_f32_1_alg».proof.Proof.Gen.ReferenceIdeal.Read
import proofs.«900143_g7700000000000144_dist_ar_v7x_xy2x2_y_m2048_n512_f32_1_alg».proof.Defs
import proofs.«900143_g7700000000000144_dist_ar_v7x_xy2x2_y_m2048_n512_f32_1_alg».proof.Proof.Gen.Pre_finite_inputs_ReferenceIdeal
import Idealize.ShloMosaic.Lib.Layout
import Idealize.ShloMosaic.PureOps.Ideal.Laws
import Idealize.ShloMosaic.Lib.ValueIdx
import Idealize.ShloMosaic.Lib.Pipeline.Value

noncomputable section

namespace Cert.RefSide

open Idealize.ShloMosaic Idealize.SL.Sem

/-- The block of the whole array `X` that device `c` of the 2 × 2 mesh holds: the rows are cut in two along the
    second mesh axis, so device `c` holds rows `(c % 2) · 2048 …` of `X`. -/
abbrev Blk (X : (⟨Cert.ReferenceIdeal.S4096x512, .f32⟩ : BufTy).Contents (Elt Ideal)) (c : Fin 4) :
    (⟨Cert.ReferenceIdeal.S2048x512, .f32⟩ : BufTy).Contents (Elt Ideal) :=
  Layout.blockN ⟨2, ![2048, 512]⟩ ⟨2, ![4096, 512]⟩ (Layout.meshBlock [2, 2] ![[1], []] c) X

/-- The reference's result as a function of its argument: the two row halves of `X` added onto zero. -/
def refOut (X : (⟨Cert.ReferenceIdeal.S4096x512, .f32⟩ : BufTy).Contents (Elt Ideal)) :
    (⟨Cert.ReferenceIdeal.S2048x512, .f32⟩ : BufTy).Contents (Elt Ideal) :=
  Cert.ReferenceIdeal.Read.val_main_v1 (F := Ideal) X

/-- Along the rows, device `c`'s block coordinate is its coordinate on the second mesh axis. -/
theorem lin_rows : ∀ c : Fin 4, Layout.meshLin [2, 2] c.val [1] = c.val % 2 := by decide

/-- Block `c` at `i` is the whole array at row `(c % 2) · 2048 + i₀`, column `i₁`. -/
theorem Blk_at (X : (⟨Cert.ReferenceIdeal.S4096x512, .f32⟩ : BufTy).Contents (Elt Ideal)) (c : Fin 4)
    (i : Cert.ReferenceIdeal.S2048x512.Idx) (j : Cert.ReferenceIdeal.S4096x512.Idx)
    (h0 : (j 0).val = (c.val % 2) * 2048 + (i 0).val) (h1 : (j 1).val = (i 1).val) :
    (Blk X c) i = X j := by
  show X _ = X j
  congr 1
  funext b
  apply Fin.ext
  rw [Layout.TilesN.idx_val]
  match b with
  | ⟨0, _⟩ =>
    refine Eq.trans ?_ h0.symm
    show Layout.meshLin [2, 2] c.val [1] * 2048 + (i 0).val = _
    rw [lin_rows]
  | ⟨1, _⟩ =>
    refine Eq.trans ?_ h1.symm
    show 0 * 512 + (i 1).val = _
    omega

/-- Two devices in the same mesh column hold the same block. -/
theorem blk_same_y (X : (⟨Cert.ReferenceIdeal.S4096x512, .f32⟩ : BufTy).Contents (Elt Ideal)) (c d : Fin 4)
    (h : c.val % 2 = d.val % 2) : Blk X c = Blk X d := by
  have hj : Layout.meshBlock [2, 2] ![[1], []] c = Layout.meshBlock [2, 2] ![[1], []] d := by
    funext b
    apply Fin.ext
    rw [Layout.meshBlock_val, Layout.meshBlock_val]
    match b with
    | ⟨0, _⟩ =>
      show Layout.meshLin [2, 2] c.val [1] = Layout.meshLin [2, 2] d.val [1]
      rw [lin_rows, lin_rows, h]
    | ⟨1, _⟩ => rfl
  delta Blk
  rw [hj]

/-- The sum of the upper and the lower row half of the whole array at `i` is the sum of the blocks of two devices
    of one mesh row, in either order: addition of extended reals is commutative. -/
theorem halves_eq (X : (⟨Cert.ReferenceIdeal.S4096x512, .f32⟩ : BufTy).Contents (Elt Ideal)) (c d : Fin 4)
    (h : d.val / 2 = c.val / 2 ∧ d.val % 2 ≠ c.val % 2) (i : Cert.ReferenceIdeal.S2048x512.Idx)
    (j0 j1 : Cert.ReferenceIdeal.S4096x512.Idx)
    (h00 : (j0 0).val = (i 0).val) (h01 : (j0 1).val = (i 1).val)
    (h10 : (j1 0).val = 2048 + (i 0).val) (h11 : (j1 1).val = (i 1).val) :
    (X j0 + X j1 : EReal) = (Blk X c) i + (Blk X d) i := by
  have hc2 : c.val % 2 < 2 := Nat.mod_lt _ (by decide)
  have hd2 : d.val % 2 < 2 := Nat.mod_lt _ (by decide)
  rcases Nat.lt_or_ge (c.val % 2) 1 with hc | hc
  · have hc0 : c.val % 2 = 0 := by omega
    have hd1 : d.val % 2 = 1 := by omega
    rw [Blk_at X c i j0 (by omega) h01, Blk_at X d i j1 (by omega) h11]
  · have hc1 : c.val % 2 = 1 := by omega
    have hd0 : d.val % 2 = 0 := by omega
    rw [Blk_at X c i j1 (by omega) h11, Blk_at X d i j0 (by omega) h01]
    exact add_comm (G := EReal) _ _

/-- The reference's result at `i` is the sum of the blocks of any two devices of one mesh row that differ in the
    second coordinate, the first device's block first. -/
theorem refOut_eq (X : (⟨Cert.ReferenceIdeal.S4096x512, .f32⟩ : BufTy).Contents (Elt Ideal)) (c d : Fin 4)
    (h : d.val / 2 = c.val / 2 ∧ d.val % 2 ≠ c.val % 2) (i : Cert.ReferenceIdeal.S2048x512.Idx) :
    (refOut X i : EReal) = (Blk X c) i + (Blk X d) i := by
  unfold refOut
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply, Ideal.ofBits_def, Ideal.ofBits_zero_f32, zero_add]
  have h0 := (i 0).isLt
  have h1 := (i 1).isLt
  refine halves_eq X c d h i _ _ ?_ ?_ ?_ ?_
  · show ((0 * 2048 + (i 0).val) * 512 + (i 1).val) / 512 = (i 0).val
    change (i 0).val < 2048 at h0; change (i 1).val < 512 at h1; omega
  · show ((0 * 2048 + (i 0).val) * 512 + (i 1).val) % 512 = (i 1).val
    change (i 0).val < 2048 at h0; change (i 1).val < 512 at h1; omega
  · show ((1 * 2048 + (i 0).val) * 512 + (i 1).val) / 512 = 2048 + (i 0).val
    change (i 0).val < 2048 at h0; change (i 1).val < 512 at h1; omega
  · show ((1 * 2048 + (i 0).val) * 512 + (i 1).val) % 512 = (i 1).val
    change (i 0).val < 2048 at h0; change (i 1).val < 512 at h1; omega

/-- The reference's run: every weakly fair execution terminates with the result buffer holding `refOut` of the
    argument's launch contents and the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run _ _ _).mono
    (fun _ h => ⟨(h 0).1.trans (Cert.ReferenceIdeal.Read.val_main_v1_eq (F := Ideal) _), (h 0).2⟩)
    (Cert.ReferenceIdeal.Value.run (F := Ideal) m' g')

/-- The reference terminates without a fault and leaves its argument unchanged: its run with the result dropped. -/
theorem ref_frame : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- info: 'Cert.RefSide.refOut_eq' depends on axioms: [propext, Classical.choice, Quot.sound] -/
#guard_msgs in #print axioms refOut_eq

/-- info: 'Cert.RefSide.ref_run' depends on axioms: [propext, Classical.choice, Quot.sound] -/
#guard_msgs in #print axioms ref_run

end Cert.RefSide

end
-- ==== Proof.ValueEq.lean ====
/- At the ideal instance the output every device ends with is the reference's result: on each half of the rows the
   sum a device formed, its own block plus its y-peer's, is block 0 plus block 1 of the whole input, in some order. -/
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Cells
import proofs.«900143_g7700000000000144_dist_ar_v7x_xy2x2_y_m2048_n512_f32_1_alg».proof.Proof.RefSide
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- The input block as staged is the device's argument buffer. -/
theorem xstg_eq (c : Dev nD) : xstg (F := Ideal) m ρ c = m ((c : Thread nD τ).loc main_arg0) := by
  unfold xstg
  first
    | exact Memref.read_access_unit_zero (Elt Ideal) main_arg0 (funext fun a => by fin_cases a <;> rfl) _ _
    | exact Memref.read_access_whole (Elt Ideal) main_arg0 _
    | rfl

theorem yp_parity (c : Dev nD) : (yp c).val / 2 = c.val / 2 ∧ (yp c).val % 2 ≠ c.val % 2 := by revert c; decide

/-- Under the claim's hypothesis — each device's argument buffer is its block of the reference's whole array —
    every device's final output is the reference's result. -/
theorem outFin_eq_ref (X : (⟨Cert.ReferenceIdeal.S4096x512, .f32⟩ : BufTy).Contents (Elt Ideal))
    (hagree : ∀ c : Dev nD, m ((c : Thread nD τ).loc main_arg0) = Cert.RefSide.Blk X c) (c : Dev nD) :
    outFin (F := Ideal) m ρ c = Cert.RefSide.refOut X := by
  funext i
  have hs : ∀ d : Dev nD, sumV (F := Ideal) m ρ d i = Cert.RefSide.refOut X i := by
    intro d
    unfold sumV
    rw [xstg_eq, xstg_eq, hagree d, hagree (yp d)]
    exact (Cert.RefSide.refOut_eq X d (yp d) (yp_parity d) i).symm
  unfold outFin
  split
  · exact hs c
  · exact hs (xp c)

end Cert.KernelIdeal.AR

end
-- ==== Proof.lean ====
/- The certificate of the all-reduce on the 2 × 2 mesh. Device (i, j) holds block j of the input rows. Each device
   adds its block and its y-peer's on one half of the rows (the half its first coordinate names) and receives the
   other half's sum from its x-peer, so every device ends with block 0 + block 1 on all rows: the reference's
   reduction of the input reshaped to two blocks. The frames run the kernels' protocol — an entry handshake on the
   barrier semaphore, 64 chunk transfers a device, each waited for — to termination; the value claim adds that the
   two sums agree as extended reals, where addition is commutative. -/
import proofs.«900143_g7700000000000144_dist_ar_v7x_xy2x2_y_m2048_n512_f32_1_alg».proof.Defs
import proofs.«900143_g7700000000000144_dist_ar_v7x_xy2x2_y_m2048_n512_f32_1_alg».proof.Proof.Gen.Kernel
import proofs.«900143_g7700000000000144_dist_ar_v7x_xy2x2_y_m2048_n512_f32_1_alg».proof.Proof.Gen.Kernel.Skeleton
import proofs.«900143_g7700000000000144_dist_ar_v7x_xy2x2_y_m2048_n512_f32_1_alg».proof.Proof.Gen.Kernel.Launch
import proofs.«900143_g7700000000000144_dist_ar_v7x_xy2x2_y_m2048_n512_f32_1_alg».proof.Proof.Gen.Kernel.Points
import proofs.«900143_g7700000000000144_dist_ar_v7x_xy2x2_y_m2048_n512_f32_1_alg».proof.Proof.Gen.Kernel.Frame
import proofs.«900143_g7700000000000144_dist_ar_v7x_xy2x2_y_m2048_n512_f32_1_alg».proof.Proof.Gen.KernelIdeal
import proofs.«900143_g7700000000000144_dist_ar_v7x_xy2x2_y_m2048_n512_f32_1_alg».proof.Proof.Gen.KernelIdeal.Skeleton
import proofs.«900143_g7700000000000144_dist_ar_v7x_xy2x2_y_m2048_n512_f32_1_alg».proof.Proof.Gen.KernelIdeal.Launch
import proofs.«900143_g7700000000000144_dist_ar_v7x_xy2x2_y_m2048_n512_f32_1_alg».proof.Proof.Gen.KernelIdeal.Points
import proofs.«900143_g7700000000000144_dist_ar_v7x_xy2x2_y_m2048_n512_f32_1_alg».proof.Proof.Gen.KernelIdeal.Frame
import proofs.«900143_g7700000000000144_dist_ar_v7x_xy2x2_y_m2048_n512_f32_1_alg».proof.Proof.Gen.ReferenceIdeal
import proofs.«900143_g7700000000000144_dist_ar_v7x_xy2x2_y_m2048_n512_f32_1_alg».proof.Proof.Gen.Pre_finite_inputs_Kernel
import proofs.«900143_g7700000000000144_dist_ar_v7x_xy2x2_y_m2048_n512_f32_1_alg».proof.Proof.Gen.Pre_finite_inputs_ReferenceIdeal
import proofs.«900143_g7700000000000144_dist_ar_v7x_xy2x2_y_m2048_n512_f32_1_alg».proof.Proof.Launch
import proofs.«900143_g7700000000000144_dist_ar_v7x_xy2x2_y_m2048_n512_f32_1_alg».proof.Proof.Body
import proofs.«900143_g7700000000000144_dist_ar_v7x_xy2x2_y_m2048_n512_f32_1_alg».proof.Proof.Bits.Launch
import proofs.«900143_g7700000000000144_dist_ar_v7x_xy2x2_y_m2048_n512_f32_1_alg».proof.Proof.Bits.Body
import proofs.«900143_g7700000000000144_dist_ar_v7x_xy2x2_y_m2048_n512_f32_1_alg».proof.Proof.ValueEq
import Idealize.ShloMosaic.Adequacy
import Idealize.ShloMosaic.Init

noncomputable section

namespace Cert.Proof

open Idealize.ShloMosaic Idealize.SL.Sem

/-- The word-level kernel runs to the end on all four devices and leaves its argument blocks unchanged. -/
theorem frame_Kernel : Cert.frame_Kernel (hKernel := Cert.Kernel.Gen.facts) (hPre_finite_inputs_Kernel := Cert.Pre_finite_inputs_Kernel.Gen.facts) :=
  fun m ρ _ => (θ_run _ _ _).mono (fun _ h c => Cert.Kernel.AR.QC_arg m ρ h c)
    (Cert.Kernel.AR.run_main m ρ (Cert.Kernel.AR.body_obligation m ρ))

/-- So does the idealized kernel, and every device's result is the sum of the two blocks in the order it formed it. -/
theorem frame_KernelIdeal : Cert.frame_KernelIdeal (hKernelIdeal := Cert.KernelIdeal.Gen.facts) (hPre_finite_inputs_Kernel := Cert.Pre_finite_inputs_Kernel.Gen.facts) :=
  fun m ρ _ => (θ_run _ _ _).mono (fun _ h c => Cert.KernelIdeal.AR.QC_arg m ρ h c)
    (Cert.KernelIdeal.AR.run_main m ρ (Cert.KernelIdeal.AR.body_obligation m ρ))

/-- The two idealized programs end with the same result on every device. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m ρ m' ρ' _ hagree =>
    ⟨Cert.RefSide.refOut (m' (((0 : Dev Cert.ReferenceIdeal.nD).tc : Thread Cert.ReferenceIdeal.nD Cert.ReferenceIdeal.τ).loc Cert.ReferenceIdeal.main_arg0)),
      (θ_run _ _ _).mono (fun _ h c =>
          ⟨(Cert.KernelIdeal.AR.QC_out m ρ h c).trans (Cert.KernelIdeal.AR.outFin_eq_ref m ρ _ hagree c), Cert.KernelIdeal.AR.QC_arg m ρ h c⟩)
        (Cert.KernelIdeal.AR.run_main m ρ (Cert.KernelIdeal.AR.body_obligation m ρ)),
      Cert.RefSide.ref_run m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, Cert.RefSide.ref_frame, trivial, algebraic⟩

end Cert.Proof

end
